-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v109)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v58)) (v3 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_v67) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192 : Shape := ⟨2, ![4, 8192]⟩
abbrev S3x3 : Shape := ⟨2, ![3, 3]⟩
abbrev S8192x8192 : Shape := ⟨2, ![8192, 8192]⟩
abbrev S_ : Shape := ⟨0, ![]⟩

class Facts : Prop where
  bcast_S_S4x8192 : S_.BroadcastsInDim S4x8192 (![] : Fin 0 → Fin S4x8192.rank)
  reducesTo_S4x8192_S_d0_1 : S4x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S4x8192 .f32) (main_arg1 : IVec S3x3 32) (main_arg2 : FVec F S8192x8192 .f32) : IVec S_ 1 :=
  let main_v0 : FVec F S4x8192 .f32 := Host.absf main_arg0
  let main_cst : FVec F S_ .f32 := constant S_ .f32 0x7F800000#32
  let main_v1 : FVec F S4x8192 .f32 := broadcastInDim S4x8192 ![] bcast_S_S4x8192 main_cst
  let main_v2 : IVec S4x8192 1 := cmpf .olt main_v0 main_v1
  let main_c : IVec S_ 1 := constantI S_ 1 1#1
  let main_v3 : IVec S_ 1 := (fun x v => Host.reduce IntOp.andi x v reducesTo_S4x8192_S_d0_1 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S4x8192 : Shape := ⟨2, ![4, 8192]⟩
abbrev S3x3 : Shape := ⟨2, ![3, 3]⟩
abbrev S8192x8192 : Shape := ⟨2, ![8192, 8192]⟩
abbrev S4x1024 : Shape := ⟨2, ![4, 1024]⟩
abbrev S1024x2048 : Shape := ⟨2, ![1024, 2048]⟩
abbrev S4x2048 : Shape := ⟨2, ![4, 2048]⟩
abbrev S4x1x8192 : Shape := ⟨3, ![4, 1, 8192]⟩
abbrev S1x4x8192 : Shape := ⟨3, ![1, 4, 8192]⟩
abbrev S4x4x8192 : Shape := ⟨3, ![4, 4, 8192]⟩
abbrev S_ : Shape := ⟨0, ![]⟩
abbrev S4x4 : Shape := ⟨2, ![4, 4]⟩
abbrev S3x8192 : Shape := ⟨2, ![3, 8192]⟩
abbrev S3x1x8192 : Shape := ⟨3, ![3, 1, 8192]⟩
abbrev S1x3x8192 : Shape := ⟨3, ![1, 3, 8192]⟩
abbrev S3x3x8192 : Shape := ⟨3, ![3, 3, 8192]⟩
abbrev S1x1 : Shape := ⟨2, ![1, 1]⟩
abbrev S1 : Shape := ⟨1, ![1]⟩
abbrev S2 : Shape := ⟨1, ![2]⟩
abbrev S3 : Shape := ⟨1, ![3]⟩
abbrev S1x3 : Shape := ⟨2, ![1, 3]⟩
abbrev S1x8192 : Shape := ⟨2, ![1, 8192]⟩

abbrev nBuf : Space → Nat
  | .hbm => 157
  | .vmem => 7
  | .smem => 0
  | _ => 0

abbrev hbmTy0_0 (i : Nat) : BufTy := match i % 128 with
  | 0 => ⟨S4x8192, .f32⟩
  | 1 => ⟨S3x3, .i32⟩
  | 2 => ⟨S8192x8192, .f32⟩
  | 3 => ⟨S4x8192, .f32⟩
  | 4 => ⟨S4x1x8192, .f32⟩
  | 5 => ⟨S1x4x8192, .f32⟩
  | 6 => ⟨S4x4x8192, .f32⟩
  | 7 => ⟨S4x4x8192, .f32⟩
  | 8 => ⟨S4x4x8192, .f32⟩
  | 9 => ⟨S4x4x8192, .f32⟩
  | 10 => ⟨S_, .f32⟩
  | 11 => ⟨S4x4, .f32⟩
  | 12 => ⟨S_, .f32⟩
  | 13 => ⟨S4x4, .f32⟩
  | 14 => ⟨S4x4, .i1⟩
  | 15 => ⟨S_, .f32⟩
  | 16 => ⟨S_, .f32⟩
  | 17 => ⟨S4x4, .f32⟩
  | 18 => ⟨S4x4, .f32⟩
  | 19 => ⟨S_, .f32⟩
  | 20 => ⟨S4x4, .f32⟩
  | 21 => ⟨S4x4, .i1⟩
  | 22 => ⟨S4x4, .f32⟩
  | 23 => ⟨S_, .f32⟩
  | 24 => ⟨S_, .f32⟩
  | 25 => ⟨S4x4, .f32⟩
  | 26 => ⟨S4x4, .f32⟩
  | 27 => ⟨S3x8192, .f32⟩
  | 28 => ⟨S3x8192, .f32⟩
  | 29 => ⟨S3x1x8192, .f32⟩
  | 30 => ⟨S1x3x8192, .f32⟩
  | 31 => ⟨S3x3x8192, .f32⟩
  | 32 => ⟨S3x3x8192, .f32⟩
  | 33 => ⟨S3x3x8192, .f32⟩
  | 34 => ⟨S3x3x8192, .f32⟩
  | 35 => ⟨S_, .f32⟩
  | 36 => ⟨S3x3, .f32⟩
  | 37 => ⟨S_, .f32⟩
  | 38 => ⟨S3x3, .f32⟩
  | 39 => ⟨S3x3, .i1⟩
  | 40 => ⟨S_, .f32⟩
  | 41 => ⟨S_, .f32⟩
  | 42 => ⟨S3x3, .f32⟩
  | 43 => ⟨S3x3, .f32⟩
  | 44 => ⟨S_, .f32⟩
  | 45 => ⟨S3x3, .f32⟩
  | 46 => ⟨S3x3, .i1⟩
  | 47 => ⟨S3x3, .f32⟩
  | 48 => ⟨S_, .f32⟩
  | 49 => ⟨S_, .f32⟩
  | 50 => ⟨S3x3, .f32⟩
  | 51 => ⟨S3x3, .f32⟩
  | 52 => ⟨S_, .f32⟩
  | 53 => ⟨S4x4, .f32⟩
  | 54 => ⟨S4x4, .i1⟩
  | 55 => ⟨S_, .f32⟩
  | 56 => ⟨S4x4, .f32⟩
  | 57 => ⟨S4x4, .f32⟩
  | 58 => ⟨S4x4, .f32⟩
  | 59 => ⟨S_, .f32⟩
  | 60 => ⟨S3x3, .f32⟩
  | 61 => ⟨S3x3, .i1⟩
  | 62 => ⟨S_, .f32⟩
  | 63 => ⟨S3x3, .f32⟩
  | 64 => ⟨S3x3, .f32⟩
  | 65 => ⟨S3x3, .f32⟩
  | 66 => ⟨S1x1, .f32⟩
  | 67 => ⟨S_, .f32⟩
  | 68 => ⟨S1x1, .f32⟩
  | 69 => ⟨S_, .f32⟩
  | 70 => ⟨S1x1, .f32⟩
  | 71 => ⟨S_, .f32⟩
  | 72 => ⟨S_, .f32⟩
  | 73 => ⟨S_, .f32⟩
  | 74 => ⟨S_, .f32⟩
  | 75 => ⟨S_, .f32⟩
  | 76 => ⟨S1x1, .f32⟩
  | 77 => ⟨S_, .f32⟩
  | 78 => ⟨S1x1, .f32⟩
  | 79 => ⟨S_, .f32⟩
  | 80 => ⟨S1x1, .f32⟩
  | 81 => ⟨S_, .f32⟩
  | 82 => ⟨S_, .f32⟩
  | 83 => ⟨S_, .f32⟩
  | 84 => ⟨S_, .f32⟩
  | 85 => ⟨S_, .f32⟩
  | 86 => ⟨S1x1, .f32⟩
  | 87 => ⟨S_, .f32⟩
  | 88 => ⟨S1x1, .f32⟩
  | 89 => ⟨S_, .f32⟩
  | 90 => ⟨S1x1, .f32⟩
  | 91 => ⟨S_, .f32⟩
  | 92 => ⟨S_, .f32⟩
  | 93 => ⟨S_, .f32⟩
  | 94 => ⟨S_, .f32⟩
  | 95 => ⟨S_, .f32⟩
  | 96 => ⟨S_, .i32⟩
  | 97 => ⟨S1, .i32⟩
  | 98 => ⟨S_, .i32⟩
  | 99 => ⟨S1, .i32⟩
  | 100 => ⟨S2, .i32⟩
  | 101 => ⟨S3x3, .f32⟩
  | 102 => ⟨S_, .i32⟩
  | 103 => ⟨S1, .i32⟩
  | 104 => ⟨S_, .i32⟩
  | 105 => ⟨S1, .i32⟩
  | 106 => ⟨S2, .i32⟩
  | 107 => ⟨S3x3, .f32⟩
  | 108 => ⟨S_, .i32⟩
  | 109 => ⟨S1, .i32⟩
  | 110 => ⟨S_, .i32⟩
  | 111 => ⟨S1, .i32⟩
  | 112 => ⟨S2, .i32⟩
  | 113 => ⟨S3x3, .f32⟩
  | 114 => ⟨S_, .i32⟩
  | 115 => ⟨S1, .i32⟩
  | 116 => ⟨S_, .i32⟩
  | 117 => ⟨S1, .i32⟩
  | 118 => ⟨S2, .i32⟩
  | 119 => ⟨S3x3, .f32⟩
  | 120 => ⟨S_, .i32⟩
  | 121 => ⟨S1, .i32⟩
  | 122 => ⟨S_, .i32⟩
  | 123 => ⟨S1, .i32⟩
  | 124 => ⟨S2, .i32⟩
  | 125 => ⟨S3x3, .f32⟩
  | 126 => ⟨S_, .i32⟩
  | 127 => ⟨S1, .i32⟩
  | _ => ⟨S4x8192, .f32⟩

abbrev hbmTy0_1 (i : Nat) : BufTy := match i % 128 with
  | 0 => ⟨S_, .i32⟩
  | 1 => ⟨S1, .i32⟩
  | 2 => ⟨S2, .i32⟩
  | 3 => ⟨S3x3, .f32⟩
  | 4 => ⟨S_, .i32⟩
  | 5 => ⟨S3x3, .i32⟩
  | 6 => ⟨S3x3, .i1⟩
  | 7 => ⟨S_, .f32⟩
  | 8 => ⟨S_, .f32⟩
  | 9 => ⟨S3x3, .f32⟩
  | 10 => ⟨S3x3, .f32⟩
  | 11 => ⟨S_, .f32⟩
  | 12 => ⟨S3, .f32⟩
  | 13 => ⟨S_, .f32⟩
  | 14 => ⟨S3, .f32⟩
  | 15 => ⟨S3, .f32⟩
  | 16 => ⟨S1x3, .f32⟩
  | 17 => ⟨S3x3, .f32⟩
  | 18 => ⟨S3x3, .f32⟩
  | 19 => ⟨S3x3, .f32⟩
  | 20 => ⟨S_, .f32⟩
  | 21 => ⟨S3, .f32⟩
  | 22 => ⟨S1x3, .f32⟩
  | 23 => ⟨S3x3, .f32⟩
  | 24 => ⟨S3x3, .f32⟩
  | 25 => ⟨S3x8192, .f32⟩
  | 26 => ⟨S3x8192, .f32⟩
  | 27 => ⟨S1x8192, .f32⟩
  | 28 => ⟨S4x8192, .f32⟩
  | _ => ⟨S4x8192, .f32⟩

abbrev hbmTy (i : Nat) : BufTy := match i / 128 with
  | 0 => hbmTy0_0 i
  | 1 => hbmTy0_1 i
  | _ => ⟨S4x8192, .f32⟩

abbrev bufTy : (tb : Table) → Fin (tcTables nBuf tb) → BufTy
  | .hbm, ⟨i, _⟩ => hbmTy i
  | .local _ .vmem, ⟨0, _⟩ => ⟨S4x1024, .f32⟩
  | .local _ .vmem, ⟨1, _⟩ => ⟨S4x1024, .f32⟩
  | .local _ .vmem, ⟨2, _⟩ => ⟨S1024x2048, .f32⟩
  | .local _ .vmem, ⟨3, _⟩ => ⟨S1024x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_call3_v0 : Ref sig .tc := ⟨.hbm, 49, rfl⟩
abbrev main_call3_v1 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_11 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_c : Ref sig .tc := ⟨.hbm, 96, rfl⟩
abbrev main_v68 : Ref sig .tc := ⟨.hbm, 97, rfl⟩
abbrev main_c_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_17 : Ref sig .tc := ⟨.hbm, 102, rfl⟩
abbrev main_v72 : Ref sig .tc := ⟨.hbm, 103, rfl⟩
abbrev main_c_18 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_19 : Ref sig .tc := ⟨.hbm, 108, rfl⟩
abbrev main_v76 : Ref sig .tc := ⟨.hbm, 109, rfl⟩
abbrev main_c_20 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_21 : Ref sig .tc := ⟨.hbm, 114, rfl⟩
abbrev main_v80 : Ref sig .tc := ⟨.hbm, 115, rfl⟩
abbrev main_c_22 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_23 : Ref sig .tc := ⟨.hbm, 120, rfl⟩
abbrev main_v84 : Ref sig .tc := ⟨.hbm, 121, rfl⟩
abbrev main_c_24 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_25 : Ref sig .tc := ⟨.hbm, 126, rfl⟩
abbrev main_v88 : Ref sig .tc := ⟨.hbm, 127, rfl⟩
abbrev main_c_26 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_27 : Ref sig .tc := ⟨.hbm, 132, rfl⟩
abbrev main_v92 : Ref sig .tc := ⟨.hbm, 133, rfl⟩
abbrev main_v93 : Ref sig .tc := ⟨.hbm, 134, rfl⟩
abbrev main_cst_28 : Ref sig .tc := ⟨.hbm, 135, rfl⟩
abbrev main_call6_v0 : Ref sig .tc := ⟨.hbm, 136, rfl⟩
abbrev main_call6_v1 : Ref sig .tc := ⟨.hbm, 137, rfl⟩
abbrev main_v94 : Ref sig .tc := ⟨.hbm, 138, rfl⟩
abbrev main_cst_29 : Ref sig .tc := ⟨.hbm, 139, rfl⟩
abbrev main_v95 : Ref sig .tc := ⟨.hbm, 140, rfl⟩
abbrev main_cst_30 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_31 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  inb_S4x1024_S4x1024_0_0 : ∀ a, (![0, 0] : Fin 2 → Nat) a + S4x1024.size a ≤ S4x1024.size a
  h_S4x1024 : 0 < S4x1024.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  bcast_S4x8192_S4x1x8192_0_2 : S4x8192.BroadcastsInDim S4x1x8192 (![0, 2] : Fin 2 → Fin S4x1x8192.rank)
  bcast_S4x8192_S1x4x8192_1_2 : S4x8192.BroadcastsInDim S1x4x8192 (![1, 2] : Fin 2 → Fin S1x4x8192.rank)
  bcast_S4x1x8192_S4x4x8192_0_1_2 : S4x1x8192.BroadcastsInDim S4x4x8192 (![0, 1, 2] : Fin 3 → Fin S4x4x8192.rank)
  bcast_S1x4x8192_S4x4x8192_0_1_2 : S1x4x8192.BroadcastsInDim S4x4x8192 (![0, 1, 2] : Fin 3 → Fin S4x4x8192.rank)
  reducesTo_S4x4x8192_S4x4_d2 : S4x4x8192.ReducesTo [2] S4x4
  h_S_ : 0 < S_.numel
  bcast_S_S4x4 : S_.BroadcastsInDim S4x4 (![] : Fin 0 → Fin S4x4.rank)
  slices_S4x8192_S3x8192_1_0 : S4x8192.Slices ![1, 0] S3x8192
  bcast_S3x8192_S3x1x8192_0_2 : S3x8192.BroadcastsInDim S3x1x8192 (![0, 2] : Fin 2 → Fin S3x1x8192.rank)
  bcast_S3x8192_S1x3x8192_1_2 : S3x8192.BroadcastsInDim S1x3x8192 (![1, 2] : Fin 2 → Fin S1x3x8192.rank)
  bcast_S3x1x8192_S3x3x8192_0_1_2 : S3x1x8192.BroadcastsInDim S3x3x8192 (![0, 1, 2] : Fin 3 → Fin S3x3x8192.rank)
  bcast_S1x3x8192_S3x3x8192_0_1_2 : S1x3x8192.BroadcastsInDim S3x3x8192 (![0, 1, 2] : Fin 3 → Fin S3x3x8192.rank)
  reducesTo_S3x3x8192_S3x3_d2 : S3x3x8192.ReducesTo [2] S3x3
  bcast_S_S3x3 : S_.BroadcastsInDim S3x3 (![] : Fin 0 → Fin S3x3.rank)
  slices_S4x4_S1x1_1_2 : S4x4.Slices ![1, 2] S1x1
  shapeCasts_S1x1_S_ : S1x1.ShapeCasts S_
  slices_S4x4_S1x1_0_1 : S4x4.Slices ![0, 1] S1x1
  slices_S4x4_S1x1_0_2 : S4x4.Slices ![0, 2] S1x1
  slices_S4x4_S1x1_1_3 : S4x4.Slices ![1, 3] S1x1
  slices_S4x4_S1x1_0_3 : S4x4.Slices ![0, 3] S1x1
  slices_S4x4_S1x1_2_3 : S4x4.Slices ![2, 3] S1x1
  bcast_S_S1 : S_.BroadcastsInDim S1 (![] : Fin 0 → Fin S1.rank)
  concatenates_S1_S1_S2_d0 : Shape.Concatenates [S1, S1] S2 0
  reducesTo_S3x3_S3_d0 : S3x3.ReducesTo [0] S3
  bcast_S_S3 : S_.BroadcastsInDim S3 (![] : Fin 0 → Fin S3.rank)
  bcast_S3_S1x3_1 : S3.BroadcastsInDim S1x3 (![1] : Fin 1 → Fin S1x3.rank)
  bcast_S1x3_S3x3_0_1 : S1x3.BroadcastsInDim S3x3 (![0, 1] : Fin 2 → Fin S3x3.rank)
  slices_S4x8192_S1x8192_0_0 : S4x8192.Slices ![0, 0] S1x8192
  concatenates_S1x8192_S3x8192_S4x8192_d0 : Shape.Concatenates [S1x8192, S3x8192] S4x8192 0
  dot_S4x1024_S1024x2048_S4x2048_1_0_0_1_n_n_wf : DotDims.WF S4x1024 S1024x2048 S4x2048 [1] [0] [0] [1] [] []
  scatter_S3x3_S2_S__n_01_01_0_wf : ScatterDims.WF S3x3 S2 S_ [] [0, 1] [0, 1] 0
  dot_S3x3_S3x8192_S3x8192_1_0_0_1_n_n_wf : DotDims.WF S3x3 S3x8192 S3x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024.size a ≤ S4x8192.size a
  hwx0_0 : ∀ i : grid0.Coords, EltTy.bits .f32 = 32 ∨ (Rect.block (s := S4x8192) S4x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x8192.size a
  hwx0_2 : ∀ i : grid0.Coords, EltTy.bits .f32 = 32 ∨ (Rect.block (s := S4x8192) S4x2048.size (cc0_transform_2 i) (hinb0_2 i)).WholeWords (EltTy.packing .f32)

variable [Facts₀]

def dot_S4x1024_S1024x2048_S4x2048_1_0_0_1_n_n : DotDims S4x1024 S1024x2048 S4x2048 where
  lhsContracting := [1]
  rhsContracting := [0]
  lhsNonContracting := [0]
  rhsNonContracting := [1]
  lhsBatch := []
  rhsBatch := []
  wf := dot_S4x1024_S1024x2048_S4x2048_1_0_0_1_n_n_wf
def scatter_S3x3_S2_S__n_01_01_0 : ScatterDims S3x3 S2 S_ where
  updateWindowDims := []
  insertedWindowDims := [0, 1]
  scatterDimsToOperandDims := [0, 1]
  indexVectorDim := 0
  wf := scatter_S3x3_S2_S__n_01_01_0_wf
def dot_S3x3_S3x8192_S3x8192_1_0_0_1_n_n : DotDims S3x3 S3x8192 S3x8192 where
  lhsContracting := [1]
  rhsContracting := [0]
  lhsNonContracting := [0]
  rhsNonContracting := [1]
  lhsBatch := []
  rhsBatch := []
  wf := dot_S3x3_S3x8192_S3x8192_1_0_0_1_n_n_wf

abbrev win0_0 : Pipeline.Window sig grid0 :=
  Pipeline.Window.ofSpec (Memref.whole main_arg0) S4x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8192 : Shape := ⟨2, ![4, 8192]⟩
abbrev S3x3 : Shape := ⟨2, ![3, 3]⟩
abbrev S8192x8192 : Shape := ⟨2, ![8192, 8192]⟩
abbrev S4x1x8192 : Shape := ⟨3, ![4, 1, 8192]⟩
abbrev S1x4x8192 : Shape := ⟨3, ![1, 4, 8192]⟩
abbrev S4x4x8192 : Shape := ⟨3, ![4, 4, 8192]⟩
abbrev S_ : Shape := ⟨0, ![]⟩
abbrev S4x4 : Shape := ⟨2, ![4, 4]⟩
abbrev S3x8192 : Shape := ⟨2, ![3, 8192]⟩
abbrev S3x1x8192 : Shape := ⟨3, ![3, 1, 8192]⟩
abbrev S1x3x8192 : Shape := ⟨3, ![1, 3, 8192]⟩
abbrev S3x3x8192 : Shape := ⟨3, ![3, 3, 8192]⟩
abbrev S1x1 : Shape := ⟨2, ![1, 1]⟩
abbrev S1 : Shape := ⟨1, ![1]⟩
abbrev S2 : Shape := ⟨1, ![2]⟩
abbrev S3 : Shape := ⟨1, ![3]⟩
abbrev S1x3 : Shape := ⟨2, ![1, 3]⟩
abbrev S1x8192 : Shape := ⟨2, ![1, 8192]⟩

abbrev nBuf : Space → Nat
  | .hbm => 157
  | .vmem => 0
  | .smem => 0
  | _ => 0

abbrev hbmTy0_0 (i : Nat) : BufTy := match i % 128 with
  | 0 => ⟨S4x8192, .f32⟩
  | 1 => ⟨S3x3, .i32⟩
  | 2 => ⟨S8192x8192, .f32⟩
  | 3 => ⟨S4x8192, .f32⟩
  | 4 => ⟨S4x1x8192, .f32⟩
  | 5 => ⟨S1x4x8192, .f32⟩
  | 6 => ⟨S4x4x8192, .f32⟩
  | 7 => ⟨S4x4x8192, .f32⟩
  | 8 => ⟨S4x4x8192, .f32⟩
  | 9 => ⟨S4x4x8192, .f32⟩
  | 10 => ⟨S_, .f32⟩
  | 11 => ⟨S4x4, .f32⟩
  | 12 => ⟨S_, .f32⟩
  | 13 => ⟨S4x4, .f32⟩
  | 14 => ⟨S4x4, .i1⟩
  | 15 => ⟨S_, .f32⟩
  | 16 => ⟨S_, .f32⟩
  | 17 => ⟨S4x4, .f32⟩
  | 18 => ⟨S4x4, .f32⟩
  | 19 => ⟨S_, .f32⟩
  | 20 => ⟨S4x4, .f32⟩
  | 21 => ⟨S4x4, .i1⟩
  | 22 => ⟨S4x4, .f32⟩
  | 23 => ⟨S_, .f32⟩
  | 24 => ⟨S_, .f32⟩
  | 25 => ⟨S4x4, .f32⟩
  | 26 => ⟨S4x4, .f32⟩
  | 27 => ⟨S3x8192, .f32⟩
  | 28 => ⟨S3x8192, .f32⟩
  | 29 => ⟨S3x1x8192, .f32⟩
  | 30 => ⟨S1x3x8192, .f32⟩
  | 31 => ⟨S3x3x8192, .f32⟩
  | 32 => ⟨S3x3x8192, .f32⟩
  | 33 => ⟨S3x3x8192, .f32⟩
  | 34 => ⟨S3x3x8192, .f32⟩
  | 35 => ⟨S_, .f32⟩
  | 36 => ⟨S3x3, .f32⟩
  | 37 => ⟨S_, .f32⟩
  | 38 => ⟨S3x3, .f32⟩
  | 39 => ⟨S3x3, .i1⟩
  | 40 => ⟨S_, .f32⟩
  | 41 => ⟨S_, .f32⟩
  | 42 => ⟨S3x3, .f32⟩
  | 43 => ⟨S3x3, .f32⟩
  | 44 => ⟨S_, .f32⟩
  | 45 => ⟨S3x3, .f32⟩
  | 46 => ⟨S3x3, .i1⟩
  | 47 => ⟨S3x3, .f32⟩
  | 48 => ⟨S_, .f32⟩
  | 49 => ⟨S_, .f32⟩
  | 50 => ⟨S3x3, .f32⟩
  | 51 => ⟨S3x3, .f32⟩
  | 52 => ⟨S_, .f32⟩
  | 53 => ⟨S4x4, .f32⟩
  | 54 => ⟨S4x4, .i1⟩
  | 55 => ⟨S_, .f32⟩
  | 56 => ⟨S4x4, .f32⟩
  | 57 => ⟨S4x4, .f32⟩
  | 58 => ⟨S4x4, .f32⟩
  | 59 => ⟨S_, .f32⟩
  | 60 => ⟨S3x3, .f32⟩
  | 61 => ⟨S3x3, .i1⟩
  | 62 => ⟨S_, .f32⟩
  | 63 => ⟨S3x3, .f32⟩
  | 64 => ⟨S3x3, .f32⟩
  | 65 => ⟨S3x3, .f32⟩
  | 66 => ⟨S1x1, .f32⟩
  | 67 => ⟨S_, .f32⟩
  | 68 => ⟨S1x1, .f32⟩
  | 69 => ⟨S_, .f32⟩
  | 70 => ⟨S1x1, .f32⟩
  | 71 => ⟨S_, .f32⟩
  | 72 => ⟨S_, .f32⟩
  | 73 => ⟨S_, .f32⟩
  | 74 => ⟨S_, .f32⟩
  | 75 => ⟨S_, .f32⟩
  | 76 => ⟨S1x1, .f32⟩
  | 77 => ⟨S_, .f32⟩
  | 78 => ⟨S1x1, .f32⟩
  | 79 => ⟨S_, .f32⟩
  | 80 => ⟨S1x1, .f32⟩
  | 81 => ⟨S_, .f32⟩
  | 82 => ⟨S_, .f32⟩
  | 83 => ⟨S_, .f32⟩
  | 84 => ⟨S_, .f32⟩
  | 85 => ⟨S_, .f32⟩
  | 86 => ⟨S1x1, .f32⟩
  | 87 => ⟨S_, .f32⟩
  | 88 => ⟨S1x1, .f32⟩
  | 89 => ⟨S_, .f32⟩
  | 90 => ⟨S1x1, .f32⟩
  | 91 => ⟨S_, .f32⟩
  | 92 => ⟨S_, .f32⟩
  | 93 => ⟨S_, .f32⟩
  | 94 => ⟨S_, .f32⟩
  | 95 => ⟨S_, .f32⟩
  | 96 => ⟨S_, .i32⟩
  | 97 => ⟨S1, .i32⟩
  | 98 => ⟨S_, .i32⟩
  | 99 => ⟨S1, .i32⟩
  | 100 => ⟨S2, .i32⟩
  | 101 => ⟨S3x3, .f32⟩
  | 102 => ⟨S_, .i32⟩
  | 103 => ⟨S1, .i32⟩
  | 104 => ⟨S_, .i32⟩
  | 105 => ⟨S1, .i32⟩
  | 106 => ⟨S2, .i32⟩
  | 107 => ⟨S3x3, .f32⟩
  | 108 => ⟨S_, .i32⟩
  | 109 => ⟨S1, .i32⟩
  | 110 => ⟨S_, .i32⟩
  | 111 => ⟨S1, .i32⟩
  | 112 => ⟨S2, .i32⟩
  | 113 => ⟨S3x3, .f32⟩
  | 114 => ⟨S_, .i32⟩
  | 115 => ⟨S1, .i32⟩
  | 116 => ⟨S_, .i32⟩
  | 117 => ⟨S1, .i32⟩
  | 118 => ⟨S2, .i32⟩
  | 119 => ⟨S3x3, .f32⟩
  | 120 => ⟨S_, .i32⟩
  | 121 => ⟨S1, .i32⟩
  | 122 => ⟨S_, .i32⟩
  | 123 => ⟨S1, .i32⟩
  | 124 => ⟨S2, .i32⟩
  | 125 => ⟨S3x3, .f32⟩
  | 126 => ⟨S_, .i32⟩
  | 127 => ⟨S1, .i32⟩
  | _ => ⟨S4x8192, .f32⟩

abbrev hbmTy0_1 (i : Nat) : BufTy := match i % 128 with
  | 0 => ⟨S_, .i32⟩
  | 1 => ⟨S1, .i32⟩
  | 2 => ⟨S2, .i32⟩
  | 3 => ⟨S3x3, .f32⟩
  | 4 => ⟨S_, .i32⟩
  | 5 => ⟨S3x3, .i32⟩
  | 6 => ⟨S3x3, .i1⟩
  | 7 => ⟨S_, .f32⟩
  | 8 => ⟨S_, .f32⟩
  | 9 => ⟨S3x3, .f32⟩
  | 10 => ⟨S3x3, .f32⟩
  | 11 => ⟨S_, .f32⟩
  | 12 => ⟨S3, .f32⟩
  | 13 => ⟨S_, .f32⟩
  | 14 => ⟨S3, .f32⟩
  | 15 => ⟨S3, .f32⟩
  | 16 => ⟨S1x3, .f32⟩
  | 17 => ⟨S3x3, .f32⟩
  | 18 => ⟨S3x3, .f32⟩
  | 19 => ⟨S3x3, .f32⟩
  | 20 => ⟨S_, .f32⟩
  | 21 => ⟨S3, .f32⟩
  | 22 => ⟨S1x3, .f32⟩
  | 23 => ⟨S3x3, .f32⟩
  | 24 => ⟨S3x3, .f32⟩
  | 25 => ⟨S3x8192, .f32⟩
  | 26 => ⟨S3x8192, .f32⟩
  | 27 => ⟨S1x8192, .f32⟩
  | 28 => ⟨S4x8192, .f32⟩
  | _ => ⟨S4x8192, .f32⟩

abbrev hbmTy (i : Nat) : BufTy := match i / 128 with
  | 0 => hbmTy0_0 i
  | 1 => hbmTy0_1 i
  | _ => ⟨S4x8192, .f32⟩

abbrev bufTy : (tb : Table) → Fin (tcTables nBuf tb) → BufTy
  | .hbm, ⟨i, _⟩ => hbmTy i
  | _, _ => ⟨S4x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_call3_v0 : Ref sig .tc := ⟨.hbm, 49, rfl⟩
abbrev main_call3_v1 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_11 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_c : Ref sig .tc := ⟨.hbm, 96, rfl⟩
abbrev main_v68 : Ref sig .tc := ⟨.hbm, 97, rfl⟩
abbrev main_c_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_17 : Ref sig .tc := ⟨.hbm, 102, rfl⟩
abbrev main_v72 : Ref sig .tc := ⟨.hbm, 103, rfl⟩
abbrev main_c_18 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_19 : Ref sig .tc := ⟨.hbm, 108, rfl⟩
abbrev main_v76 : Ref sig .tc := ⟨.hbm, 109, rfl⟩
abbrev main_c_20 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_21 : Ref sig .tc := ⟨.hbm, 114, rfl⟩
abbrev main_v80 : Ref sig .tc := ⟨.hbm, 115, rfl⟩
abbrev main_c_22 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_23 : Ref sig .tc := ⟨.hbm, 120, rfl⟩
abbrev main_v84 : Ref sig .tc := ⟨.hbm, 121, rfl⟩
abbrev main_c_24 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_25 : Ref sig .tc := ⟨.hbm, 126, rfl⟩
abbrev main_v88 : Ref sig .tc := ⟨.hbm, 127, rfl⟩
abbrev main_c_26 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_27 : Ref sig .tc := ⟨.hbm, 132, rfl⟩
abbrev main_v92 : Ref sig .tc := ⟨.hbm, 133, rfl⟩
abbrev main_v93 : Ref sig .tc := ⟨.hbm, 134, rfl⟩
abbrev main_cst_28 : Ref sig .tc := ⟨.hbm, 135, rfl⟩
abbrev main_call6_v0 : Ref sig .tc := ⟨.hbm, 136, rfl⟩
abbrev main_call6_v1 : Ref sig .tc := ⟨.hbm, 137, rfl⟩
abbrev main_v94 : Ref sig .tc := ⟨.hbm, 138, rfl⟩
abbrev main_cst_29 : Ref sig .tc := ⟨.hbm, 139, rfl⟩
abbrev main_v95 : Ref sig .tc := ⟨.hbm, 140, rfl⟩
abbrev main_cst_30 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_31 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩

abbrev nD : Nat := 1
abbrev τ : Topo := Topo.v7x

variable {F : FTy → Type} [FloatOps F]

class Facts₀ : Prop where
  bcast_S4x8192_S4x1x8192_0_2 : S4x8192.BroadcastsInDim S4x1x8192 (![0, 2] : Fin 2 → Fin S4x1x8192.rank)
  bcast_S4x8192_S1x4x8192_1_2 : S4x8192.BroadcastsInDim S1x4x8192 (![1, 2] : Fin 2 → Fin S1x4x8192.rank)
  bcast_S4x1x8192_S4x4x8192_0_1_2 : S4x1x8192.BroadcastsInDim S4x4x8192 (![0, 1, 2] : Fin 3 → Fin S4x4x8192.rank)
  bcast_S1x4x8192_S4x4x8192_0_1_2 : S1x4x8192.BroadcastsInDim S4x4x8192 (![0, 1, 2] : Fin 3 → Fin S4x4x8192.rank)
  reducesTo_S4x4x8192_S4x4_d2 : S4x4x8192.ReducesTo [2] S4x4
  h_S_ : 0 < S_.numel
  bcast_S_S4x4 : S_.BroadcastsInDim S4x4 (![] : Fin 0 → Fin S4x4.rank)
  slices_S4x8192_S3x8192_1_0 : S4x8192.Slices ![1, 0] S3x8192
  bcast_S3x8192_S3x1x8192_0_2 : S3x8192.BroadcastsInDim S3x1x8192 (![0, 2] : Fin 2 → Fin S3x1x8192.rank)
  bcast_S3x8192_S1x3x8192_1_2 : S3x8192.BroadcastsInDim S1x3x8192 (![1, 2] : Fin 2 → Fin S1x3x8192.rank)
  bcast_S3x1x8192_S3x3x8192_0_1_2 : S3x1x8192.BroadcastsInDim S3x3x8192 (![0, 1, 2] : Fin 3 → Fin S3x3x8192.rank)
  bcast_S1x3x8192_S3x3x8192_0_1_2 : S1x3x8192.BroadcastsInDim S3x3x8192 (![0, 1, 2] : Fin 3 → Fin S3x3x8192.rank)
  reducesTo_S3x3x8192_S3x3_d2 : S3x3x8192.ReducesTo [2] S3x3
  bcast_S_S3x3 : S_.BroadcastsInDim S3x3 (![] : Fin 0 → Fin S3x3.rank)
  slices_S4x4_S1x1_1_2 : S4x4.Slices ![1, 2] S1x1
  shapeCasts_S1x1_S_ : S1x1.ShapeCasts S_
  slices_S4x4_S1x1_0_1 : S4x4.Slices ![0, 1] S1x1
  slices_S4x4_S1x1_0_2 : S4x4.Slices ![0, 2] S1x1
  slices_S4x4_S1x1_1_3 : S4x4.Slices ![1, 3] S1x1
  slices_S4x4_S1x1_0_3 : S4x4.Slices ![0, 3] S1x1
  slices_S4x4_S1x1_2_3 : S4x4.Slices ![2, 3] S1x1
  bcast_S_S1 : S_.BroadcastsInDim S1 (![] : Fin 0 → Fin S1.rank)
  concatenates_S1_S1_S2_d0 : Shape.Concatenates [S1, S1] S2 0
  reducesTo_S3x3_S3_d0 : S3x3.ReducesTo [0] S3
  bcast_S_S3 : S_.BroadcastsInDim S3 (![] : Fin 0 → Fin S3.rank)
  bcast_S3_S1x3_1 : S3.BroadcastsInDim S1x3 (![1] : Fin 1 → Fin S1x3.rank)
  bcast_S1x3_S3x3_0_1 : S1x3.BroadcastsInDim S3x3 (![0, 1] : Fin 2 → Fin S3x3.rank)
  slices_S4x8192_S1x8192_0_0 : S4x8192.Slices ![0, 0] S1x8192
  concatenates_S1x8192_S3x8192_S4x8192_d0 : Shape.Concatenates [S1x8192, S3x8192] S4x8192 0
  dot_S4x8192_S8192x8192_S4x8192_1_0_0_1_n_n_wf : DotDims.WF S4x8192 S8192x8192 S4x8192 [1] [0] [0] [1] [] []
  scatter_S3x3_S2_S__n_01_01_0_wf : ScatterDims.WF S3x3 S2 S_ [] [0, 1] [0, 1] 0
  dot_S3x3_S3x8192_S3x8192_1_0_0_1_n_n_wf : DotDims.WF S3x3 S3x8192 S3x8192 [1] [0] [0] [1] [] []

variable [Facts₀]

def dot_S4x8192_S8192x8192_S4x8192_1_0_0_1_n_n : DotDims S4x8192 S8192x8192 S4x8192 where
  lhsContracting := [1]
  rhsContracting := [0]
  lhsNonContracting := [0]
  rhsNonContracting := [1]
  lhsBatch := []
  rhsBatch := []
  wf := dot_S4x8192_S8192x8192_S4x8192_1_0_0_1_n_n_wf
def scatter_S3x3_S2_S__n_01_01_0 : ScatterDims S3x3 S2 S_ where
  updateWindowDims := []
  insertedWindowDims := [0, 1]
  scatterDimsToOperandDims := [0, 1]
  indexVectorDim := 0
  wf := scatter_S3x3_S2_S__n_01_01_0_wf
def dot_S3x3_S3x8192_S3x8192_1_0_0_1_n_n : DotDims S3x3 S3x8192 S3x8192 where
  lhsContracting := [1]
  rhsContracting := [0]
  lhsNonContracting := [0]
  rhsNonContracting := [1]
  lhsBatch := []
  rhsBatch := []
  wf := dot_S3x3_S3x8192_S3x8192_1_0_0_1_n_n_wf

class Facts : Prop extends Facts₀ where

variable [Facts]
-- ==== Proof.BitsFrame.Setup.lean ====
/- The accumulating matmul region as @main sees it.  @main is the region followed by 153 host operations
   (15 stretches).  Here: the contents the region finds in its arrays (nothing runs before it, so they are
   the launch contents); the block of each operand at a grid point; on the 4 × 8 grid, with k the fast
   coordinate, the accumulator is reset exactly where k = 0 (t % 8 = 0) and the output block is stored, and
   written back, exactly where k = 7 (t % 8 = 7); and the host operations after the region touch unscoped
   buffers only, allocate nothing, and never write h, W or the matmul result. -/
import proofs.«113935_j84310208020843_1_alg».proof.Proof.Gen.Kernel.Launch
import proofs.«113935_j84310208020843_1_alg».proof.Proof.Gen.Kernel.Skeleton
import proofs.«113935_j84310208020843_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host stretches after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: no host operation runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- @main is the region continued by the 15 stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-! ## The host operations after the region -/

theorem hostOps1_fresh : (hostOps1 : List (HloOp τ sig (Elt F))).Forall fun op => op.fresh = ∅ := by
  simp only [List.Forall]; repeat' constructor
/-- No operation of this stretch writes h, W or the region's result: each writes its own result buffer. -/
theorem hostOps1_keeps : (hostOps1 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_1_fresh : (hostOps1_1 : List (HloOp τ sig (Elt F))).Forall fun op => op.fresh = ∅ := by
  simp only [List.Forall]; repeat' constructor
/-- No operation of this stretch writes h, W or the region's result: each writes its own result buffer. -/
theorem hostOps1_1_keeps : (hostOps1_1 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_2_fresh : (hostOps1_2 : List (HloOp τ sig (Elt F))).Forall fun op => op.fresh = ∅ := by
  simp only [List.Forall]; repeat' constructor
/-- No operation of this stretch writes h, W or the region's result: each writes its own result buffer. -/
theorem hostOps1_2_keeps : (hostOps1_2 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_3_fresh : (hostOps1_3 : List (HloOp τ sig (Elt F))).Forall fun op => op.fresh = ∅ := by
  simp only [List.Forall]; repeat' constructor
/-- No operation of this stretch writes h, W or the region's result: each writes its own result buffer. -/
theorem hostOps1_3_keeps : (hostOps1_3 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_4_fresh : (hostOps1_4 : List (HloOp τ sig (Elt F))).Forall fun op => op.fresh = ∅ := by
  simp only [List.Forall]; repeat' constructor
/-- No operation of this stretch writes h, W or the region's result: each writes its own result buffer. -/
theorem hostOps1_4_keeps : (hostOps1_4 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_5_fresh : (hostOps1_5 : List (HloOp τ sig (Elt F))).Forall fun op => op.fresh = ∅ := by
  simp only [List.Forall]; repeat' constructor
/-- No operation of this stretch writes h, W or the region's result: each writes its own result buffer. -/
theorem hostOps1_5_keeps : (hostOps1_5 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_6_fresh : (hostOps1_6 : List (HloOp τ sig (Elt F))).Forall fun op => op.fresh = ∅ := by
  simp only [List.Forall]; repeat' constructor
/-- No operation of this stretch writes h, W or the region's result: each writes its own result buffer. -/
theorem hostOps1_6_keeps : (hostOps1_6 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_7_fresh : (hostOps1_7 : List (HloOp τ sig (Elt F))).Forall fun op => op.fresh = ∅ := by
  simp only [List.Forall]; repeat' constructor
/-- No operation of this stretch writes h, W or the region's result: each writes its own result buffer. -/
theorem hostOps1_7_keeps : (hostOps1_7 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_8_fresh : (hostOps1_8 : List (HloOp τ sig (Elt F))).Forall fun op => op.fresh = ∅ := by
  simp only [List.Forall]; repeat' constructor
/-- No operation of this stretch writes h, W or the region's result: each writes its own result buffer. -/
theorem hostOps1_8_keeps : (hostOps1_8 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_9_fresh : (hostOps1_9 : List (HloOp τ sig (Elt F))).Forall fun op => op.fresh = ∅ := by
  simp only [List.Forall]; repeat' constructor
/-- No operation of this stretch writes h, W or the region's result: each writes its own result buffer. -/
theorem hostOps1_9_keeps : (hostOps1_9 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_10_fresh : (hostOps1_10 : List (HloOp τ sig (Elt F))).Forall fun op => op.fresh = ∅ := by
  simp only [List.Forall]; repeat' constructor
/-- No operation of this stretch writes h, W or the region's result: each writes its own result buffer. -/
theorem hostOps1_10_keeps : (hostOps1_10 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_11_fresh : (hostOps1_11 : List (HloOp τ sig (Elt F))).Forall fun op => op.fresh = ∅ := by
  simp only [List.Forall]; repeat' constructor
/-- No operation of this stretch writes h, W or the region's result: each writes its own result buffer. -/
theorem hostOps1_11_keeps : (hostOps1_11 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_12_fresh : (hostOps1_12 : List (HloOp τ sig (Elt F))).Forall fun op => op.fresh = ∅ := by
  simp only [List.Forall]; repeat' constructor
/-- No operation of this stretch writes h, W or the region's result: each writes its own result buffer. -/
theorem hostOps1_12_keeps : (hostOps1_12 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_13_fresh : (hostOps1_13 : List (HloOp τ sig (Elt F))).Forall fun op => op.fresh = ∅ := by
  simp only [List.Forall]; repeat' constructor
/-- No operation of this stretch writes h, W or the region's result: each writes its own result buffer. -/
theorem hostOps1_13_keeps : (hostOps1_13 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_14_fresh : (hostOps1_14 : List (HloOp τ sig (Elt F))).Forall fun op => op.fresh = ∅ := by
  simp only [List.Forall]; repeat' constructor
/-- No operation of this stretch writes h, W or the region's result: each writes its own result buffer. -/
theorem hostOps1_14_keeps : (hostOps1_14 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))

theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)

theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop

theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop

theorem hostOps1_keeps_adj : (hostOps1 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_1_keeps_adj : (hostOps1_1 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_2_keeps_adj : (hostOps1_2 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_3_keeps_adj : (hostOps1_3 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_4_keeps_adj : (hostOps1_4 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_5_keeps_adj : (hostOps1_5 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_6_keeps_adj : (hostOps1_6 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_7_keeps_adj : (hostOps1_7 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_8_keeps_adj : (hostOps1_8 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_9_keeps_adj : (hostOps1_9 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_10_keeps_adj : (hostOps1_10 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_11_keeps_adj : (hostOps1_11 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_12_keeps_adj : (hostOps1_12 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_13_keeps_adj : (hostOps1_13 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_14_keeps_adj : (hostOps1_14 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)

/-- No host operation after the region writes the adjacency input. -/
theorem tail_keeps_adj : ∀ op ∈ (tailOps : List (List (HloOp τ sig (Elt F)))).flatten, Proc.devRef .tc main_arg1 ∉ op.writes := by
  intro op hop
  obtain ⟨ops, hops, hop⟩ := List.mem_flatten.mp hop
  simp only [tailOps, List.mem_cons, List.mem_nil_iff, or_false] at hops
  rcases hops with rfl | rfl | rfl | rfl | rfl | rfl | rfl | rfl | rfl | rfl | rfl | rfl | rfl | rfl | rfl
  · exact (List.forall_iff_forall_mem.mp hostOps1_keeps_adj) op hop
  · exact (List.forall_iff_forall_mem.mp hostOps1_1_keeps_adj) op hop
  · exact (List.forall_iff_forall_mem.mp hostOps1_2_keeps_adj) op hop
  · exact (List.forall_iff_forall_mem.mp hostOps1_3_keeps_adj) op hop
  · exact (List.forall_iff_forall_mem.mp hostOps1_4_keeps_adj) op hop
  · exact (List.forall_iff_forall_mem.mp hostOps1_5_keeps_adj) op hop
  · exact (List.forall_iff_forall_mem.mp hostOps1_6_keeps_adj) op hop
  · exact (List.forall_iff_forall_mem.mp hostOps1_7_keeps_adj) op hop
  · exact (List.forall_iff_forall_mem.mp hostOps1_8_keeps_adj) op hop
  · exact (List.forall_iff_forall_mem.mp hostOps1_9_keeps_adj) op hop
  · exact (List.forall_iff_forall_mem.mp hostOps1_10_keeps_adj) op hop
  · exact (List.forall_iff_forall_mem.mp hostOps1_11_keeps_adj) op hop
  · exact (List.forall_iff_forall_mem.mp hostOps1_12_keeps_adj) op hop
  · exact (List.forall_iff_forall_mem.mp hostOps1_13_keeps_adj) op hop
  · exact (List.forall_iff_forall_mem.mp hostOps1_14_keeps_adj) op hop

/-! ## The operands' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The h window's staging buffer holds its block at every point, fetched there or not. -/
theorem before_h {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The W window's staging buffer holds its block at every point. -/
theorem before_w {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- `k = 0`: the accumulator is reset. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- `k = 7`: the accumulator is stored into the output block. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The operand windows are never idle. -/
theorem live_h : ∀ t : Fin cfg0.N, cfg0.idle 0 (grid0.coords t) = false := by decide +kernel
theorem live_w : ∀ t : Fin cfg0.N, cfg0.idle 1 (grid0.coords t) = false := by decide +kernel
/-- Away from `k = 7` the output window is idle and its block is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At `k = 7` it is live. -/
theorem live_out : ∀ t : Fin cfg0.N, isLast (grid0.coords t) → cfg0.idle 2 (grid0.coords t) = false := by decide +kernel

/-! ## The memrefs the body is called with -/

abbrev mh (t : Fin cfg0.N) : Memref sig .tc .vmem S4x1024 .f32 := win0_0.stage (cfg0.slots t 0)
abbrev hmh (t : Fin cfg0.N) : (mh t).IsWhole := hstage0_0 ((cfg0.slots t 0).cast nbuf0_0)
abbrev mw (t : Fin cfg0.N) : Memref sig .tc .vmem S1024x2048 .f32 := win0_1.stage (cfg0.slots t 1)
abbrev hmw (t : Fin cfg0.N) : (mw t).IsWhole := hstage0_1 ((cfg0.slots t 1).cast nbuf0_1)
abbrev mo (t : Fin cfg0.N) : Memref sig .tc .vmem S4x2048 .f32 := win0_2.stage (cfg0.slots t 2)
abbrev hmo (t : Fin cfg0.N) : (mo t).IsWhole := hstage0_2 ((cfg0.slots t 2).cast nbuf0_2)
/-- The accumulator: a whole scoped buffer of the kernel's own. -/
abbrev macc : Memref sig .tc .vmem S4x2048 .f32 := Memref.whole cc0_scratch0

/-- The class invariant with the accumulator as a memref owned at some contents. -/
theorem PhiA_eq (c : Dev nD) :
    (Pipeline.ΦA spec0 c : sProp 𝕄)
      = iprop(iprop((∃ d, owns (c : Thread nD τ) macc fullShare d)) ∗ (∃ r, prngReg c r)) := by
  unfold Pipeline.ΦA; rw [scopedRest0_eq]; simp only [macc, owns_whole]; try rfl

end Cert.Kernel.Region

end
-- ==== Proof.LibUnitStore.lean ====
/- A general fact about reading a buffer back after stores: when the LAST store writes the whole shape (a
   rectangle of the shape's full size at offset zero), the buffer then reads as that store's payload,
   whatever the earlier stores and the prior contents were. -/
import Idealize.ShloMosaic.Lib.Pipeline.FrameBody
import Idealize.ShloMosaic.Lib.Pipeline.Value

noncomputable section

namespace Cert.LibUnitStore

open Idealize.ShloMosaic

variable {sig : RefSig} {κ : Kind} {sp : Space} {S : Shape} {e : EltTy} {Val : EltTy → Type} [∀ e, Nonempty (Val e)]

/-- A view read back after a list of stores whose last (the list's head) writes the whole shape at offset
    zero holds that store's payload at every index. -/
theorem read_writes_cons_unit_zero (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon v f _ (fun y => ⟨_, List.mem_cons_self, by
    show y ∈ (Rect.whole S).set; rw [Rect.set_whole]; exact Finset.mem_univ y⟩), View.canon_cons_unit_zero rfl]

end Cert.LibUnitStore

end
-- ==== Proof.BitsFrame.Body.lean ====
/- The matmul body at one grid point, as a triple over whole staging buffers at NAMED contents: with the h-block x0,
   the W-block x1 and the accumulator at a, the body leaves the accumulator at `k0_pay2 x0 x1 a` (a plus the
   blocks' product) — over a zeroed accumulator, `k0_pay2 x0 x1 k0_pay1`, where k = 0 — and the two operand
   buffers as they were; the output block is left untouched except where k = 7, where it receives the
   accumulator's new contents.  Three cases of the two conditions (k = 0 and k = 7 exclude each other on a
   grid of 8 steps).  Each store writes the whole 4 × 2048 buffer, so what it holds afterwards is the last
   store's payload. -/
import proofs.«113935_j84310208020843_1_alg».proof.Proof.BitsFrame.Setup
import proofs.«113935_j84310208020843_1_alg».proof.Proof.LibUnitStore

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores and loads of the body all sit at offset (0, 0). -/
theorem zero_off : (![0, 0] : Fin 2 → Nat) = fun _ => 0 := funext fun a => by fin_cases a <;> rfl

set_option maxHeartbeats 1000000 in
theorem run_first (c : Dev nD) (i : grid0.Coords) (arg2 : Memref sig .tc .vmem S4x1024 .f32) (harg2 : arg2.IsWhole) (arg3 : Memref sig .tc .vmem S1024x2048 .f32) (harg3 : arg3.IsWhole) (arg4 : Memref sig .tc .vmem S4x2048 .f32) (harg4 : arg4.IsWhole) (arg5 : Memref sig .tc .vmem S4x2048 .f32) (harg5 : arg5.IsWhole)
    (hc0 : isFirst i) (hc1 : ¬isLast i)
    (x0 : Vec F S4x1024 .f32) (x1 : Vec F S1024x2048 .f32) (y : Vec F S4x2048 .f32) (a : Vec F S4x2048 .f32) (E : Set ℕ) (K : PUnit → sProp 𝕄) :
    iprop(owns (c : Thread nD τ) arg2 fullShare x0 ∗ owns (c : Thread nD τ) arg3 fullShare x1 ∗ owns (c : Thread nD τ) arg4 fullShare y ∗ owns (c : Thread nD τ) arg5 fullShare a
        ∗ (iprop(owns (c : Thread nD τ) arg2 fullShare x0 ∗ owns (c : Thread nD τ) arg3 fullShare x1 ∗ owns (c : Thread nD τ) arg4 fullShare (y)
            ∗ owns (c : Thread nD τ) arg5 fullShare (k0_pay2 x0 x1 k0_pay1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [Cert.LibUnitStore.read_writes_cons_unit_zero _ _ zero_off]
  simp only [View.readAt_eq_ld, harg2.read_unread, harg3.read_unread, harg4.read_unread, harg5.read_unread, View.ld_unit_zero (S := S4x1024) zero_off, View.ld_unit_zero (S := S1024x2048) zero_off, View.ld_unit_zero (S := S4x2048) zero_off, View.readCov_unit_zero (S := S4x2048) _ zero_off]

set_option maxHeartbeats 1000000 in
theorem run_mid (c : Dev nD) (i : grid0.Coords) (arg2 : Memref sig .tc .vmem S4x1024 .f32) (harg2 : arg2.IsWhole) (arg3 : Memref sig .tc .vmem S1024x2048 .f32) (harg3 : arg3.IsWhole) (arg4 : Memref sig .tc .vmem S4x2048 .f32) (harg4 : arg4.IsWhole) (arg5 : Memref sig .tc .vmem S4x2048 .f32) (harg5 : arg5.IsWhole)
    (hc0 : ¬isFirst i) (hc1 : ¬isLast i)
    (x0 : Vec F S4x1024 .f32) (x1 : Vec F S1024x2048 .f32) (y : Vec F S4x2048 .f32) (a : Vec F S4x2048 .f32) (E : Set ℕ) (K : PUnit → sProp 𝕄) :
    iprop(owns (c : Thread nD τ) arg2 fullShare x0 ∗ owns (c : Thread nD τ) arg3 fullShare x1 ∗ owns (c : Thread nD τ) arg4 fullShare y ∗ owns (c : Thread nD τ) arg5 fullShare a
        ∗ (iprop(owns (c : Thread nD τ) arg2 fullShare x0 ∗ owns (c : Thread nD τ) arg3 fullShare x1 ∗ owns (c : Thread nD τ) arg4 fullShare (y)
            ∗ owns (c : Thread nD τ) arg5 fullShare (k0_pay2 x0 x1 a)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  rw [Cert.LibUnitStore.read_writes_cons_unit_zero _ _ zero_off]
  simp only [View.readAt_eq_ld, harg2.read_unread, harg3.read_unread, harg4.read_unread, harg5.read_unread, View.ld_unit_zero (S := S4x1024) zero_off, View.ld_unit_zero (S := S1024x2048) zero_off, View.ld_unit_zero (S := S4x2048) zero_off, View.readCov_unit_zero (S := S4x2048) _ zero_off]

set_option maxHeartbeats 1000000 in
theorem run_last (c : Dev nD) (i : grid0.Coords) (arg2 : Memref sig .tc .vmem S4x1024 .f32) (harg2 : arg2.IsWhole) (arg3 : Memref sig .tc .vmem S1024x2048 .f32) (harg3 : arg3.IsWhole) (arg4 : Memref sig .tc .vmem S4x2048 .f32) (harg4 : arg4.IsWhole) (arg5 : Memref sig .tc .vmem S4x2048 .f32) (harg5 : arg5.IsWhole)
    (hc0 : ¬isFirst i) (hc1 : isLast i)
    (x0 : Vec F S4x1024 .f32) (x1 : Vec F S1024x2048 .f32) (y : Vec F S4x2048 .f32) (a : Vec F S4x2048 .f32) (E : Set ℕ) (K : PUnit → sProp 𝕄) :
    iprop(owns (c : Thread nD τ) arg2 fullShare x0 ∗ owns (c : Thread nD τ) arg3 fullShare x1 ∗ owns (c : Thread nD τ) arg4 fullShare y ∗ owns (c : Thread nD τ) arg5 fullShare a
        ∗ (iprop(owns (c : Thread nD τ) arg2 fullShare x0 ∗ owns (c : Thread nD τ) arg3 fullShare x1 ∗ owns (c : Thread nD τ) arg4 fullShare (k0_pay2 x0 x1 a)
            ∗ owns (c : Thread nD τ) arg5 fullShare (k0_pay2 x0 x1 a)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [Cert.LibUnitStore.read_writes_cons_unit_zero _ _ zero_off]
    simp only [View.readAt_eq_ld, harg2.read_unread, harg3.read_unread, harg4.read_unread, harg5.read_unread, View.ld_unit_zero (S := S4x1024) zero_off, View.ld_unit_zero (S := S1024x2048) zero_off, View.ld_unit_zero (S := S4x2048) zero_off, View.readCov_unit_zero (S := S4x2048) _ zero_off]
  iexists _; isplitr
  swap; · iexact HS
  ipureintro
  sl_unfold_words
  rw [Cert.LibUnitStore.read_writes_cons_unit_zero _ _ zero_off]
  simp only [View.readAt_eq_ld, harg2.read_unread, harg3.read_unread, harg4.read_unread, harg5.read_unread, View.ld_unit_zero (S := S4x1024) zero_off, View.ld_unit_zero (S := S1024x2048) zero_off, View.ld_unit_zero (S := S4x2048) zero_off, View.readCov_unit_zero (S := S4x2048) _ zero_off]

end Cert.Kernel.Region

end
-- ==== Proof.BitsFrame.Frame.lean ====
/- The frame of the accumulating matmul region.  The accumulator (a VMEM scratch) is carried between grid
   points: after the body at linear point n it holds `acc n`, defined by recursion on n — at k = 0 the body
   first zeroes it, and at every point it adds the product of the point's h-block and W-block.  The output
   block is stored, and written back, only at k = 7, where it receives `acc n`.  With this as the proof data
   the body meets its obligation at every point (three cases: k = 0, 0 < k < 7, k = 7), and the launch
   theorem for a region followed by host operations gives the run of @main. -/
import proofs.«113935_j84310208020843_1_alg».proof.Proof.BitsFrame.Body

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds after each point -/

/-- The accumulator after the body at linear point `n`: the point's block product added to what the point
    before left, or to zero where k = 0. -/
def acc (c : Dev nD) : (n : ℕ) → n < cfg0.N → Vec F S4x2048 .f32
  | 0, hn => k0_pay2 (iblk m c 0 ⟨0, hn⟩) (iblk m c 1 ⟨0, hn⟩) k0_pay1
  | n + 1, hn =>
    if (n + 1) % 8 = 0 then k0_pay2 (iblk m c 0 ⟨n + 1, hn⟩) (iblk m c 1 ⟨n + 1, hn⟩) k0_pay1
    else k0_pay2 (iblk m c 0 ⟨n + 1, hn⟩) (iblk m c 1 ⟨n + 1, hn⟩) (acc c n (Nat.lt_of_succ_lt hn))

/-- At a point with k = 0 the accumulation starts from zero. -/
theorem acc_first (c : Dev nD) (t : Fin cfg0.N) (h0 : t.val % 8 = 0) :
    acc m c t.val t.isLt = k0_pay2 (iblk m c 0 t) (iblk m c 1 t) k0_pay1 := by
  obtain ⟨n, hn⟩ := t
  cases n with
  | zero => rfl
  | succ n => exact (if_pos h0)

/-- At any other point it continues from the point before. -/
theorem acc_next (c : Dev nD) (t : Fin cfg0.N) (h0 : ¬t.val % 8 = 0) :
    acc m c t.val t.isLt = k0_pay2 (iblk m c 0 t) (iblk m c 1 t) (acc m c (t.val - 1) (Nat.lt_of_le_of_lt (Nat.sub_le _ _) t.isLt)) := by
  obtain ⟨n, hn⟩ := t
  cases n with
  | zero => exact absurd (Nat.zero_mod _) h0
  | succ n => exact (if_neg h0)

/-- The region invariant before position `n`: at the first point the scoped rest at anything; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) macc fullShare (acc m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) macc fullShare (acc m c n hn)) ∗ (∃ r, prngReg c r)) := rfl

theorem PhiS_pos (c : Dev nD) (n : ℕ) (h : n ≤ cfg0.N) (hz : n ≠ 0) :
    PhiS m c n h = iprop(iprop(owns (c : Thread nD τ) macc fullShare (acc m c (n - 1) (by omega))) ∗ (∃ r, prngReg c r)) := by
  cases n with
  | zero => exact absurd rfl hz
  | succ n => rfl

/-! ## The proof data -/

/-- The arrays as the region finds them; after the body each operand's buffer at its block and the output's
    at the accumulator; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_h (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_out (c : Dev nD) (t : Fin cfg0.N) : (dats m 0 c).after 2 t = acc m c t.val t.isLt := by dsimp only [dats]

theorem before_h' (c : Dev nD) (t : Fin cfg0.N) (d) : (dats m 0 c).before 0 t d = iblk m c 0 t :=
  before_h m (dats m 0 c) (A_eq m c 0) (after_h m c) t d
theorem before_w' (c : Dev nD) (t : Fin cfg0.N) (d) : (dats m 0 c).before 1 t d = iblk m c 1 t :=
  before_w m (dats m 0 c) (A_eq m c 1) (after_w m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mh t) fullShare ((dats m 0 c).before 0 t d))
    ∗ (∃ d, owns (c : Thread nD τ) (mw t) fullShare ((dats m 0 c).before 1 t d))
    ∗ (∃ d, owns (c : Thread nD τ) (mo t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point.  The operand buffers hold their blocks; the invariant hands over the accumulator (at
    anything at the very first point, else at what the point before left) and takes it back at this point's
    contents; by cases on k = 7 (the output block stored) and k = 0 (the accumulator reset). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_h', before_w']
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (mh t) fullShare ((dats m 0 c).after 0 t) from by
    unfold Dat.leavesExact; rw [live_h t], after_h]
  rw [show (dats m 0 c).leavesExact 1 t = owns (c : Thread nD τ) (mw t) fullShare ((dats m 0 c).after 1 t) from by
    unfold Dat.leavesExact; rw [live_w t], after_w]
  have hN : t.val < 32 := lt_of_lt_of_eq t.isLt (show cfg0.N = 32 from N_0)
  by_cases h1 : t.val % 8 = 7
  · have h0 : ¬t.val % 8 = 0 := by omega
    have hz : t.val ≠ 0 := by omega
    rw [show (dats m 0 c).leavesExact 2 t = owns (c : Thread nD τ) (mo t) fullShare ((dats m 0 c).after 2 t) from by
      unfold Dat.leavesExact; rw [live_out t ((isLast_iff t).mpr h1)], after_out]
    rw [acc_next m c t h0, PhiS_castSucc m c t, PhiS_pos m c _ _ hz]
    iintro ⟨⟨HS, Hg⟩, Ho, ⟨%d0, H0⟩, ⟨%d1, H1⟩, ⟨%d2, H2⟩⟩
    iapply (run_last c (grid0.coords t) _ _ _ _ _ _ _ _ (fun h => h0 ((isFirst_iff t).mp h)) ((isLast_iff t).mpr h1) (iblk m c 0 t) (iblk m c 1 t) _ _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [Dat.leavesExact_idle (dats m 0 c) 2 t (idle_out t (fun h => h1 ((isLast_iff t).mp h))) (noFlush_out t (fun h => h1 ((isLast_iff t).mp h)))]
    by_cases h0 : t.val % 8 = 0
    · rw [acc_first m c t h0]
      by_cases hz : t.val = 0
      · rw [PhiS_castSucc m c t, PhiS_zero m c _ _ hz, PhiA_eq]
        iintro ⟨⟨⟨%a, HS⟩, Hg⟩, Ho, ⟨%d0, H0⟩, ⟨%d1, H1⟩, ⟨%d2, H2⟩⟩
        iapply (run_first c (grid0.coords t) _ _ _ _ _ _ _ _ ((isFirst_iff t).mpr h0) (fun h => h1 ((isLast_iff t).mp h)) (iblk m c 0 t) (iblk m c 1 t) _ a Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        iexists _; iexact H2
      · rw [PhiS_castSucc m c t, PhiS_pos m c _ _ hz]
        iintro ⟨⟨HS, Hg⟩, Ho, ⟨%d0, H0⟩, ⟨%d1, H1⟩, ⟨%d2, H2⟩⟩
        iapply (run_first c (grid0.coords t) _ _ _ _ _ _ _ _ ((isFirst_iff t).mpr h0) (fun h => h1 ((isLast_iff t).mp h)) (iblk m c 0 t) (iblk m c 1 t) _ _ Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        iexists _; iexact H2
    · have hz : t.val ≠ 0 := fun e => h0 (by rw [e])
      rw [acc_next m c t h0, PhiS_castSucc m c t, PhiS_pos m c _ _ hz]
      iintro ⟨⟨HS, Hg⟩, Ho, ⟨%d0, H0⟩, ⟨%d1, H1⟩, ⟨%d2, H2⟩⟩
      iapply (run_mid c (grid0.coords t) _ _ _ _ _ _ _ _ (fun h => h0 ((isFirst_iff t).mp h)) (fun h => h1 ((isLast_iff t).mp h)) (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's named contents are forgotten. -/
theorem hout (c : Dev nD) : (dats m 0 c).Φ (Fin.last cfg0.N) ⊢ Pipeline.ΦA spec0 c := by
  have hN : cfg0.N = 32 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

/-! ## The run of @main -/

/-- The adjacency input is among the buffers that bypass the region, and no host operation after it writes it. -/
theorem adj_kept (c : Dev nD) : Pipeline.afterTail₀ cfgs (dats m) 0 (V0 m) tailOps c main_arg1 = m ((c.tc : Thread nD τ).loc main_arg1) := by
  unfold Pipeline.afterTail₀
  rw [StableHlo.after_of_forall_not_mem _ _ tail_keeps_adj]
  exact Pipeline.withArrays_of_ne _ c (V0 m c) _ main_arg1 (fun w => by fin_cases w <;> decide)

set_option backward.isDefEq.respectTransparency.types false in
/-- Every weakly fair execution of @main terminates, h, W and the matmul result ending at what the library
    computes from the proof data, every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The three argument arrays end as they started: h and W are operand arrays of the region, which only reads
    them; the adjacency input is touched by no one (the host operations after the region only read it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
    ((h c).2 main_arg1 (Pipeline.mem_restRefs_of main_arg1 rfl (fun w => by fin_cases w <;> decide))).trans (adj_kept m c),
    ((h c).1 1).trans (((dats m 0 c).arrAt_in 1 rfl _).trans ((A_eq m c 1).trans (V_main_arg2 m c)))⟩) (run_main m ρ)

end Cert.Kernel.Region

end
-- ==== Proof.IdealFrame.Setup.lean ====
/- The accumulating matmul region as @main sees it.  @main is the region followed by 153 host operations
   (15 stretches).  Here: the contents the region finds in its arrays (nothing runs before it, so they are
   the launch contents); the block of each operand at a grid point; on the 4 × 8 grid, with k the fast
   coordinate, the accumulator is reset exactly where k = 0 (t % 8 = 0) and the output block is stored, and
   written back, exactly where k = 7 (t % 8 = 7); and the host operations after the region touch unscoped
   buffers only, allocate nothing, and never write h, W or the matmul result. -/
import proofs.«113935_j84310208020843_1_alg».proof.Proof.Gen.KernelIdeal.Launch
import proofs.«113935_j84310208020843_1_alg».proof.Proof.Gen.KernelIdeal.Skeleton
import proofs.«113935_j84310208020843_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host stretches after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: no host operation runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- @main is the region continued by the 15 stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-! ## The host operations after the region -/

theorem hostOps1_fresh : (hostOps1 : List (HloOp τ sig (Elt F))).Forall fun op => op.fresh = ∅ := by
  simp only [List.Forall]; repeat' constructor
/-- No operation of this stretch writes h, W or the region's result: each writes its own result buffer. -/
theorem hostOps1_keeps : (hostOps1 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_1_fresh : (hostOps1_1 : List (HloOp τ sig (Elt F))).Forall fun op => op.fresh = ∅ := by
  simp only [List.Forall]; repeat' constructor
/-- No operation of this stretch writes h, W or the region's result: each writes its own result buffer. -/
theorem hostOps1_1_keeps : (hostOps1_1 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_2_fresh : (hostOps1_2 : List (HloOp τ sig (Elt F))).Forall fun op => op.fresh = ∅ := by
  simp only [List.Forall]; repeat' constructor
/-- No operation of this stretch writes h, W or the region's result: each writes its own result buffer. -/
theorem hostOps1_2_keeps : (hostOps1_2 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_3_fresh : (hostOps1_3 : List (HloOp τ sig (Elt F))).Forall fun op => op.fresh = ∅ := by
  simp only [List.Forall]; repeat' constructor
/-- No operation of this stretch writes h, W or the region's result: each writes its own result buffer. -/
theorem hostOps1_3_keeps : (hostOps1_3 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_4_fresh : (hostOps1_4 : List (HloOp τ sig (Elt F))).Forall fun op => op.fresh = ∅ := by
  simp only [List.Forall]; repeat' constructor
/-- No operation of this stretch writes h, W or the region's result: each writes its own result buffer. -/
theorem hostOps1_4_keeps : (hostOps1_4 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_5_fresh : (hostOps1_5 : List (HloOp τ sig (Elt F))).Forall fun op => op.fresh = ∅ := by
  simp only [List.Forall]; repeat' constructor
/-- No operation of this stretch writes h, W or the region's result: each writes its own result buffer. -/
theorem hostOps1_5_keeps : (hostOps1_5 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_6_fresh : (hostOps1_6 : List (HloOp τ sig (Elt F))).Forall fun op => op.fresh = ∅ := by
  simp only [List.Forall]; repeat' constructor
/-- No operation of this stretch writes h, W or the region's result: each writes its own result buffer. -/
theorem hostOps1_6_keeps : (hostOps1_6 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_7_fresh : (hostOps1_7 : List (HloOp τ sig (Elt F))).Forall fun op => op.fresh = ∅ := by
  simp only [List.Forall]; repeat' constructor
/-- No operation of this stretch writes h, W or the region's result: each writes its own result buffer. -/
theorem hostOps1_7_keeps : (hostOps1_7 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_8_fresh : (hostOps1_8 : List (HloOp τ sig (Elt F))).Forall fun op => op.fresh = ∅ := by
  simp only [List.Forall]; repeat' constructor
/-- No operation of this stretch writes h, W or the region's result: each writes its own result buffer. -/
theorem hostOps1_8_keeps : (hostOps1_8 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_9_fresh : (hostOps1_9 : List (HloOp τ sig (Elt F))).Forall fun op => op.fresh = ∅ := by
  simp only [List.Forall]; repeat' constructor
/-- No operation of this stretch writes h, W or the region's result: each writes its own result buffer. -/
theorem hostOps1_9_keeps : (hostOps1_9 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_10_fresh : (hostOps1_10 : List (HloOp τ sig (Elt F))).Forall fun op => op.fresh = ∅ := by
  simp only [List.Forall]; repeat' constructor
/-- No operation of this stretch writes h, W or the region's result: each writes its own result buffer. -/
theorem hostOps1_10_keeps : (hostOps1_10 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_11_fresh : (hostOps1_11 : List (HloOp τ sig (Elt F))).Forall fun op => op.fresh = ∅ := by
  simp only [List.Forall]; repeat' constructor
/-- No operation of this stretch writes h, W or the region's result: each writes its own result buffer. -/
theorem hostOps1_11_keeps : (hostOps1_11 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_12_fresh : (hostOps1_12 : List (HloOp τ sig (Elt F))).Forall fun op => op.fresh = ∅ := by
  simp only [List.Forall]; repeat' constructor
/-- No operation of this stretch writes h, W or the region's result: each writes its own result buffer. -/
theorem hostOps1_12_keeps : (hostOps1_12 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_13_fresh : (hostOps1_13 : List (HloOp τ sig (Elt F))).Forall fun op => op.fresh = ∅ := by
  simp only [List.Forall]; repeat' constructor
/-- No operation of this stretch writes h, W or the region's result: each writes its own result buffer. -/
theorem hostOps1_13_keeps : (hostOps1_13 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))
theorem hostOps1_14_fresh : (hostOps1_14 : List (HloOp τ sig (Elt F))).Forall fun op => op.fresh = ∅ := by
  simp only [List.Forall]; repeat' constructor
/-- No operation of this stretch writes h, W or the region's result: each writes its own result buffer. -/
theorem hostOps1_14_keeps : (hostOps1_14 : List (HloOp τ sig (Elt F))).Forall fun op =>
    ∀ w, Proc.devRef .tc (Pipeline.arrRef spec0 w) ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals (intro w; fin_cases w <;> exact StableHlo.devRef_ne_of_ne (by decide))

theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)

theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop

theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop

theorem hostOps1_keeps_adj : (hostOps1 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_1_keeps_adj : (hostOps1_1 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_2_keeps_adj : (hostOps1_2 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_3_keeps_adj : (hostOps1_3 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_4_keeps_adj : (hostOps1_4 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_5_keeps_adj : (hostOps1_5 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_6_keeps_adj : (hostOps1_6 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_7_keeps_adj : (hostOps1_7 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_8_keeps_adj : (hostOps1_8 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_9_keeps_adj : (hostOps1_9 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_10_keeps_adj : (hostOps1_10 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_11_keeps_adj : (hostOps1_11 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_12_keeps_adj : (hostOps1_12 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_13_keeps_adj : (hostOps1_13 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)
theorem hostOps1_14_keeps_adj : (hostOps1_14 : List (HloOp τ sig (Elt F))).Forall fun op =>
    Proc.devRef .tc main_arg1 ∉ op.writes := by
  simp only [List.Forall, StableHlo.TRef.unary, StableHlo.TRef.ternary, StableHlo.nullary_writes, StableHlo.unary_writes, StableHlo.binary_writes, StableHlo.ternary_writes,
    StableHlo.reshape_writes, Finset.mem_singleton]
  repeat' constructor
  all_goals exact StableHlo.devRef_ne_of_ne (by decide)

/-- No host operation after the region writes the adjacency input. -/
theorem tail_keeps_adj : ∀ op ∈ (tailOps : List (List (HloOp τ sig (Elt F)))).flatten, Proc.devRef .tc main_arg1 ∉ op.writes := by
  intro op hop
  obtain ⟨ops, hops, hop⟩ := List.mem_flatten.mp hop
  simp only [tailOps, List.mem_cons, List.mem_nil_iff, or_false] at hops
  rcases hops with rfl | rfl | rfl | rfl | rfl | rfl | rfl | rfl | rfl | rfl | rfl | rfl | rfl | rfl | rfl
  · exact (List.forall_iff_forall_mem.mp hostOps1_keeps_adj) op hop
  · exact (List.forall_iff_forall_mem.mp hostOps1_1_keeps_adj) op hop
  · exact (List.forall_iff_forall_mem.mp hostOps1_2_keeps_adj) op hop
  · exact (List.forall_iff_forall_mem.mp hostOps1_3_keeps_adj) op hop
  · exact (List.forall_iff_forall_mem.mp hostOps1_4_keeps_adj) op hop
  · exact (List.forall_iff_forall_mem.mp hostOps1_5_keeps_adj) op hop
  · exact (List.forall_iff_forall_mem.mp hostOps1_6_keeps_adj) op hop
  · exact (List.forall_iff_forall_mem.mp hostOps1_7_keeps_adj) op hop
  · exact (List.forall_iff_forall_mem.mp hostOps1_8_keeps_adj) op hop
  · exact (List.forall_iff_forall_mem.mp hostOps1_9_keeps_adj) op hop
  · exact (List.forall_iff_forall_mem.mp hostOps1_10_keeps_adj) op hop
  · exact (List.forall_iff_forall_mem.mp hostOps1_11_keeps_adj) op hop
  · exact (List.forall_iff_forall_mem.mp hostOps1_12_keeps_adj) op hop
  · exact (List.forall_iff_forall_mem.mp hostOps1_13_keeps_adj) op hop
  · exact (List.forall_iff_forall_mem.mp hostOps1_14_keeps_adj) op hop

/-! ## The operands' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The h window's staging buffer holds its block at every point, fetched there or not. -/
theorem before_h {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The W window's staging buffer holds its block at every point. -/
theorem before_w {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- `k = 0`: the accumulator is reset. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- `k = 7`: the accumulator is stored into the output block. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The operand windows are never idle. -/
theorem live_h : ∀ t : Fin cfg0.N, cfg0.idle 0 (grid0.coords t) = false := by decide +kernel
theorem live_w : ∀ t : Fin cfg0.N, cfg0.idle 1 (grid0.coords t) = false := by decide +kernel
/-- Away from `k = 7` the output window is idle and its block is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At `k = 7` it is live. -/
theorem live_out : ∀ t : Fin cfg0.N, isLast (grid0.coords t) → cfg0.idle 2 (grid0.coords t) = false := by decide +kernel

/-! ## The memrefs the body is called with -/

abbrev mh (t : Fin cfg0.N) : Memref sig .tc .vmem S4x1024 .f32 := win0_0.stage (cfg0.slots t 0)
abbrev hmh (t : Fin cfg0.N) : (mh t).IsWhole := hstage0_0 ((cfg0.slots t 0).cast nbuf0_0)
abbrev mw (t : Fin cfg0.N) : Memref sig .tc .vmem S1024x2048 .f32 := win0_1.stage (cfg0.slots t 1)
abbrev hmw (t : Fin cfg0.N) : (mw t).IsWhole := hstage0_1 ((cfg0.slots t 1).cast nbuf0_1)
abbrev mo (t : Fin cfg0.N) : Memref sig .tc .vmem S4x2048 .f32 := win0_2.stage (cfg0.slots t 2)
abbrev hmo (t : Fin cfg0.N) : (mo t).IsWhole := hstage0_2 ((cfg0.slots t 2).cast nbuf0_2)
/-- The accumulator: a whole scoped buffer of the kernel's own. -/
abbrev macc : Memref sig .tc .vmem S4x2048 .f32 := Memref.whole cc0_scratch0

/-- The class invariant with the accumulator as a memref owned at some contents. -/
theorem PhiA_eq (c : Dev nD) :
    (Pipeline.ΦA spec0 c : sProp 𝕄)
      = iprop(iprop((∃ d, owns (c : Thread nD τ) macc fullShare d)) ∗ (∃ r, prngReg c r)) := by
  unfold Pipeline.ΦA; rw [scopedRest0_eq]; simp only [macc, owns_whole]; try rfl

end Cert.KernelIdeal.Region

end
-- ==== Proof.IdealFrame.Body.lean ====
/- The matmul body at one grid point, as a triple over whole staging buffers at NAMED contents: with the h-block x0,
   the W-block x1 and the accumulator at a, the body leaves the accumulator at `k0_pay2 x0 x1 a` (a plus the
   blocks' product) — over a zeroed accumulator, `k0_pay2 x0 x1 k0_pay1`, where k = 0 — and the two operand
   buffers as they were; the output block is left untouched except where k = 7, where it receives the
   accumulator's new contents.  Three cases of the two conditions (k = 0 and k = 7 exclude each other on a
   grid of 8 steps).  Each store writes the whole 4 × 2048 buffer, so what it holds afterwards is the last
   store's payload. -/
import proofs.«113935_j84310208020843_1_alg».proof.Proof.IdealFrame.Setup
import proofs.«113935_j84310208020843_1_alg».proof.Proof.LibUnitStore

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores and loads of the body all sit at offset (0, 0). -/
theorem zero_off : (![0, 0] : Fin 2 → Nat) = fun _ => 0 := funext fun a => by fin_cases a <;> rfl

set_option maxHeartbeats 1000000 in
theorem run_first (c : Dev nD) (i : grid0.Coords) (arg2 : Memref sig .tc .vmem S4x1024 .f32) (harg2 : arg2.IsWhole) (arg3 : Memref sig .tc .vmem S1024x2048 .f32) (harg3 : arg3.IsWhole) (arg4 : Memref sig .tc .vmem S4x2048 .f32) (harg4 : arg4.IsWhole) (arg5 : Memref sig .tc .vmem S4x2048 .f32) (harg5 : arg5.IsWhole)
    (hc0 : isFirst i) (hc1 : ¬isLast i)
    (x0 : Vec F S4x1024 .f32) (x1 : Vec F S1024x2048 .f32) (y : Vec F S4x2048 .f32) (a : Vec F S4x2048 .f32) (E : Set ℕ) (K : PUnit → sProp 𝕄) :
    iprop(owns (c : Thread nD τ) arg2 fullShare x0 ∗ owns (c : Thread nD τ) arg3 fullShare x1 ∗ owns (c : Thread nD τ) arg4 fullShare y ∗ owns (c : Thread nD τ) arg5 fullShare a
        ∗ (iprop(owns (c : Thread nD τ) arg2 fullShare x0 ∗ owns (c : Thread nD τ) arg3 fullShare x1 ∗ owns (c : Thread nD τ) arg4 fullShare (y)
            ∗ owns (c : Thread nD τ) arg5 fullShare (k0_pay2 x0 x1 k0_pay1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [Cert.LibUnitStore.read_writes_cons_unit_zero _ _ zero_off]
  simp only [View.readAt_eq_ld, harg2.read_unread, harg3.read_unread, harg4.read_unread, harg5.read_unread, View.ld_unit_zero (S := S4x1024) zero_off, View.ld_unit_zero (S := S1024x2048) zero_off, View.ld_unit_zero (S := S4x2048) zero_off, View.readCov_unit_zero (S := S4x2048) _ zero_off]

set_option maxHeartbeats 1000000 in
theorem run_mid (c : Dev nD) (i : grid0.Coords) (arg2 : Memref sig .tc .vmem S4x1024 .f32) (harg2 : arg2.IsWhole) (arg3 : Memref sig .tc .vmem S1024x2048 .f32) (harg3 : arg3.IsWhole) (arg4 : Memref sig .tc .vmem S4x2048 .f32) (harg4 : arg4.IsWhole) (arg5 : Memref sig .tc .vmem S4x2048 .f32) (harg5 : arg5.IsWhole)
    (hc0 : ¬isFirst i) (hc1 : ¬isLast i)
    (x0 : Vec F S4x1024 .f32) (x1 : Vec F S1024x2048 .f32) (y : Vec F S4x2048 .f32) (a : Vec F S4x2048 .f32) (E : Set ℕ) (K : PUnit → sProp 𝕄) :
    iprop(owns (c : Thread nD τ) arg2 fullShare x0 ∗ owns (c : Thread nD τ) arg3 fullShare x1 ∗ owns (c : Thread nD τ) arg4 fullShare y ∗ owns (c : Thread nD τ) arg5 fullShare a
        ∗ (iprop(owns (c : Thread nD τ) arg2 fullShare x0 ∗ owns (c : Thread nD τ) arg3 fullShare x1 ∗ owns (c : Thread nD τ) arg4 fullShare (y)
            ∗ owns (c : Thread nD τ) arg5 fullShare (k0_pay2 x0 x1 a)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  rw [Cert.LibUnitStore.read_writes_cons_unit_zero _ _ zero_off]
  simp only [View.readAt_eq_ld, harg2.read_unread, harg3.read_unread, harg4.read_unread, harg5.read_unread, View.ld_unit_zero (S := S4x1024) zero_off, View.ld_unit_zero (S := S1024x2048) zero_off, View.ld_unit_zero (S := S4x2048) zero_off, View.readCov_unit_zero (S := S4x2048) _ zero_off]

set_option maxHeartbeats 1000000 in
theorem run_last (c : Dev nD) (i : grid0.Coords) (arg2 : Memref sig .tc .vmem S4x1024 .f32) (harg2 : arg2.IsWhole) (arg3 : Memref sig .tc .vmem S1024x2048 .f32) (harg3 : arg3.IsWhole) (arg4 : Memref sig .tc .vmem S4x2048 .f32) (harg4 : arg4.IsWhole) (arg5 : Memref sig .tc .vmem S4x2048 .f32) (harg5 : arg5.IsWhole)
    (hc0 : ¬isFirst i) (hc1 : isLast i)
    (x0 : Vec F S4x1024 .f32) (x1 : Vec F S1024x2048 .f32) (y : Vec F S4x2048 .f32) (a : Vec F S4x2048 .f32) (E : Set ℕ) (K : PUnit → sProp 𝕄) :
    iprop(owns (c : Thread nD τ) arg2 fullShare x0 ∗ owns (c : Thread nD τ) arg3 fullShare x1 ∗ owns (c : Thread nD τ) arg4 fullShare y ∗ owns (c : Thread nD τ) arg5 fullShare a
        ∗ (iprop(owns (c : Thread nD τ) arg2 fullShare x0 ∗ owns (c : Thread nD τ) arg3 fullShare x1 ∗ owns (c : Thread nD τ) arg4 fullShare (k0_pay2 x0 x1 a)
            ∗ owns (c : Thread nD τ) arg5 fullShare (k0_pay2 x0 x1 a)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [Cert.LibUnitStore.read_writes_cons_unit_zero _ _ zero_off]
    simp only [View.readAt_eq_ld, harg2.read_unread, harg3.read_unread, harg4.read_unread, harg5.read_unread, View.ld_unit_zero (S := S4x1024) zero_off, View.ld_unit_zero (S := S1024x2048) zero_off, View.ld_unit_zero (S := S4x2048) zero_off, View.readCov_unit_zero (S := S4x2048) _ zero_off]
  iexists _; isplitr
  swap; · iexact HS
  ipureintro
  sl_unfold_words
  rw [Cert.LibUnitStore.read_writes_cons_unit_zero _ _ zero_off]
  simp only [View.readAt_eq_ld, harg2.read_unread, harg3.read_unread, harg4.read_unread, harg5.read_unread, View.ld_unit_zero (S := S4x1024) zero_off, View.ld_unit_zero (S := S1024x2048) zero_off, View.ld_unit_zero (S := S4x2048) zero_off, View.readCov_unit_zero (S := S4x2048) _ zero_off]

end Cert.KernelIdeal.Region

end
-- ==== Proof.IdealFrame.Frame.lean ====
/- The frame of the accumulating matmul region.  The accumulator (a VMEM scratch) is carried between grid
   points: after the body at linear point n it holds `acc n`, defined by recursion on n — at k = 0 the body
   first zeroes it, and at every point it adds the product of the point's h-block and W-block.  The output
   block is stored, and written back, only at k = 7, where it receives `acc n`.  With this as the proof data
   the body meets its obligation at every point (three cases: k = 0, 0 < k < 7, k = 7), and the launch
   theorem for a region followed by host operations gives the run of @main. -/
import proofs.«113935_j84310208020843_1_alg».proof.Proof.IdealFrame.Body

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds after each point -/

/-- The accumulator after the body at linear point `n`: the point's block product added to what the point
    before left, or to zero where k = 0. -/
def acc (c : Dev nD) : (n : ℕ) → n < cfg0.N → Vec F S4x2048 .f32
  | 0, hn => k0_pay2 (iblk m c 0 ⟨0, hn⟩) (iblk m c 1 ⟨0, hn⟩) k0_pay1
  | n + 1, hn =>
    if (n + 1) % 8 = 0 then k0_pay2 (iblk m c 0 ⟨n + 1, hn⟩) (iblk m c 1 ⟨n + 1, hn⟩) k0_pay1
    else k0_pay2 (iblk m c 0 ⟨n + 1, hn⟩) (iblk m c 1 ⟨n + 1, hn⟩) (acc c n (Nat.lt_of_succ_lt hn))

/-- At a point with k = 0 the accumulation starts from zero. -/
theorem acc_first (c : Dev nD) (t : Fin cfg0.N) (h0 : t.val % 8 = 0) :
    acc m c t.val t.isLt = k0_pay2 (iblk m c 0 t) (iblk m c 1 t) k0_pay1 := by
  obtain ⟨n, hn⟩ := t
  cases n with
  | zero => rfl
  | succ n => exact (if_pos h0)

/-- At any other point it continues from the point before. -/
theorem acc_next (c : Dev nD) (t : Fin cfg0.N) (h0 : ¬t.val % 8 = 0) :
    acc m c t.val t.isLt = k0_pay2 (iblk m c 0 t) (iblk m c 1 t) (acc m c (t.val - 1) (Nat.lt_of_le_of_lt (Nat.sub_le _ _) t.isLt)) := by
  obtain ⟨n, hn⟩ := t
  cases n with
  | zero => exact absurd (Nat.zero_mod _) h0
  | succ n => exact (if_neg h0)

/-- The region invariant before position `n`: at the first point the scoped rest at anything; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) macc fullShare (acc m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) macc fullShare (acc m c n hn)) ∗ (∃ r, prngReg c r)) := rfl

theorem PhiS_pos (c : Dev nD) (n : ℕ) (h : n ≤ cfg0.N) (hz : n ≠ 0) :
    PhiS m c n h = iprop(iprop(owns (c : Thread nD τ) macc fullShare (acc m c (n - 1) (by omega))) ∗ (∃ r, prngReg c r)) := by
  cases n with
  | zero => exact absurd rfl hz
  | succ n => rfl

/-! ## The proof data -/

/-- The arrays as the region finds them; after the body each operand's buffer at its block and the output's
    at the accumulator; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_h (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_out (c : Dev nD) (t : Fin cfg0.N) : (dats m 0 c).after 2 t = acc m c t.val t.isLt := by dsimp only [dats]

theorem before_h' (c : Dev nD) (t : Fin cfg0.N) (d) : (dats m 0 c).before 0 t d = iblk m c 0 t :=
  before_h m (dats m 0 c) (A_eq m c 0) (after_h m c) t d
theorem before_w' (c : Dev nD) (t : Fin cfg0.N) (d) : (dats m 0 c).before 1 t d = iblk m c 1 t :=
  before_w m (dats m 0 c) (A_eq m c 1) (after_w m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mh t) fullShare ((dats m 0 c).before 0 t d))
    ∗ (∃ d, owns (c : Thread nD τ) (mw t) fullShare ((dats m 0 c).before 1 t d))
    ∗ (∃ d, owns (c : Thread nD τ) (mo t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point.  The operand buffers hold their blocks; the invariant hands over the accumulator (at
    anything at the very first point, else at what the point before left) and takes it back at this point's
    contents; by cases on k = 7 (the output block stored) and k = 0 (the accumulator reset). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_h', before_w']
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (mh t) fullShare ((dats m 0 c).after 0 t) from by
    unfold Dat.leavesExact; rw [live_h t], after_h]
  rw [show (dats m 0 c).leavesExact 1 t = owns (c : Thread nD τ) (mw t) fullShare ((dats m 0 c).after 1 t) from by
    unfold Dat.leavesExact; rw [live_w t], after_w]
  have hN : t.val < 32 := lt_of_lt_of_eq t.isLt (show cfg0.N = 32 from N_0)
  by_cases h1 : t.val % 8 = 7
  · have h0 : ¬t.val % 8 = 0 := by omega
    have hz : t.val ≠ 0 := by omega
    rw [show (dats m 0 c).leavesExact 2 t = owns (c : Thread nD τ) (mo t) fullShare ((dats m 0 c).after 2 t) from by
      unfold Dat.leavesExact; rw [live_out t ((isLast_iff t).mpr h1)], after_out]
    rw [acc_next m c t h0, PhiS_castSucc m c t, PhiS_pos m c _ _ hz]
    iintro ⟨⟨HS, Hg⟩, Ho, ⟨%d0, H0⟩, ⟨%d1, H1⟩, ⟨%d2, H2⟩⟩
    iapply (run_last c (grid0.coords t) _ _ _ _ _ _ _ _ (fun h => h0 ((isFirst_iff t).mp h)) ((isLast_iff t).mpr h1) (iblk m c 0 t) (iblk m c 1 t) _ _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [Dat.leavesExact_idle (dats m 0 c) 2 t (idle_out t (fun h => h1 ((isLast_iff t).mp h))) (noFlush_out t (fun h => h1 ((isLast_iff t).mp h)))]
    by_cases h0 : t.val % 8 = 0
    · rw [acc_first m c t h0]
      by_cases hz : t.val = 0
      · rw [PhiS_castSucc m c t, PhiS_zero m c _ _ hz, PhiA_eq]
        iintro ⟨⟨⟨%a, HS⟩, Hg⟩, Ho, ⟨%d0, H0⟩, ⟨%d1, H1⟩, ⟨%d2, H2⟩⟩
        iapply (run_first c (grid0.coords t) _ _ _ _ _ _ _ _ ((isFirst_iff t).mpr h0) (fun h => h1 ((isLast_iff t).mp h)) (iblk m c 0 t) (iblk m c 1 t) _ a Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        iexists _; iexact H2
      · rw [PhiS_castSucc m c t, PhiS_pos m c _ _ hz]
        iintro ⟨⟨HS, Hg⟩, Ho, ⟨%d0, H0⟩, ⟨%d1, H1⟩, ⟨%d2, H2⟩⟩
        iapply (run_first c (grid0.coords t) _ _ _ _ _ _ _ _ ((isFirst_iff t).mpr h0) (fun h => h1 ((isLast_iff t).mp h)) (iblk m c 0 t) (iblk m c 1 t) _ _ Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        iexists _; iexact H2
    · have hz : t.val ≠ 0 := fun e => h0 (by rw [e])
      rw [acc_next m c t h0, PhiS_castSucc m c t, PhiS_pos m c _ _ hz]
      iintro ⟨⟨HS, Hg⟩, Ho, ⟨%d0, H0⟩, ⟨%d1, H1⟩, ⟨%d2, H2⟩⟩
      iapply (run_mid c (grid0.coords t) _ _ _ _ _ _ _ _ (fun h => h0 ((isFirst_iff t).mp h)) (fun h => h1 ((isLast_iff t).mp h)) (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's named contents are forgotten. -/
theorem hout (c : Dev nD) : (dats m 0 c).Φ (Fin.last cfg0.N) ⊢ Pipeline.ΦA spec0 c := by
  have hN : cfg0.N = 32 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

/-! ## The run of @main -/

/-- The adjacency input is among the buffers that bypass the region, and no host operation after it writes it. -/
theorem adj_kept (c : Dev nD) : Pipeline.afterTail₀ cfgs (dats m) 0 (V0 m) tailOps c main_arg1 = m ((c.tc : Thread nD τ).loc main_arg1) := by
  unfold Pipeline.afterTail₀
  rw [StableHlo.after_of_forall_not_mem _ _ tail_keeps_adj]
  exact Pipeline.withArrays_of_ne _ c (V0 m c) _ main_arg1 (fun w => by fin_cases w <;> decide)

set_option backward.isDefEq.respectTransparency.types false in
/-- Every weakly fair execution of @main terminates, h, W and the matmul result ending at what the library
    computes from the proof data, every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The three argument arrays end as they started: h and W are operand arrays of the region, which only reads
    them; the adjacency input is touched by no one (the host operations after the region only read it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
    ((h c).2 main_arg1 (Pipeline.mem_restRefs_of main_arg1 rfl (fun w => by fin_cases w <;> decide))).trans (adj_kept m c),
    ((h c).1 1).trans (((dats m 0 c).arrAt_in 1 rfl _).trans ((A_eq m c 1).trans (V_main_arg2 m c)))⟩) (run_main m ρ)

end Cert.KernelIdeal.Region

end
-- ==== Proof.IdealValue.Payload.lean ====
/- The two block payloads of the accumulating matmul, read at an entry (p, q) of the [4, 2048] accumulator over the
   extended reals.  The reset payload is the zero block.  The update payload adds to the accumulator's entry the
   product of the h-block's row p with the W-block's column q: a change of float format is the identity on the
   extended reals, and a matrix product accumulated into the zero block is the plain sum of products over the
   contracted axis, whose 1024 positions are re-indexed by their one coordinate. -/
import proofs.«113935_j84310208020843_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.MatmulValue

open Cert.KernelIdeal Cert.KernelIdeal.Gen
open Idealize.ShloMosaic Idealize.ShloMosaic.ValueIdx

/-! ## The block product's operand indices -/

/-- Row of the left operand: the output's row. -/
theorem lhs_blk_0 (i : S4x2048.Idx) (q : dot_S4x1024_S1024x2048_S4x2048_1_0_0_1_n_n.contr.Idx) :
    (dot_S4x1024_S1024x2048_S4x2048_1_0_0_1_n_n.lhsIdx i q 0).val = (i 0).val := by
  unfold DotDims.lhsIdx
  rw [dif_neg (show ¬(0 : Fin S4x1024.rank) ∈ dot_S4x1024_S1024x2048_S4x2048_1_0_0_1_n_n.lhsBatch by decide),
    dif_pos (show (0 : Fin S4x1024.rank) ∈ dot_S4x1024_S1024x2048_S4x2048_1_0_0_1_n_n.lhsNonContracting by decide)]
  rfl

/-- Column of the left operand: the contracted position. -/
theorem lhs_blk_1 (i : S4x2048.Idx) (q : dot_S4x1024_S1024x2048_S4x2048_1_0_0_1_n_n.contr.Idx) :
    (dot_S4x1024_S1024x2048_S4x2048_1_0_0_1_n_n.lhsIdx i q 1).val = (q ⟨0, by decide⟩).val :=
  dot_S4x1024_S1024x2048_S4x2048_1_0_0_1_n_n.lhsIdx_val_of_single rfl i q

/-- Row of the right operand: the contracted position. -/
theorem rhs_blk_0 (i : S4x2048.Idx) (q : dot_S4x1024_S1024x2048_S4x2048_1_0_0_1_n_n.contr.Idx) :
    (dot_S4x1024_S1024x2048_S4x2048_1_0_0_1_n_n.rhsIdx i q 0).val = (q ⟨0, by decide⟩).val :=
  dot_S4x1024_S1024x2048_S4x2048_1_0_0_1_n_n.rhsIdx_val_of_single rfl i q

/-- Column of the right operand: the output's column. -/
theorem rhs_blk_1 (i : S4x2048.Idx) (q : dot_S4x1024_S1024x2048_S4x2048_1_0_0_1_n_n.contr.Idx) :
    (dot_S4x1024_S1024x2048_S4x2048_1_0_0_1_n_n.rhsIdx i q 1).val = (i 1).val := by
  unfold DotDims.rhsIdx
  rw [dif_neg (show ¬(1 : Fin S1024x2048.rank) ∈ dot_S4x1024_S1024x2048_S4x2048_1_0_0_1_n_n.rhsBatch by decide),
    dif_pos (show (1 : Fin S1024x2048.rank) ∈ dot_S4x1024_S1024x2048_S4x2048_1_0_0_1_n_n.rhsNonContracting by decide)]
  rfl

/-! ## The block product at an entry -/

/-- Entry (p, q) of the [4, 1024] × [1024, 2048] product accumulated into the zero block: ∑ₖ x[p, k] · w[k, q]. -/
theorem blockProduct_apply (x : FVec Ideal S4x1024 .bf16) (w : FVec Ideal S1024x2048 .bf16) (p : Fin 4) (q : Fin 2048) :
    matmul dot_S4x1024_S1024x2048_S4x2048_1_0_0_1_n_n none x w (constant (F := Ideal) S4x2048 .f32 0x00000000#32) (ix2 p q)
      = ∑ k : Fin 1024, x (ix2 p k) * w (ix2 k q) := by
  simp only [matmul]
  rw [Ideal.matmul_constant_zero_apply,
    ← Equiv.sum_comp (contrEquiv1 dot_S4x1024_S1024x2048_S4x2048_1_0_0_1_n_n 1024 rfl rfl).symm]
  refine Finset.sum_congr rfl fun k _ => ?_
  have hk := contrEquiv1_symm_val dot_S4x1024_S1024x2048_S4x2048_1_0_0_1_n_n 1024 rfl rfl k
  have el : dot_S4x1024_S1024x2048_S4x2048_1_0_0_1_n_n.lhsIdx (ix2 p q)
      ((contrEquiv1 dot_S4x1024_S1024x2048_S4x2048_1_0_0_1_n_n 1024 rfl rfl).symm k) = ix2 p k :=
    funext fun a => Fin.ext (by
      match a with
      | ⟨0, _⟩ => exact lhs_blk_0 _ _
      | ⟨1, _⟩ => exact (lhs_blk_1 _ _).trans hk)
  have er : dot_S4x1024_S1024x2048_S4x2048_1_0_0_1_n_n.rhsIdx (ix2 p q)
      ((contrEquiv1 dot_S4x1024_S1024x2048_S4x2048_1_0_0_1_n_n 1024 rfl rfl).symm k) = ix2 k q :=
    funext fun a => Fin.ext (by
      match a with
      | ⟨0, _⟩ => exact (rhs_blk_0 _ _).trans hk
      | ⟨1, _⟩ => exact rhs_blk_1 _ _)
  rw [el, er]

/-! ## The payloads at an entry -/

/-- The reset payload is zero everywhere. -/
theorem zeroBlock_apply (p : Fin 4) (q : Fin 2048) : (k0_pay1 (F := Ideal)) (ix2 p q) = 0 := by
  unfold k0_pay1
  rw [shapeCast_self]
  show Ideal.ofBits .f32 0x00000000#32 = 0
  exact Ideal.ofBits_zero_f32

/-- The update payload: the accumulator's entry plus the h-block's row p times the W-block's column q. -/
theorem update_apply (x : Vec Ideal S4x1024 .f32) (w : Vec Ideal S1024x2048 .f32) (a : Vec Ideal S4x2048 .f32)
    (p : Fin 4) (q : Fin 2048) :
    k0_pay2 x w a (ix2 p q) = a (ix2 p q) + ∑ k : Fin 1024, x (ix2 p k) * w (ix2 k q) := by
  unfold k0_pay2
  rw [shapeCast_self]
  show a (ix2 p q) + matmul dot_S4x1024_S1024x2048_S4x2048_1_0_0_1_n_n none
      (truncf (F := Ideal) .bf16 x bitsLt_bf16_f32) (truncf (F := Ideal) .bf16 w bitsLt_bf16_f32)
      (constant (F := Ideal) S4x2048 .f32 0x00000000#32) (ix2 p q) = _
  rw [blockProduct_apply]
  rfl

end Cert.KernelIdeal.MatmulValue

end
-- ==== Proof.IdealValue.Blocks.lean ====
/- Where the operand blocks sit in their arrays.  On the 4 × 8 grid, with k = t % 8 the fast coordinate and
   n = t / 8 the slow one, the h window's block at point t is columns 1024·k … 1024·k + 1023 of h, the W window's
   block is rows 1024·k … 1024·k + 1023 and columns 2048·n … 2048·n + 2047 of W, and the output window's block is
   columns 2048·n … 2048·n + 2047 of the result.  The block indices are decided once over the 32 points; an entry of
   a block is the array's entry at block index × block size + the coordinate inside the block. -/
import proofs.«113935_j84310208020843_1_alg».proof.Proof.IdealFrame.Setup
import Idealize.ShloMosaic.Lib.ValueIdx
import Idealize.ShloMosaic.Lib.Pipeline.Value

noncomputable section

namespace Cert.KernelIdeal.MatmulValue

open Cert.KernelIdeal Cert.KernelIdeal.Gen Cert.KernelIdeal.Region
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The three windows' block indices at linear point t: (0, t % 8), (t % 8, t / 8), (0, t / 8). -/
theorem index_facts : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = 0 ∧ win0_2.index t (1 : Fin 2) = t.val / 8)

/-- Entry (p, k) of the h-block at point t is h[p, 1024·(t % 8) + k]. -/
theorem hblk_apply (c : Dev nD) (t : Fin cfg0.N) (p : Fin 4) (k : Fin 1024) (i : S4x8192.Idx)
    (h0 : (i 0).val = p.val) (h1 : (i 1).val = 1024 * (t.val % 8) + k.val) :
    (iblk m c 0 t : Vec F S4x1024 .f32) (ix2 p k)
      = (m ((c : Thread nD τ).loc main_arg0) : S4x8192.Idx → Elt F .f32) i := by
  obtain ⟨e0, e1, -⟩ := index_facts t
  unfold iblk
  rw [View.read_apply]
  show (m ((c : Thread nD τ).loc main_arg0) : S4x8192.Idx → Elt F .f32) _ = _
  congr 1
  funext a
  apply Fin.ext
  match a with
  | ⟨0, _⟩ => show win0_0.index t 0 * 4 + 1 * p.val = (i 0).val; rw [e0, h0]; omega
  | ⟨1, _⟩ => show win0_0.index t 1 * 1024 + 1 * k.val = (i 1).val; rw [e1, h1]; omega

/-- Entry (k, q) of the W-block at point t is W[1024·(t % 8) + k, 2048·(t / 8) + q]. -/
theorem wblk_apply (c : Dev nD) (t : Fin cfg0.N) (k : Fin 1024) (q : Fin 2048) (i : S8192x8192.Idx)
    (h0 : (i 0).val = 1024 * (t.val % 8) + k.val) (h1 : (i 1).val = 2048 * (t.val / 8) + q.val) :
    (iblk m c 1 t : Vec F S1024x2048 .f32) (ix2 k q)
      = (m ((c : Thread nD τ).loc main_arg2) : S8192x8192.Idx → Elt F .f32) i := by
  obtain ⟨-, -, e0, e1, -⟩ := index_facts t
  unfold iblk
  rw [View.read_apply]
  show (m ((c : Thread nD τ).loc main_arg2) : S8192x8192.Idx → Elt F .f32) _ = _
  congr 1
  funext a
  apply Fin.ext
  match a with
  | ⟨0, _⟩ => show win0_1.index t 0 * 1024 + 1 * k.val = (i 0).val; rw [e0, h0]; omega
  | ⟨1, _⟩ => show win0_1.index t 1 * 2048 + 1 * q.val = (i 1).val; rw [e1, h1]; omega

end Cert.KernelIdeal.MatmulValue

end
-- ==== Proof.IdealValue.Accum.lean ====
/- The accumulator's closed form over the extended reals.  Write part(p, j, s) for block s's share of entry
   (p, j) of h @ W: the sum over k < 1024 of h[p, 1024·s + k] · W[1024·s + k, j].  At grid point t, with
   k = t % 8 and n = t / 8, the update adds part(p, 2048·n + q, k) to entry (p, q) of the accumulator, and the
   accumulator is zeroed where k = 0 (and 0 + x = x).  So after point t entry (p, q) holds the sum of the shares of
   blocks 0 … t % 8 for column 2048·(t / 8) + q — by induction on the point, with the two case equations of the
   accumulator; at a point with t % 8 = 7 all eight shares are in. -/
import proofs.«113935_j84310208020843_1_alg».proof.Proof.IdealFrame.Frame
import proofs.«113935_j84310208020843_1_alg».proof.Proof.IdealValue.Payload
import proofs.«113935_j84310208020843_1_alg».proof.Proof.IdealValue.Blocks

noncomputable section

open scoped BigOperators

namespace Cert.KernelIdeal.MatmulValue

open Cert.KernelIdeal Cert.KernelIdeal.Gen Cert.KernelIdeal.Region
open Idealize.ShloMosaic Idealize.ShloMosaic.TcCoe Idealize.ShloMosaic.ValueIdx Idealize.SL.Sem

variable (m : (ℓ : Loc nD τ sig) → Buf (Elt Ideal) ℓ)

/-! ## The arrays at natural coordinates -/

/-- h[a, b], and zero outside the [4, 8192] array. -/
def hAt (c : Dev nD) (a b : ℕ) : EReal :=
  if hb : a < 4 ∧ b < 8192 then
    (m ((c : Thread nD τ).loc main_arg0) : S4x8192.Idx → EReal) (ix2 ⟨a, hb.1⟩ ⟨b, hb.2⟩)
  else 0

/-- W[a, b], and zero outside the [8192, 8192] array. -/
def wAt (c : Dev nD) (a b : ℕ) : EReal :=
  if hb : a < 8192 ∧ b < 8192 then
    (m ((c : Thread nD τ).loc main_arg2) : S8192x8192.Idx → EReal) (ix2 ⟨a, hb.1⟩ ⟨b, hb.2⟩)
  else 0

/-- Block s's share of entry (p, j) of h @ W: ∑_{k < 1024} h[p, 1024·s + k] · W[1024·s + k, j]. -/
def part (c : Dev nD) (p j s : ℕ) : EReal :=
  ∑ k : Fin 1024, hAt m c p (1024 * s + k.val) * wAt m c (1024 * s + k.val) j

/-! ## The operand blocks in those coordinates -/

theorem hblk_nat (c : Dev nD) (t : Fin cfg0.N) (p : Fin 4) (k : Fin 1024) :
    (iblk m c 0 t : Vec Ideal S4x1024 .f32) (ix2 p k) = hAt m c p.val (1024 * (t.val % 8) + k.val) := by
  have hN : t.val < 32 := lt_of_lt_of_eq t.isLt (show cfg0.N = 32 from N_0)
  have hb : p.val < 4 ∧ 1024 * (t.val % 8) + k.val < 8192 := ⟨p.isLt, by have := k.isLt; omega⟩
  unfold hAt
  rw [dif_pos hb]
  exact hblk_apply m c t p k _ rfl rfl

theorem wblk_nat (c : Dev nD) (t : Fin cfg0.N) (k : Fin 1024) (q : Fin 2048) :
    (iblk m c 1 t : Vec Ideal S1024x2048 .f32) (ix2 k q)
      = wAt m c (1024 * (t.val % 8) + k.val) (2048 * (t.val / 8) + q.val) := by
  have hN : t.val < 32 := lt_of_lt_of_eq t.isLt (show cfg0.N = 32 from N_0)
  have hb : 1024 * (t.val % 8) + k.val < 8192 ∧ 2048 * (t.val / 8) + q.val < 8192 :=
    ⟨by have := k.isLt; omega, by have := q.isLt; omega⟩
  unfold wAt
  rw [dif_pos hb]
  exact wblk_apply m c t k q _ rfl rfl

/-! ## One update -/

/-- The update at point t adds block (t % 8)'s share for column 2048·(t / 8) + q. -/
theorem step_apply (c : Dev nD) (t : Fin cfg0.N) (a : Vec Ideal S4x2048 .f32) (p : Fin 4) (q : Fin 2048) :
    k0_pay2 (iblk m c 0 t) (iblk m c 1 t) a (ix2 p q)
      = a (ix2 p q) + part m c p.val (2048 * (t.val / 8) + q.val) (t.val % 8) := by
  refine (update_apply (iblk m c 0 t) (iblk m c 1 t) a p q).trans ?_
  unfold part
  exact congrArg (a (ix2 p q) + ·) (Finset.sum_congr rfl fun k _ =>
    congrArg₂ (· * ·) (hblk_nat m c t p k) (wblk_nat m c t k q))

/-! ## The accumulator after each point -/

/-- After point n the accumulator's entry (p, q) is the sum of the shares of blocks 0 … n % 8 for column
    2048·(n / 8) + q. -/
theorem acc_apply (c : Dev nD) : ∀ (n : ℕ) (hn : n < cfg0.N) (p : Fin 4) (q : Fin 2048),
    acc m c n hn (ix2 p q) = ∑ s ∈ Finset.range (n % 8 + 1), part m c p.val (2048 * (n / 8) + q.val) s
  | 0, hn, p, q => by
    refine (congrFun (acc_first m c ⟨0, hn⟩ rfl) (ix2 p q)).trans ?_
    refine (step_apply m c ⟨0, hn⟩ (k0_pay1 (F := Ideal)) p q).trans ?_
    rw [zeroBlock_apply, zero_add]
    show part m c p.val (2048 * (0 / 8) + q.val) (0 % 8) = _
    rw [Finset.sum_range_one]
  | n + 1, hn, p, q => by
    by_cases h0 : (n + 1) % 8 = 0
    · refine (congrFun (acc_first m c ⟨n + 1, hn⟩ h0) (ix2 p q)).trans ?_
      refine (step_apply m c ⟨n + 1, hn⟩ (k0_pay1 (F := Ideal)) p q).trans ?_
      rw [zeroBlock_apply, zero_add]
      show part m c p.val (2048 * ((n + 1) / 8) + q.val) ((n + 1) % 8) = _
      rw [h0, Finset.sum_range_one]
    · refine (congrFun (acc_next m c ⟨n + 1, hn⟩ h0) (ix2 p q)).trans ?_
      refine (step_apply m c ⟨n + 1, hn⟩ (acc m c n (Nat.lt_of_succ_lt hn)) p q).trans ?_
      rw [acc_apply c n (Nat.lt_of_succ_lt hn) p q]
      show _ + part m c p.val (2048 * ((n + 1) / 8) + q.val) ((n + 1) % 8) = _
      have e1 : (n + 1) / 8 = n / 8 := by omega
      have e2 : (n + 1) % 8 = n % 8 + 1 := by omega
      rw [e1, e2, Finset.sum_range_succ _ (n % 8 + 1)]

/-- At a point with k = 7 all eight blocks' shares are in. -/
theorem acc_full (c : Dev nD) (t : Fin cfg0.N) (h7 : t.val % 8 = 7) (p : Fin 4) (q : Fin 2048) :
    acc m c t.val t.isLt (ix2 p q) = ∑ s ∈ Finset.range 8, part m c p.val (2048 * (t.val / 8) + q.val) s := by
  rw [acc_apply m c t.val t.isLt p q, h7]

end Cert.KernelIdeal.MatmulValue

end
-- ==== Proof.IdealValue.Regroup.lean ====
/- A sum over a range of a·b consecutive naturals, regrouped into a blocks of b: position b·s + k of the long sum
   is position k of block s.  Stated in any commutative additive monoid (it is used on the extended reals, where
   no finiteness is needed: only commutativity and associativity of addition). -/
import Mathlib.Algebra.BigOperators.Fin
import Mathlib.Algebra.BigOperators.Group.Finset.Basic
import Mathlib.Logic.Equiv.Fin.Basic

open scoped BigOperators

namespace Cert.KernelIdeal.MatmulValue

/-- ∑_{n < a·b} f n = ∑_{s < a} ∑_{k < b} f (b·s + k). -/
theorem sum_blocks {M : Type*} [AddCommMonoid M] (a b : ℕ) (f : ℕ → M) :
    ∑ n : Fin (a * b), f n.val = ∑ s ∈ Finset.range a, ∑ k : Fin b, f (b * s + k.val) := by
  rw [← Fin.sum_univ_eq_sum_range (fun s => ∑ k : Fin b, f (b * s + k.val)) a,
    ← Fintype.sum_prod_type' (fun (s : Fin a) (k : Fin b) => f (b * s.val + k.val)),
    ← Equiv.sum_comp finProdFinEquiv]
  refine Finset.sum_congr rfl fun x _ => ?_
  congr 1
  show x.2.val + b * x.1.val = b * x.1.val + x.2.val
  omega

/-- The contraction of length 8192 in 8 blocks of 1024. -/
theorem sum_8192 {M : Type*} [AddCommMonoid M] (f : ℕ → M) :
    ∑ n : Fin 8192, f n.val = ∑ s ∈ Finset.range 8, ∑ k : Fin 1024, f (1024 * s + k.val) :=
  sum_blocks 8 1024 f

end Cert.KernelIdeal.MatmulValue
-- ==== Proof.IdealValue.Reference.lean ====
/- The reference's product read at an entry.  On the extended reals, entry (p, j) of the [4, 8192] × [8192, 8192]
   dot_general is ∑ₖ h[p, k] · W[k, j] over the 8192 positions of the one contracted axis. -/
import proofs.«113935_j84310208020843_1_alg».proof.Proof.Gen.ReferenceIdeal
import Idealize.ShloMosaic.Lib.ValueIdx
import Idealize.ShloMosaic.PureOps.Ideal.Laws

noncomputable section

open scoped BigOperators

namespace Cert.KernelIdeal.MatmulValue

open Idealize.ShloMosaic Idealize.ShloMosaic.ValueIdx

/-- Row of the left operand: the output's row. -/
theorem lhs_ref_0 (i : Cert.ReferenceIdeal.S4x8192.Idx)
    (q : Cert.ReferenceIdeal.dot_S4x8192_S8192x8192_S4x8192_1_0_0_1_n_n.contr.Idx) :
    (Cert.ReferenceIdeal.dot_S4x8192_S8192x8192_S4x8192_1_0_0_1_n_n.lhsIdx i q 0).val = (i 0).val := by
  unfold DotDims.lhsIdx
  rw [dif_neg (show ¬(0 : Fin Cert.ReferenceIdeal.S4x8192.rank) ∈ Cert.ReferenceIdeal.dot_S4x8192_S8192x8192_S4x8192_1_0_0_1_n_n.lhsBatch by decide),
    dif_pos (show (0 : Fin Cert.ReferenceIdeal.S4x8192.rank) ∈ Cert.ReferenceIdeal.dot_S4x8192_S8192x8192_S4x8192_1_0_0_1_n_n.lhsNonContracting by decide)]
  rfl

/-- Column of the left operand: the contracted position. -/
theorem lhs_ref_1 (i : Cert.ReferenceIdeal.S4x8192.Idx)
    (q : Cert.ReferenceIdeal.dot_S4x8192_S8192x8192_S4x8192_1_0_0_1_n_n.contr.Idx) :
    (Cert.ReferenceIdeal.dot_S4x8192_S8192x8192_S4x8192_1_0_0_1_n_n.lhsIdx i q 1).val = (q ⟨0, by decide⟩).val :=
  Cert.ReferenceIdeal.dot_S4x8192_S8192x8192_S4x8192_1_0_0_1_n_n.lhsIdx_val_of_single rfl i q

/-- Row of the right operand: the contracted position. -/
theorem rhs_ref_0 (i : Cert.ReferenceIdeal.S4x8192.Idx)
    (q : Cert.ReferenceIdeal.dot_S4x8192_S8192x8192_S4x8192_1_0_0_1_n_n.contr.Idx) :
    (Cert.ReferenceIdeal.dot_S4x8192_S8192x8192_S4x8192_1_0_0_1_n_n.rhsIdx i q 0).val = (q ⟨0, by decide⟩).val :=
  Cert.ReferenceIdeal.dot_S4x8192_S8192x8192_S4x8192_1_0_0_1_n_n.rhsIdx_val_of_single rfl i q

/-- Column of the right operand: the output's column. -/
theorem rhs_ref_1 (i : Cert.ReferenceIdeal.S4x8192.Idx)
    (q : Cert.ReferenceIdeal.dot_S4x8192_S8192x8192_S4x8192_1_0_0_1_n_n.contr.Idx) :
    (Cert.ReferenceIdeal.dot_S4x8192_S8192x8192_S4x8192_1_0_0_1_n_n.rhsIdx i q 1).val = (i 1).val := by
  unfold DotDims.rhsIdx
  rw [dif_neg (show ¬(1 : Fin Cert.ReferenceIdeal.S8192x8192.rank) ∈ Cert.ReferenceIdeal.dot_S4x8192_S8192x8192_S4x8192_1_0_0_1_n_n.rhsBatch by decide),
    dif_pos (show (1 : Fin Cert.ReferenceIdeal.S8192x8192.rank) ∈ Cert.ReferenceIdeal.dot_S4x8192_S8192x8192_S4x8192_1_0_0_1_n_n.rhsNonContracting by decide)]
  rfl

/-- Entry (p, j) of the reference's h @ W: ∑ₖ h[p, k] · W[k, j]. -/
theorem reference_apply (h : FVec Ideal Cert.ReferenceIdeal.S4x8192 .f32) (W : FVec Ideal Cert.ReferenceIdeal.S8192x8192 .f32)
    (p : Fin 4) (j : Fin 8192) :
    Host.dotGeneral (F := Ideal) Cert.ReferenceIdeal.dot_S4x8192_S8192x8192_S4x8192_1_0_0_1_n_n none h W (ix2 p j)
      = ∑ k : Fin 8192, h (ix2 p k) * W (ix2 k j) := by
  simp only [Host.dotGeneral]
  rw [Ideal.dotGeneral_apply,
    ← Equiv.sum_comp (contrEquiv1 Cert.ReferenceIdeal.dot_S4x8192_S8192x8192_S4x8192_1_0_0_1_n_n 8192 rfl rfl).symm]
  refine Finset.sum_congr rfl fun k _ => ?_
  have hk := contrEquiv1_symm_val Cert.ReferenceIdeal.dot_S4x8192_S8192x8192_S4x8192_1_0_0_1_n_n 8192 rfl rfl k
  have el : Cert.ReferenceIdeal.dot_S4x8192_S8192x8192_S4x8192_1_0_0_1_n_n.lhsIdx (ix2 p j)
      ((contrEquiv1 Cert.ReferenceIdeal.dot_S4x8192_S8192x8192_S4x8192_1_0_0_1_n_n 8192 rfl rfl).symm k) = ix2 p k :=
    funext fun a => Fin.ext (by
      match a with
      | ⟨0, _⟩ => exact lhs_ref_0 _ _
      | ⟨1, _⟩ => exact (lhs_ref_1 _ _).trans hk)
  have er : Cert.ReferenceIdeal.dot_S4x8192_S8192x8192_S4x8192_1_0_0_1_n_n.rhsIdx (ix2 p j)
      ((contrEquiv1 Cert.ReferenceIdeal.dot_S4x8192_S8192x8192_S4x8192_1_0_0_1_n_n 8192 rfl rfl).symm k) = ix2 k j :=
    funext fun a => Fin.ext (by
      match a with
      | ⟨0, _⟩ => exact (rhs_ref_0 _ _).trans hk
      | ⟨1, _⟩ => exact rhs_ref_1 _ _)
  rw [el, er]

end Cert.KernelIdeal.MatmulValue

end
-- ==== Proof.IdealValue.Final.lean ====
/- The matmul region's result array over the extended reals.  The output block of columns 2048·n … 2048·n + 2047
   is written back exactly at the points t = 8·n + 7, where the accumulator holds, at (p, q), the sum of all eight
   blocks' shares for column 2048·n + q; these four blocks tile the [4, 8192] array (column j lies in the block
   written back at point 8·(j / 2048) + 7).  So the array ends with, at (p, j), the sum over s < 8 of the sum over
   k < 1024 of h[p, 1024·s + k] · W[1024·s + k, j]: the contraction over 8192 positions regrouped into eight
   blocks of 1024, which is entry (p, j) of the reference's h @ W. -/
import proofs.«113935_j84310208020843_1_alg».proof.Proof.IdealValue.Accum
import proofs.«113935_j84310208020843_1_alg».proof.Proof.IdealValue.Regroup
import proofs.«113935_j84310208020843_1_alg».proof.Proof.IdealValue.Reference

noncomputable section

open scoped BigOperators

namespace Cert.KernelIdeal.MatmulValue

open Cert.KernelIdeal Cert.KernelIdeal.Gen Cert.KernelIdeal.Region
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The result array: entry (p, j) is the eight blocks' shares added up. -/
def blockSums (c : Dev nD) : S4x8192.Idx → EReal :=
  fun i => ∑ s ∈ Finset.range 8, part m c (i 0).val (i 1).val s

/-- What a point with k = 7 writes back is its block of `blockSums`. -/
theorem flushed_eq (c : Dev nD) (t : Fin cfg0.N) (hf : (cfg0.win 2).flush t = true) :
    (dats m 0 c).flushed 2 t = ((cfg0.win 2).blk t).view.read (Elt Ideal) (blockSums m c) := by
  have h7 : t.val % 8 = 7 := (flush0_2 t).mp hf
  obtain ⟨-, -, -, -, e0, e1⟩ := index_facts t
  show (cfg0.win 2).cut (grid0.coords t) ((dats m 0 c).after 2 t) = _
  rw [after_out]
  funext y
  obtain ⟨p, q, rfl⟩ : ∃ (p : Fin 4) (q : Fin 2048), y = ix2 p q :=
    ⟨y 0, y 1, eq_ix2 (n0 := 4) (n1 := 2048) y⟩
  rw [View.read_apply]
  show acc m c t.val t.isLt (ix2 p q) = blockSums m c (((cfg0.win 2).blk t).view.emb (ix2 p q))
  rw [acc_full m c t h7 p q]
  unfold blockSums
  refine Finset.sum_congr rfl fun s _ => ?_
  congr 1
  · show p.val = win0_2.index t 0 * 4 + 1 * p.val
    rw [e0]; omega
  · show 2048 * (t.val / 8) + q.val = win0_2.index t 1 * 2048 + 1 * q.val
    rw [e1]; omega

/-- Column j lies in the block written back at point 8·(j / 2048) + 7. -/
theorem cover (i : S4x8192.Idx) :
    ∃ t : Fin cfg0.N, (cfg0.win 2).flush t = true ∧ i ∈ ((cfg0.win 2).blk t).view.set := by
  have hi0 : (i 0).val < 4 := (i 0).isLt
  have hi1 : (i 1).val < 8192 := (i 1).isLt
  have hN : cfg0.N = 32 := N_0
  obtain ⟨t, ht⟩ : ∃ t : Fin cfg0.N, t.val = 8 * ((i 1).val / 2048) + 7 :=
    ⟨⟨8 * ((i 1).val / 2048) + 7, by rw [hN]; omega⟩, rfl⟩
  obtain ⟨-, -, -, -, e0, e1⟩ := index_facts t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t 0 * 4 ≤ (i 0).val ∧ (i 0).val < win0_2.index t 0 * 4 + 4
    rw [e0]; omega
  | ⟨1, _⟩ =>
    show win0_2.index t 1 * 2048 ≤ (i 1).val ∧ (i 1).val < win0_2.index t 1 * 2048 + 2048
    rw [e1]; omega

/-- The result array after the region. -/
theorem final_blockSums (c : Dev nD) : (dats m 0 c).arrAt 2 cfg0.N = blockSums m c :=
  (dats m 0 c).arrAt_eq_of_cover 2 (blockSums m c) (flushed_eq m c) cover

/-- The eight blocks' shares regroup the contraction over 8192 positions: `blockSums` is the reference's h @ W. -/
theorem blockSums_eq (c : Dev nD) :
    blockSums m c = Host.dotGeneral (F := Ideal) (φ₁ := .f32) (φ₂ := .f32) Cert.ReferenceIdeal.dot_S4x8192_S8192x8192_S4x8192_1_0_0_1_n_n none
      (m ((c.tc : Thread nD τ).loc main_arg0)) (m ((c.tc : Thread nD τ).loc main_arg2)) := by
  funext i
  obtain ⟨p, j, rfl⟩ : ∃ (p : Fin 4) (j : Fin 8192), i = ix2 p j := ⟨i 0, i 1, eq_ix2 i⟩
  refine Eq.trans ?_ (reference_apply (m ((c.tc : Thread nD τ).loc main_arg0)) (m ((c.tc : Thread nD τ).loc main_arg2)) p j).symm
  show ∑ s ∈ Finset.range 8, part m c p.val j.val s = _
  unfold part
  rw [← sum_8192 (fun n => hAt m c p.val n * wAt m c n j.val)]
  refine Finset.sum_congr rfl fun k _ => ?_
  unfold hAt wAt
  rw [dif_pos ⟨p.isLt, k.isLt⟩, dif_pos ⟨k.isLt, j.isLt⟩]

/-- After the region the result array is the reference's dot_general of h and W. -/
theorem final_out (m : (ℓ : Loc nD τ sig) → Buf (Elt Ideal) ℓ) (c : Dev nD) :
    (Cert.KernelIdeal.Region.dats (F := Ideal) m 0 c).arrAt 2 cfg0.N
      = Host.dotGeneral (F := Ideal) (φ₁ := .f32) (φ₂ := .f32) Cert.ReferenceIdeal.dot_S4x8192_S8192x8192_S4x8192_1_0_0_1_n_n none
          (m ((c.tc : Thread nD τ).loc main_arg0)) (m ((c.tc : Thread nD τ).loc main_arg2)) :=
  (final_blockSums m c).trans (blockSums_eq m c)

end Cert.KernelIdeal.MatmulValue

end
-- ==== Proof.Tail.Stages.lean ====
/- The host computation that follows the matmul, as pure functions of the matmul's result
   x : f32[4,8192] and of the adjacency matrix adj : i32[3,3], in three stages cut where few values are live.

   Stage A (from x): the pairwise Euclidean distances of the rows, d(i,j) = sqrt(Σ_k (x_ik − x_jk)²) where the sum is
   positive and 0 where it is not, passed through the leaky rectifier t ↦ t if t ≥ 0 else 0.2·t; once for all four
   rows (a 4×4 matrix) and once for rows 1..3 (a 3×3 matrix).
   Stage B (from the two matrices and adj): three scalars s = e(a,b) + (e(0,a) + e(0,b))/2 read off the 4×4 matrix,
   written symmetrically into the 3×3 matrix at (0,1),(1,0), (0,2),(2,0), (1,2),(2,1); the mask adj > 0; a large
   negative constant.
   Stage C (from the mask, the 3×3 matrix, the constant and x): the masked matrix (the constant where the mask is
   clear), its softmax down each column, the product of that 3×3 matrix with rows 1..3 of x, and row 0 of x put
   back on top.

   The four results of the whole computation are the compositions out109, out49, out58, out67 at the end. -/
import proofs.«113935_j84310208020843_1_alg».proof.KernelIdeal
import proofs.«113935_j84310208020843_1_alg».proof.Proof.Gen.KernelIdeal

noncomputable section

namespace Cert.Tail

open Cert.KernelIdeal Cert.KernelIdeal.Gen Idealize.ShloMosaic

variable {F : FTy → Type} [FloatOps F]

/-! ## Stage A: distances and the leaky rectifier -/

/-- x_ik − x_jk over all i, j < 4 and all k. -/
def diff4 (x : FVec F S4x8192 .f32) : FVec F S4x4x8192 .f32 :=
  subf
    (broadcastInDim S4x4x8192 ![0, 1, 2] bcast_S4x1x8192_S4x4x8192_0_1_2 (broadcastInDim S4x1x8192 ![0, 2] bcast_S4x8192_S4x1x8192_0_2 x))
    (broadcastInDim S4x4x8192 ![0, 1, 2] bcast_S1x4x8192_S4x4x8192_0_1_2 (broadcastInDim S1x4x8192 ![1, 2] bcast_S4x8192_S1x4x8192_1_2 x))

/-- Σ_k (x_ik − x_jk)². -/
def sq4 (x : FVec F S4x8192 .f32) : FVec F S4x4 .f32 :=
  Host.reduceAdd (mulf (diff4 x) (diff4 x)) (constant (F := F) S_ .f32 0x00000000#32) reducesTo_S4x4x8192_S4x4_d2 h_S_

/-- The distance: the square root of the sum where it is positive (taken of 1 elsewhere), and 0 where it is not. -/
def dist4 (x : FVec F S4x8192 .f32) : FVec F S4x4 .f32 :=
  select (cmpf .ogt (sq4 x) (broadcastInDim S4x4 ![] bcast_S_S4x4 (constant (F := F) S_ .f32 0x00000000#32)))
    (Host.sqrt (select (cmpf .ogt (sq4 x) (broadcastInDim S4x4 ![] bcast_S_S4x4 (constant (F := F) S_ .f32 0x00000000#32)))
      (sq4 x) (broadcastInDim S4x4 ![] bcast_S_S4x4 (constant (F := F) S_ .f32 0x3F800000#32))))
    (broadcastInDim S4x4 ![] bcast_S_S4x4 (constant (F := F) S_ .f32 0x00000000#32))

/-- The leaky rectifier of the 4×4 distances: t where t ≥ 0, 0.2·t elsewhere. -/
def lrelu4 (x : FVec F S4x8192 .f32) : FVec F S4x4 .f32 :=
  select (cmpf .oge (dist4 x) (broadcastInDim S4x4 ![] bcast_S_S4x4 (constant (F := F) S_ .f32 0x00000000#32)))
    (dist4 x)
    (mulf (broadcastInDim S4x4 ![] bcast_S_S4x4 (constant (F := F) S_ .f32 0x3E4CCCCD#32)) (dist4 x))

/-- Rows 1..3 of x. -/
def rows3 (x : FVec F S4x8192 .f32) : FVec F S3x8192 .f32 :=
  extractStridedSlice S3x8192 ![1, 0] x slices_S4x8192_S3x8192_1_0

/-- x_ik − x_jk over i, j among rows 1..3. -/
def diff3 (x : FVec F S4x8192 .f32) : FVec F S3x3x8192 .f32 :=
  subf
    (broadcastInDim S3x3x8192 ![0, 1, 2] bcast_S3x1x8192_S3x3x8192_0_1_2 (broadcastInDim S3x1x8192 ![0, 2] bcast_S3x8192_S3x1x8192_0_2 (rows3 x)))
    (broadcastInDim S3x3x8192 ![0, 1, 2] bcast_S1x3x8192_S3x3x8192_0_1_2 (broadcastInDim S1x3x8192 ![1, 2] bcast_S3x8192_S1x3x8192_1_2 (rows3 x)))

def sq3 (x : FVec F S4x8192 .f32) : FVec F S3x3 .f32 :=
  Host.reduceAdd (mulf (diff3 x) (diff3 x)) (constant (F := F) S_ .f32 0x00000000#32) reducesTo_S3x3x8192_S3x3_d2 h_S_

def dist3 (x : FVec F S4x8192 .f32) : FVec F S3x3 .f32 :=
  select (cmpf .ogt (sq3 x) (broadcastInDim S3x3 ![] bcast_S_S3x3 (constant (F := F) S_ .f32 0x00000000#32)))
    (Host.sqrt (select (cmpf .ogt (sq3 x) (broadcastInDim S3x3 ![] bcast_S_S3x3 (constant (F := F) S_ .f32 0x00000000#32)))
      (sq3 x) (broadcastInDim S3x3 ![] bcast_S_S3x3 (constant (F := F) S_ .f32 0x3F800000#32))))
    (broadcastInDim S3x3 ![] bcast_S_S3x3 (constant (F := F) S_ .f32 0x00000000#32))

/-- The leaky rectifier of the 3×3 distances. -/
def lrelu3 (x : FVec F S4x8192 .f32) : FVec F S3x3 .f32 :=
  select (cmpf .oge (dist3 x) (broadcastInDim S3x3 ![] bcast_S_S3x3 (constant (F := F) S_ .f32 0x00000000#32)))
    (dist3 x)
    (mulf (broadcastInDim S3x3 ![] bcast_S_S3x3 (constant (F := F) S_ .f32 0x3E4CCCCD#32)) (dist3 x))

/-! ## Stage B: the three scalars, the six writes, the mask -/

/-- Entry (a, b) of a 4×4 matrix as a scalar. -/
def at12 (e : FVec F S4x4 .f32) : FVec F S_ .f32 := shapeCast S_ (extractStridedSlice S1x1 ![1, 2] e slices_S4x4_S1x1_1_2) shapeCasts_S1x1_S_
def at01 (e : FVec F S4x4 .f32) : FVec F S_ .f32 := shapeCast S_ (extractStridedSlice S1x1 ![0, 1] e slices_S4x4_S1x1_0_1) shapeCasts_S1x1_S_
def at02 (e : FVec F S4x4 .f32) : FVec F S_ .f32 := shapeCast S_ (extractStridedSlice S1x1 ![0, 2] e slices_S4x4_S1x1_0_2) shapeCasts_S1x1_S_
def at13 (e : FVec F S4x4 .f32) : FVec F S_ .f32 := shapeCast S_ (extractStridedSlice S1x1 ![1, 3] e slices_S4x4_S1x1_1_3) shapeCasts_S1x1_S_
def at03 (e : FVec F S4x4 .f32) : FVec F S_ .f32 := shapeCast S_ (extractStridedSlice S1x1 ![0, 3] e slices_S4x4_S1x1_0_3) shapeCasts_S1x1_S_
def at23 (e : FVec F S4x4 .f32) : FVec F S_ .f32 := shapeCast S_ (extractStridedSlice S1x1 ![2, 3] e slices_S4x4_S1x1_2_3) shapeCasts_S1x1_S_

/-- e(1,2) + (e(0,1) + e(0,2))·½. -/
def sc49 (e : FVec F S4x4 .f32) : FVec F S_ .f32 :=
  addf (at12 e) (mulf (addf (at01 e) (at02 e)) (constant (F := F) S_ .f32 0x3F000000#32))
/-- e(1,3) + (e(0,1) + e(0,3))·½. -/
def sc58 (e : FVec F S4x4 .f32) : FVec F S_ .f32 :=
  addf (at13 e) (mulf (addf (at01 e) (at03 e)) (constant (F := F) S_ .f32 0x3F000000#32))
/-- e(2,3) + (e(0,2) + e(0,3))·½. -/
def sc67 (e : FVec F S4x4 .f32) : FVec F S_ .f32 :=
  addf (at23 e) (mulf (addf (at02 e) (at03 e)) (constant (F := F) S_ .f32 0x3F000000#32))

/-- The index vector (a, b). -/
def ix (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

/-- Overwrite entry i of a 3×3 matrix by the scalar u. -/
def put (m : FVec F S3x3 .f32) (i : IVec S2 32) (u : FVec F S_ .f32) : FVec F S3x3 .f32 :=
  Host.scatter scatter_S3x3_S2_S__n_01_01_0 (fun _ b => b) m i u

/-- The 3×3 matrix with the three scalars written at (0,1),(1,0); (0,2),(2,0); (1,2),(2,1), in that order. -/
def scattered (e4 : FVec F S4x4 .f32) (e3 : FVec F S3x3 .f32) : FVec F S3x3 .f32 :=
  put (put (put (put (put (put e3 (ix 0#32 1#32) (sc49 e4)) (ix 1#32 0#32) (sc49 e4)) (ix 0#32 2#32) (sc58 e4)) (ix 2#32 0#32) (sc58 e4))
    (ix 1#32 2#32) (sc67 e4)) (ix 2#32 1#32) (sc67 e4)

/-- adj > 0, entry by entry (signed). -/
def adjMask (adj : IVec S3x3 32) : IVec S3x3 1 :=
  cmpi .sgt adj (broadcastInDim S3x3 ![] bcast_S_S3x3 (constantI S_ 32 0#32))

/-- The large negative constant the masked-out entries take. -/
def negBig : FVec F S_ .f32 := constant (F := F) S_ .f32 0xD9FFCB9E#32

/-! ## Stage C: mask, softmax down the columns, the product, row 0 on top -/

/-- The matrix where the mask is set, the constant elsewhere. -/
def masked (m : IVec S3x3 1) (e : FVec F S3x3 .f32) (c : FVec F S_ .f32) : FVec F S3x3 .f32 :=
  select m e (broadcastInDim S3x3 ![] bcast_S_S3x3 c)

/-- The column maxima, broadcast back over the rows. -/
def colMax (a : FVec F S3x3 .f32) : FVec F S3x3 .f32 :=
  broadcastInDim S3x3 ![0, 1] bcast_S1x3_S3x3_0_1 (broadcastInDim S1x3 ![1] bcast_S3_S1x3_1
    (maximumf (broadcastInDim S3 ![] bcast_S_S3 (constant (F := F) S_ .f32 0xFF800000#32))
      (Host.reduce FloatOps.maximumf a (constant (F := F) S_ .f32 0xFF800000#32) reducesTo_S3x3_S3_d0 h_S_)))

/-- exp(a − column maximum). -/
def expShift (a : FVec F S3x3 .f32) : FVec F S3x3 .f32 := Host.exp (subf a (colMax a))

/-- The softmax down each column. -/
def softmax0 (a : FVec F S3x3 .f32) : FVec F S3x3 .f32 :=
  Host.divf (expShift a)
    (broadcastInDim S3x3 ![0, 1] bcast_S1x3_S3x3_0_1 (broadcastInDim S1x3 ![1] bcast_S3_S1x3_1
      (Host.reduceAdd (expShift a) (constant (F := F) S_ .f32 0x00000000#32) reducesTo_S3x3_S3_d0 h_S_)))

/-- Row 0 of x on top of softmax(masked) · rows 1..3 of x. -/
def attend (m : IVec S3x3 1) (e : FVec F S3x3 .f32) (c : FVec F S_ .f32) (x : FVec F S4x8192 .f32) : FVec F S4x8192 .f32 :=
  concatenate S4x8192 0
    [⟨S1x8192, extractStridedSlice S1x8192 ![0, 0] x slices_S4x8192_S1x8192_0_0⟩,
     ⟨S3x8192, Host.dotGeneral dot_S3x3_S3x8192_S3x8192_1_0_0_1_n_n none (softmax0 (masked m e c)) (rows3 x)⟩]
    concatenates_S1x8192_S3x8192_S4x8192_d0

/-! ## The four results -/

def out109 (x : FVec F S4x8192 .f32) (adj : IVec S3x3 32) : FVec F S4x8192 .f32 :=
  attend (adjMask adj) (scattered (lrelu4 x) (lrelu3 x)) negBig x
def out49 (x : FVec F S4x8192 .f32) : FVec F S_ .f32 := sc49 (lrelu4 x)
def out58 (x : FVec F S4x8192 .f32) : FVec F S_ .f32 := sc58 (lrelu4 x)
def out67 (x : FVec F S4x8192 .f32) : FVec F S_ .f32 := sc67 (lrelu4 x)

end Cert.Tail

end
-- ==== Proof.Tail.KernelTail.lean ====
/- The host operations after the matmul, on the kernel's side: from ANY buffer contents V, running the fifteen
   stretches in order leaves the four results at the staged functions of Tail/Stages.lean applied to the matmul's
   result (the contents of main_v0) and the adjacency matrix (the contents of main_arg1), and leaves the adjacency
   matrix as it was. The run is cut where few values are live: after the two rectified distance matrices
   (main_v35, main_v40), and after the three scalars, the six writes, the mask and the constant
   (main_v49, main_v58, main_v67, main_v91, main_v93, main_cst_28); each part is read back over an arbitrary V, and
   the parts compose because running two lists in a row is running their concatenation. -/
import proofs.«113935_j84310208020843_1_alg».proof.Proof.Tail.Stages
import proofs.«113935_j84310208020843_1_alg».proof.Proof.IdealFrame.Setup

set_option maxRecDepth 16384

noncomputable section

namespace Cert.KernelIdeal.TailK

open Cert.KernelIdeal Cert.KernelIdeal.Gen Idealize.ShloMosaic Idealize.ShloMosaic.TcCoe Idealize.ShloMosaic.StableHlo
open Cert.Tail

variable {F : FTy → Type} [FloatOps F]

/-! ## Stage A: stretches 0 … 11 -/

/-- The contents after the first twelve stretches. -/
def afterA (V : Valuation τ sig (Elt F)) : Valuation τ sig (Elt F) :=
  after hostOps1_11 (after hostOps1_10 (after hostOps1_9 (after hostOps1_8 (after hostOps1_7 (after hostOps1_6 (after hostOps1_5
    (after hostOps1_4 (after hostOps1_3 (after hostOps1_2 (after hostOps1_1 (after hostOps1 V)))))))))))

/-- The rectified 4×4 distance matrix. -/
theorem afterA_v35 (V : Valuation τ sig (Elt F)) : afterA V (Proc.devRef .tc main_v35) = lrelu4 (V (Proc.devRef .tc main_v0)) := by
  unfold afterA; after_results_simp; rfl
/-- The rectified 3×3 distance matrix. -/
theorem afterA_v40 (V : Valuation τ sig (Elt F)) : afterA V (Proc.devRef .tc main_v40) = lrelu3 (V (Proc.devRef .tc main_v0)) := by
  unfold afterA; after_results_simp; rfl
/-- Stage A writes neither the matmul's result nor the adjacency matrix. -/
theorem afterA_v0 (V : Valuation τ sig (Elt F)) : afterA V (Proc.devRef .tc main_v0) = V (Proc.devRef .tc main_v0) := by
  unfold afterA; after_results_simp
theorem afterA_arg1 (V : Valuation τ sig (Elt F)) : afterA V (Proc.devRef .tc main_arg1) = V (Proc.devRef .tc main_arg1) := by
  unfold afterA; after_results_simp

/-! ## Stage B: stretch 12 -/

/-- The contents after the seventy operations of stretch 12. -/
def afterB (V : Valuation τ sig (Elt F)) : Valuation τ sig (Elt F) := after hostOps1_12 V

theorem afterB_v49 (V : Valuation τ sig (Elt F)) : afterB V (Proc.devRef .tc main_v49) = sc49 (V (Proc.devRef .tc main_v35)) := by
  unfold afterB; after_results_simp; rfl
theorem afterB_v58 (V : Valuation τ sig (Elt F)) : afterB V (Proc.devRef .tc main_v58) = sc58 (V (Proc.devRef .tc main_v35)) := by
  unfold afterB; after_results_simp; rfl
theorem afterB_v67 (V : Valuation τ sig (Elt F)) : afterB V (Proc.devRef .tc main_v67) = sc67 (V (Proc.devRef .tc main_v35)) := by
  unfold afterB; after_results_simp; rfl
/-- The 3×3 matrix after the six writes. -/
theorem afterB_v91 (V : Valuation τ sig (Elt F)) :
    afterB V (Proc.devRef .tc main_v91) = scattered (V (Proc.devRef .tc main_v35)) (V (Proc.devRef .tc main_v40)) := by
  unfold afterB; after_results_simp; rfl
theorem afterB_v93 (V : Valuation τ sig (Elt F)) : afterB V (Proc.devRef .tc main_v93) = adjMask (V (Proc.devRef .tc main_arg1)) := by
  unfold afterB; after_results_simp; rfl
theorem afterB_cst28 (V : Valuation τ sig (Elt F)) : afterB V (Proc.devRef .tc main_cst_28) = negBig (F := F) := by
  unfold afterB; after_results_simp; rfl
theorem afterB_v0 (V : Valuation τ sig (Elt F)) : afterB V (Proc.devRef .tc main_v0) = V (Proc.devRef .tc main_v0) := by
  unfold afterB; after_results_simp
theorem afterB_arg1 (V : Valuation τ sig (Elt F)) : afterB V (Proc.devRef .tc main_arg1) = V (Proc.devRef .tc main_arg1) := by
  unfold afterB; after_results_simp

/-! ## Stage C: stretches 13 and 14 -/

/-- The contents after the last two stretches. -/
def afterC (V : Valuation τ sig (Elt F)) : Valuation τ sig (Elt F) := after hostOps1_14 (after hostOps1_13 V)

theorem afterC_v109 (V : Valuation τ sig (Elt F)) :
    afterC V (Proc.devRef .tc main_v109)
      = attend (V (Proc.devRef .tc main_v93)) (V (Proc.devRef .tc main_v91)) (V (Proc.devRef .tc main_cst_28)) (V (Proc.devRef .tc main_v0)) := by
  unfold afterC; after_results; rfl
theorem afterC_v49 (V : Valuation τ sig (Elt F)) : afterC V (Proc.devRef .tc main_v49) = V (Proc.devRef .tc main_v49) := by
  unfold afterC; after_results_simp
theorem afterC_v58 (V : Valuation τ sig (Elt F)) : afterC V (Proc.devRef .tc main_v58) = V (Proc.devRef .tc main_v58) := by
  unfold afterC; after_results_simp
theorem afterC_v67 (V : Valuation τ sig (Elt F)) : afterC V (Proc.devRef .tc main_v67) = V (Proc.devRef .tc main_v67) := by
  unfold afterC; after_results_simp
theorem afterC_arg1 (V : Valuation τ sig (Elt F)) : afterC V (Proc.devRef .tc main_arg1) = V (Proc.devRef .tc main_arg1) := by
  unfold afterC; after_results_simp

/-! ## The whole tail -/

/-- Running the fifteen stretches in a row is running stage A, then B, then C. -/
theorem tail_eq (V : Valuation τ sig (Elt F)) :
    after (Cert.KernelIdeal.Region.tailOps (F := F)).flatten V = afterC (afterB (afterA V)) := by
  unfold afterA afterB afterC
  simp only [Cert.KernelIdeal.Region.tailOps, List.flatten_cons, List.flatten_nil, List.append_nil, StableHlo.after_append]

theorem tail_v109 (V : Valuation τ sig (Elt F)) :
    after (Cert.KernelIdeal.Region.tailOps (F := F)).flatten V (Proc.devRef .tc main_v109)
      = out109 (V (Proc.devRef .tc main_v0)) (V (Proc.devRef .tc main_arg1)) := by
  rw [tail_eq, afterC_v109, afterB_v93, afterB_v91, afterB_cst28, afterB_v0, afterA_v35, afterA_v40, afterA_arg1, afterA_v0]; rfl

theorem tail_v49 (V : Valuation τ sig (Elt F)) :
    after (Cert.KernelIdeal.Region.tailOps (F := F)).flatten V (Proc.devRef .tc main_v49) = out49 (V (Proc.devRef .tc main_v0)) := by
  rw [tail_eq, afterC_v49, afterB_v49, afterA_v35]; rfl

theorem tail_v58 (V : Valuation τ sig (Elt F)) :
    after (Cert.KernelIdeal.Region.tailOps (F := F)).flatten V (Proc.devRef .tc main_v58) = out58 (V (Proc.devRef .tc main_v0)) := by
  rw [tail_eq, afterC_v58, afterB_v58, afterA_v35]; rfl

theorem tail_v67 (V : Valuation τ sig (Elt F)) :
    after (Cert.KernelIdeal.Region.tailOps (F := F)).flatten V (Proc.devRef .tc main_v67) = out67 (V (Proc.devRef .tc main_v0)) := by
  rw [tail_eq, afterC_v67, afterB_v67, afterA_v35]; rfl

/-- The tail leaves the adjacency matrix as it was. -/
theorem tail_arg1 (V : Valuation τ sig (Elt F)) :
    after (Cert.KernelIdeal.Region.tailOps (F := F)).flatten V (Proc.devRef .tc main_arg1) = V (Proc.devRef .tc main_arg1) := by
  rw [tail_eq, afterC_arg1, afterB_arg1, afterA_arg1]

end Cert.KernelIdeal.TailK

end
-- ==== Proof.IdealValue.Results.lean ====
/- The idealized kernel's run with its results named.  After the region the result array holds h @ W (the
   accumulated blocks, `MatmulValue.final_out`); the 153 host operations that follow compute, from that array
   and the adjacency input, the four results as the staged functions `Cert.Tail.out…` (`TailK.tail_…`): the
   same functions the reference applies to its own dot_general of h and W. -/
import proofs.«113935_j84310208020843_1_alg».proof.Proof.IdealFrame.Frame
import proofs.«113935_j84310208020843_1_alg».proof.Proof.IdealValue.Final
import proofs.«113935_j84310208020843_1_alg».proof.Proof.Tail.KernelTail

noncomputable section

namespace Cert.KernelIdeal.Results

open Cert.KernelIdeal Cert.KernelIdeal.Gen Cert.KernelIdeal.Region
open Idealize.ShloMosaic Idealize.ShloMosaic.TcCoe Idealize.SL.Sem

variable (m : (ℓ : Loc nD τ sig) → Buf (Elt Ideal) ℓ) (ρ : Dev nD → PrngReg)

/-- The matmul of the two float inputs, as the reference states it. -/
abbrev hW (c : Dev nD) : FVec Ideal Cert.ReferenceIdeal.S4x8192 .f32 :=
  Host.dotGeneral (F := Ideal) (φ₁ := .f32) (φ₂ := .f32) Cert.ReferenceIdeal.dot_S4x8192_S8192x8192_S4x8192_1_0_0_1_n_n none
    (m ((c.tc : Thread nD τ).loc main_arg0)) (m ((c.tc : Thread nD τ).loc main_arg2))

/-- What the host operations after the region start from: the region's arrays at their final contents, every
    other buffer at its launch contents. -/
abbrev W0 (c : Dev nD) : Valuation τ sig (Elt Ideal) :=
  Pipeline.withArrays (cfgs 0).spec c (V0 m c) fun w => (dats (F := Ideal) m 0 c).arrAt w (cfgs 0).N

/-- There the matmul result is h @ W. -/
theorem W0_v0 (c : Dev nD) : W0 m c (Proc.devRef .tc main_v0) = hW m c :=
  (Pipeline.withArrays_arr spec0 launch0.win.arr_inj c _ _ 2).trans (Cert.KernelIdeal.MatmulValue.final_out m c)

/-- And the adjacency input is as launched. -/
theorem W0_adj (c : Dev nD) : W0 m c (Proc.devRef .tc main_arg1) = m ((c.tc : Thread nD τ).loc main_arg1) :=
  Pipeline.withArrays_of_ne _ c (V0 m c) _ main_arg1 (fun w => by fin_cases w <;> decide)

theorem run : θ_run defs (onTc (τ := τ) (main (F := Ideal))) ⟨m, fun _ => 0, ρ⟩ (fun r => ∀ c : Dev nD,
      r.2.mem ((c.tc : Thread nD τ).loc main_v109) = Cert.Tail.out109 (hW m c) (m ((c.tc : Thread nD τ).loc main_arg1))
      ∧ r.2.mem ((c.tc : Thread nD τ).loc main_v49) = Cert.Tail.out49 (hW m c)
      ∧ r.2.mem ((c.tc : Thread nD τ).loc main_v58) = Cert.Tail.out58 (hW m c)
      ∧ r.2.mem ((c.tc : Thread nD τ).loc main_v67) = Cert.Tail.out67 (hW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v109 (Pipeline.mem_restRefs_of main_v109 rfl (fun w => by fin_cases w <;> decide))).trans
        ((Cert.KernelIdeal.TailK.tail_v109 (F := Ideal) (W0 m c)).trans (by rw [W0_v0, W0_adj])),
      ((h c).2 main_v49 (Pipeline.mem_restRefs_of main_v49 rfl (fun w => by fin_cases w <;> decide))).trans
        ((Cert.KernelIdeal.TailK.tail_v49 (F := Ideal) (W0 m c)).trans (by rw [W0_v0])),
      ((h c).2 main_v58 (Pipeline.mem_restRefs_of main_v58 rfl (fun w => by fin_cases w <;> decide))).trans
        ((Cert.KernelIdeal.TailK.tail_v58 (F := Ideal) (W0 m c)).trans (by rw [W0_v0])),
      ((h c).2 main_v67 (Pipeline.mem_restRefs_of main_v67 rfl (fun w => by fin_cases w <;> decide))).trans
        ((Cert.KernelIdeal.TailK.tail_v67 (F := Ideal) (W0 m c)).trans (by rw [W0_v0])),
      ((h c).1 0).trans (((dats m 0 c).arrAt_in 0 rfl _).trans ((A_eq m c 0).trans (V_main_arg0 m c))),
      ((h c).2 main_arg1 (Pipeline.mem_restRefs_of main_arg1 rfl (fun w => by fin_cases w <;> decide))).trans (adj_kept m c),
      ((h c).1 1).trans (((dats m 0 c).arrAt_in 1 rfl _).trans ((A_eq m c 1).trans (V_main_arg2 m c)))⟩) (run_main (F := Ideal) m ρ)

end Cert.KernelIdeal.Results

end
-- ==== Proof.Tail.RefOps.lean ====
/-
  The reference program's @main as four consecutive lists of host operations, in program order:
  the first matrix product alone; the pairwise squared distances, their guarded square roots and the
  leaky rectifier on the 4x4 and the 3x3 matrix; the three scalars, the six scattered entries and the
  adjacency mask; the masked softmax over axis 0, the 3x3 by 3x8192 product and the final concatenation.
  A called function's operations stand in its call's place.
-/
import proofs.«113935_j84310208020843_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The matrix product `h @ W`. -/
def op0 : List (HloOp τ sig (Elt F)) :=
  [ binary main_arg0 main_arg2 main_v0 ((fun l r => Host.dotGeneral dot_S4x8192_S8192x8192_S4x8192_1_0_0_1_n_n none l r) : (⟨S4x8192, .f32⟩ : BufTy).Contents (Elt F) → (⟨S8192x8192, .f32⟩ : BufTy).Contents (Elt F) → (⟨S4x8192, .f32⟩ : BufTy).Contents (Elt F)) ]

/-- From the product to the two leaky-rectified distance matrices (4x4 in `main_v35`, 3x3 in `main_v40`). -/
def opsA : List (HloOp τ sig (Elt F)) :=
  [ unary main_v0 main_v1 (broadcastInDim S4x1x8192 ![0, 2] bcast_S4x8192_S4x1x8192_0_2 : (⟨S4x8192, .f32⟩ : BufTy).Contents (Elt F) → (⟨S4x1x8192, .f32⟩ : BufTy).Contents (Elt F)),
    unary main_v0 main_v2 (broadcastInDim S1x4x8192 ![1, 2] bcast_S4x8192_S1x4x8192_1_2 : (⟨S4x8192, .f32⟩ : BufTy).Contents (Elt F) → (⟨S1x4x8192, .f32⟩ : BufTy).Contents (Elt F)),
    unary main_v1 main_v3 (broadcastInDim S4x4x8192 ![0, 1, 2] bcast_S4x1x8192_S4x4x8192_0_1_2 : (⟨S4x1x8192, .f32⟩ : BufTy).Contents (Elt F) → (⟨S4x4x8192, .f32⟩ : BufTy).Contents (Elt F)),
    unary main_v2 main_v4 (broadcastInDim S4x4x8192 ![0, 1, 2] bcast_S1x4x8192_S4x4x8192_0_1_2 : (⟨S1x4x8192, .f32⟩ : BufTy).Contents (Elt F) → (⟨S4x4x8192, .f32⟩ : BufTy).Contents (Elt F)),
    binary main_v3 main_v4 main_v5 (subf : (⟨S4x4x8192, .f32⟩ : BufTy).Contents (Elt F) → (⟨S4x4x8192, .f32⟩ : BufTy).Contents (Elt F) → (⟨S4x4x8192, .f32⟩ : BufTy).Contents (Elt F)),
    binary main_v5 main_v5 main_v6 (mulf : (⟨S4x4x8192, .f32⟩ : BufTy).Contents (Elt F) → (⟨S4x4x8192, .f32⟩ : BufTy).Contents (Elt F) → (⟨S4x4x8192, .f32⟩ : BufTy).Contents (Elt F)),
    nullary main_cst (constant S_ .f32 0x00000000#32),
    binary main_v6 main_cst main_v7 ((fun x v => Host.reduceAdd x v reducesTo_S4x4x8192_S4x4_d2 h_S_) : (⟨S4x4x8192, .f32⟩ : BufTy).Contents (Elt F) → (⟨S_, .f32⟩ : BufTy).Contents (Elt F) → (⟨S4x4, .f32⟩ : BufTy).Contents (Elt F)),
    nullary main_cst_0 (constant S_ .f32 0x00000000#32),
    unary main_cst_0 main_v8 (broadcastInDim S4x4 ![] bcast_S_S4x4 : (⟨S_, .f32⟩ : BufTy).Contents (Elt F) → (⟨S4x4, .f32⟩ : BufTy).Contents (Elt F)),
    binary main_v7 main_v8 main_v9 (cmpf .ogt : (⟨S4x4, .f32⟩ : BufTy).Contents (Elt F) → (⟨S4x4, .f32⟩ : BufTy).Contents (Elt F) → (⟨S4x4, .i1⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S4x4, .f32⟩) main_call0_v1) (broadcastInDim S4x4 ![] bcast_S_S4x4),
    TRef.ternary (TRef.of (T := ⟨S4x4, .i1⟩) main_v9) (TRef.of (T := ⟨S4x4, .f32⟩) main_v7) (TRef.of (T := ⟨S4x4, .f32⟩) main_call0_v1) (TRef.of (T := ⟨S4x4, .f32⟩) main_v10) select,
    nullary main_cst_2 (constant S_ .f32 0x00000000#32),
    unary main_cst_2 main_v11 (broadcastInDim S4x4 ![] bcast_S_S4x4 : (⟨S_, .f32⟩ : BufTy).Contents (Elt F) → (⟨S4x4, .f32⟩ : BufTy).Contents (Elt F)),
    binary main_v7 main_v11 main_v12 (cmpf .ogt : (⟨S4x4, .f32⟩ : BufTy).Contents (Elt F) → (⟨S4x4, .f32⟩ : BufTy).Contents (Elt F) → (⟨S4x4, .i1⟩ : BufTy).Contents (Elt F)),
    unary main_v10 main_v13 (Host.sqrt : (⟨S4x4, .f32⟩ : BufTy).Contents (Elt F) → (⟨S4x4, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S4x4, .f32⟩) main_call1_v1) (broadcastInDim S4x4 ![] bcast_S_S4x4),
    TRef.ternary (TRef.of (T := ⟨S4x4, .i1⟩) main_v12) (TRef.of (T := ⟨S4x4, .f32⟩) main_v13) (TRef.of (T := ⟨S4x4, .f32⟩) main_call1_v1) (TRef.of (T := ⟨S4x4, .f32⟩) main_v14) select,
    unary main_v0 main_v15 ((extractStridedSlice S3x8192 ![1, 0] · slices_S4x8192_S3x8192_1_0) : (⟨S4x8192, .f32⟩ : BufTy).Contents (Elt F) → (⟨S3x8192, .f32⟩ : BufTy).Contents (Elt F)),
    unary main_v0 main_v16 ((extractStridedSlice S3x8192 ![1, 0] · slices_S4x8192_S3x8192_1_0) : (⟨S4x8192, .f32⟩ : BufTy).Contents (Elt F) → (⟨S3x8192, .f32⟩ : BufTy).Contents (Elt F)),
    unary main_v15 main_v17 (broadcastInDim S3x1x8192 ![0, 2] bcast_S3x8192_S3x1x8192_0_2 : (⟨S3x8192, .f32⟩ : BufTy).Contents (Elt F) → (⟨S3x1x8192, .f32⟩ : BufTy).Contents (Elt F)),
    unary main_v16 main_v18 (broadcastInDim S1x3x8192 ![1, 2] bcast_S3x8192_S1x3x8192_1_2 : (⟨S3x8192, .f32⟩ : BufTy).Contents (Elt F) → (⟨S1x3x8192, .f32⟩ : BufTy).Contents (Elt F)),
    unary main_v17 main_v19 (broadcastInDim S3x3x8192 ![0, 1, 2] bcast_S3x1x8192_S3x3x8192_0_1_2 : (⟨S3x1x8192, .f32⟩ : BufTy).Contents (Elt F) → (⟨S3x3x8192, .f32⟩ : BufTy).Contents (Elt F)),
    unary main_v18 main_v20 (broadcastInDim S3x3x8192 ![0, 1, 2] bcast_S1x3x8192_S3x3x8192_0_1_2 : (⟨S1x3x8192, .f32⟩ : BufTy).Contents (Elt F) → (⟨S3x3x8192, .f32⟩ : BufTy).Contents (Elt F)),
    binary main_v19 main_v20 main_v21 (subf : (⟨S3x3x8192, .f32⟩ : BufTy).Contents (Elt F) → (⟨S3x3x8192, .f32⟩ : BufTy).Contents (Elt F) → (⟨S3x3x8192, .f32⟩ : BufTy).Contents (Elt F)),
    binary main_v21 main_v21 main_v22 (mulf : (⟨S3x3x8192, .f32⟩ : BufTy).Contents (Elt F) → (⟨S3x3x8192, .f32⟩ : BufTy).Contents (Elt F) → (⟨S3x3x8192, .f32⟩ : BufTy).Contents (Elt F)),
    nullary main_cst_4 (constant S_ .f32 0x00000000#32),
    binary main_v22 main_cst_4 main_v23 ((fun x v => Host.reduceAdd x v reducesTo_S3x3x8192_S3x3_d2 h_S_) : (⟨S3x3x8192, .f32⟩ : BufTy).Contents (Elt F) → (⟨S_, .f32⟩ : BufTy).Contents (Elt F) → (⟨S3x3, .f32⟩ : BufTy).Contents (Elt F)),
    nullary main_cst_5 (constant S_ .f32 0x00000000#32),
    unary main_cst_5 main_v24 (broadcastInDim S3x3 ![] bcast_S_S3x3 : (⟨S_, .f32⟩ : BufTy).Contents (Elt F) → (⟨S3x3, .f32⟩ : BufTy).Contents (Elt F)),
    binary main_v23 main_v24 main_v25 (cmpf .ogt : (⟨S3x3, .f32⟩ : BufTy).Contents (Elt F) → (⟨S3x3, .f32⟩ : BufTy).Contents (Elt F) → (⟨S3x3, .i1⟩ : BufTy).Contents (Elt F)),
    nullary main_cst_6 (constant S_ .f32 0x3F800000#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S3x3, .f32⟩) main_call2_v1) (broadcastInDim S3x3 ![] bcast_S_S3x3),
    TRef.ternary (TRef.of (T := ⟨S3x3, .i1⟩) main_v25) (TRef.of (T := ⟨S3x3, .f32⟩) main_v23) (TRef.of (T := ⟨S3x3, .f32⟩) main_call2_v1) (TRef.of (T := ⟨S3x3, .f32⟩) main_v26) select,
    nullary main_cst_7 (constant S_ .f32 0x00000000#32),
    unary main_cst_7 main_v27 (broadcastInDim S3x3 ![] bcast_S_S3x3 : (⟨S_, .f32⟩ : BufTy).Contents (Elt F) → (⟨S3x3, .f32⟩ : BufTy).Contents (Elt F)),
    binary main_v23 main_v27 main_v28 (cmpf .ogt : (⟨S3x3, .f32⟩ : BufTy).Contents (Elt F) → (⟨S3x3, .f32⟩ : BufTy).Contents (Elt F) → (⟨S3x3, .i1⟩ : BufTy).Contents (Elt F)),
    unary main_v26 main_v29 (Host.sqrt : (⟨S3x3, .f32⟩ : BufTy).Contents (Elt F) → (⟨S3x3, .f32⟩ : BufTy).Contents (Elt F)),
    nullary main_cst_8 (constant S_ .f32 0x00000000#32),
    TRef.unary (TRef.of (T := ⟨S_, .f32⟩) main_cst_8) (TRef.of (T := ⟨S_, .f32⟩) main_call3_v0) id,
    TRef.unary (TRef.of (T := ⟨S_, .f32⟩) main_call3_v0) (TRef.of (T := ⟨S3x3, .f32⟩) main_call3_v1) (broadcastInDim S3x3 ![] bcast_S_S3x3),
    TRef.ternary (TRef.of (T := ⟨S3x3, .i1⟩) main_v28) (TRef.of (T := ⟨S3x3, .f32⟩) main_v29) (TRef.of (T := ⟨S3x3, .f32⟩) main_call3_v1) (TRef.of (T := ⟨S3x3, .f32⟩) main_v30) select,
    nullary main_cst_9 (constant S_ .f32 0x00000000#32),
    unary main_cst_9 main_v31 (broadcastInDim S4x4 ![] bcast_S_S4x4 : (⟨S_, .f32⟩ : BufTy).Contents (Elt F) → (⟨S4x4, .f32⟩ : BufTy).Contents (Elt F)),
    binary main_v14 main_v31 main_v32 (cmpf .oge : (⟨S4x4, .f32⟩ : BufTy).Contents (Elt F) → (⟨S4x4, .f32⟩ : BufTy).Contents (Elt F) → (⟨S4x4, .i1⟩ : BufTy).Contents (Elt F)),
    nullary main_cst_10 (constant S_ .f32 0x3E4CCCCD#32),
    unary main_cst_10 main_v33 (broadcastInDim S4x4 ![] bcast_S_S4x4 : (⟨S_, .f32⟩ : BufTy).Contents (Elt F) → (⟨S4x4, .f32⟩ : BufTy).Contents (Elt F)),
    binary main_v33 main_v14 main_v34 (mulf : (⟨S4x4, .f32⟩ : BufTy).Contents (Elt F) → (⟨S4x4, .f32⟩ : BufTy).Contents (Elt F) → (⟨S4x4, .f32⟩ : BufTy).Contents (Elt F)),
    TRef.ternary (TRef.of (T := ⟨S4x4, .i1⟩) main_v32) (TRef.of (T := ⟨S4x4, .f32⟩) main_v14) (TRef.of (T := ⟨S4x4, .f32⟩) main_v34) (TRef.of (T := ⟨S4x4, .f32⟩) main_v35) select,
    nullary main_cst_11 (constant S_ .f32 0x00000000#32),
    unary main_cst_11 main_v36 (broadcastInDim S3x3 ![] bcast_S_S3x3 : (⟨S_, .f32⟩ : BufTy).Contents (Elt F) → (⟨S3x3, .f32⟩ : BufTy).Contents (Elt F)),
    binary main_v30 main_v36 main_v37 (cmpf .oge : (⟨S3x3, .f32⟩ : BufTy).Contents (Elt F) → (⟨S3x3, .f32⟩ : BufTy).Contents (Elt F) → (⟨S3x3, .i1⟩ : BufTy).Contents (Elt F)),
    nullary main_cst_12 (constant S_ .f32 0x3E4CCCCD#32),
    unary main_cst_12 main_v38 (broadcastInDim S3x3 ![] bcast_S_S3x3 : (⟨S_, .f32⟩ : BufTy).Contents (Elt F) → (⟨S3x3, .f32⟩ : BufTy).Contents (Elt F)),
    binary main_v38 main_v30 main_v39 (mulf : (⟨S3x3, .f32⟩ : BufTy).Contents (Elt F) → (⟨S3x3, .f32⟩ : BufTy).Contents (Elt F) → (⟨S3x3, .f32⟩ : BufTy).Contents (Elt F)),
    TRef.ternary (TRef.of (T := ⟨S3x3, .i1⟩) main_v37) (TRef.of (T := ⟨S3x3, .f32⟩) main_v30) (TRef.of (T := ⟨S3x3, .f32⟩) main_v39) (TRef.of (T := ⟨S3x3, .f32⟩) main_v40) select ]

/-- The three scalars `main_v49`, `main_v58`, `main_v67`, the six scatters into the 3x3 matrix (`main_v91`), the mask `adj > 0` (`main_v93`) and the fill constant. -/
def opsB : List (HloOp τ sig (Elt F)) :=
  [ unary main_v35 main_v41 ((extractStridedSlice S1x1 ![1, 2] · slices_S4x4_S1x1_1_2) : (⟨S4x4, .f32⟩ : BufTy).Contents (Elt F) → (⟨S1x1, .f32⟩ : BufTy).Contents (Elt F)),
    reshape main_v41 main_v42 rfl shapeCasts_S1x1_S_,
    unary main_v35 main_v43 ((extractStridedSlice S1x1 ![0, 1] · slices_S4x4_S1x1_0_1) : (⟨S4x4, .f32⟩ : BufTy).Contents (Elt F) → (⟨S1x1, .f32⟩ : BufTy).Contents (Elt F)),
    reshape main_v43 main_v44 rfl shapeCasts_S1x1_S_,
    unary main_v35 main_v45 ((extractStridedSlice S1x1 ![0, 2] · slices_S4x4_S1x1_0_2) : (⟨S4x4, .f32⟩ : BufTy).Contents (Elt F) → (⟨S1x1, .f32⟩ : BufTy).Contents (Elt F)),
    reshape main_v45 main_v46 rfl shapeCasts_S1x1_S_,
    binary main_v44 main_v46 main_v47 (addf : (⟨S_, .f32⟩ : BufTy).Contents (Elt F) → (⟨S_, .f32⟩ : BufTy).Contents (Elt F) → (⟨S_, .f32⟩ : BufTy).Contents (Elt F)),
    nullary main_cst_13 (constant S_ .f32 0x3F000000#32),
    binary main_v47 main_cst_13 main_v48 (mulf : (⟨S_, .f32⟩ : BufTy).Contents (Elt F) → (⟨S_, .f32⟩ : BufTy).Contents (Elt F) → (⟨S_, .f32⟩ : BufTy).Contents (Elt F)),
    binary main_v42 main_v48 main_v49 (addf : (⟨S_, .f32⟩ : BufTy).Contents (Elt F) → (⟨S_, .f32⟩ : BufTy).Contents (Elt F) → (⟨S_, .f32⟩ : BufTy).Contents (Elt F)),
    unary main_v35 main_v50 ((extractStridedSlice S1x1 ![1, 3] · slices_S4x4_S1x1_1_3) : (⟨S4x4, .f32⟩ : BufTy).Contents (Elt F) → (⟨S1x1, .f32⟩ : BufTy).Contents (Elt F)),
    reshape main_v50 main_v51 rfl shapeCasts_S1x1_S_,
    unary main_v35 main_v52 ((extractStridedSlice S1x1 ![0, 1] · slices_S4x4_S1x1_0_1) : (⟨S4x4, .f32⟩ : BufTy).Contents (Elt F) → (⟨S1x1, .f32⟩ : BufTy).Contents (Elt F)),
    reshape main_v52 main_v53 rfl shapeCasts_S1x1_S_,
    unary main_v35 main_v54 ((extractStridedSlice S1x1 ![0, 3] · slices_S4x4_S1x1_0_3) : (⟨S4x4, .f32⟩ : BufTy).Contents (Elt F) → (⟨S1x1, .f32⟩ : BufTy).Contents (Elt F)),
    reshape main_v54 main_v55 rfl shapeCasts_S1x1_S_,
    binary main_v53 main_v55 main_v56 (addf : (⟨S_, .f32⟩ : BufTy).Contents (Elt F) → (⟨S_, .f32⟩ : BufTy).Contents (Elt F) → (⟨S_, .f32⟩ : BufTy).Contents (Elt F)),
    nullary main_cst_14 (constant S_ .f32 0x3F000000#32),
    binary main_v56 main_cst_14 main_v57 (mulf : (⟨S_, .f32⟩ : BufTy).Contents (Elt F) → (⟨S_, .f32⟩ : BufTy).Contents (Elt F) → (⟨S_, .f32⟩ : BufTy).Contents (Elt F)),
    binary main_v51 main_v57 main_v58 (addf : (⟨S_, .f32⟩ : BufTy).Contents (Elt F) → (⟨S_, .f32⟩ : BufTy).Contents (Elt F) → (⟨S_, .f32⟩ : BufTy).Contents (Elt F)),
    unary main_v35 main_v59 ((extractStridedSlice S1x1 ![2, 3] · slices_S4x4_S1x1_2_3) : (⟨S4x4, .f32⟩ : BufTy).Contents (Elt F) → (⟨S1x1, .f32⟩ : BufTy).Contents (Elt F)),
    reshape main_v59 main_v60 rfl shapeCasts_S1x1_S_,
    unary main_v35 main_v61 ((extractStridedSlice S1x1 ![0, 2] · slices_S4x4_S1x1_0_2) : (⟨S4x4, .f32⟩ : BufTy).Contents (Elt F) → (⟨S1x1, .f32⟩ : BufTy).Contents (Elt F)),
    reshape main_v61 main_v62 rfl shapeCasts_S1x1_S_,
    unary main_v35 main_v63 ((extractStridedSlice S1x1 ![0, 3] · slices_S4x4_S1x1_0_3) : (⟨S4x4, .f32⟩ : BufTy).Contents (Elt F) → (⟨S1x1, .f32⟩ : BufTy).Contents (Elt F)),
    reshape main_v63 main_v64 rfl shapeCasts_S1x1_S_,
    binary main_v62 main_v64 main_v65 (addf : (⟨S_, .f32⟩ : BufTy).Contents (Elt F) → (⟨S_, .f32⟩ : BufTy).Contents (Elt F) → (⟨S_, .f32⟩ : BufTy).Contents (Elt F)),
    nullary main_cst_15 (constant S_ .f32 0x3F000000#32),
    binary main_v65 main_cst_15 main_v66 (mulf : (⟨S_, .f32⟩ : BufTy).Contents (Elt F) → (⟨S_, .f32⟩ : BufTy).Contents (Elt F) → (⟨S_, .f32⟩ : BufTy).Contents (Elt F)),
    binary main_v60 main_v66 main_v67 (addf : (⟨S_, .f32⟩ : BufTy).Contents (Elt F) → (⟨S_, .f32⟩ : BufTy).Contents (Elt F) → (⟨S_, .f32⟩ : BufTy).Contents (Elt F)),
    nullary main_c (constantI S_ 32 0#32),
    unary main_c main_v68 (broadcastInDim S1 ![] bcast_S_S1 : (⟨S_, .i32⟩ : BufTy).Contents (Elt F) → (⟨S1, .i32⟩ : BufTy).Contents (Elt F)),
    nullary main_c_16 (constantI S_ 32 1#32),
    unary main_c_16 main_v69 (broadcastInDim S1 ![] bcast_S_S1 : (⟨S_, .i32⟩ : BufTy).Contents (Elt F) → (⟨S1, .i32⟩ : BufTy).Contents (Elt F)),
    binary main_v68 main_v69 main_v70 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v40 main_v70 main_v49 main_v71 ((fun x i u => Host.scatter scatter_S3x3_S2_S__n_01_01_0 (fun _ b => b) x i u) : (⟨S3x3, .f32⟩ : BufTy).Contents (Elt F) → (⟨S2, .i32⟩ : BufTy).Contents (Elt F) → (⟨S_, .f32⟩ : BufTy).Contents (Elt F) → (⟨S3x3, .f32⟩ : BufTy).Contents (Elt F)),
    nullary main_c_17 (constantI S_ 32 1#32),
    unary main_c_17 main_v72 (broadcastInDim S1 ![] bcast_S_S1 : (⟨S_, .i32⟩ : BufTy).Contents (Elt F) → (⟨S1, .i32⟩ : BufTy).Contents (Elt F)),
    nullary main_c_18 (constantI S_ 32 0#32),
    unary main_c_18 main_v73 (broadcastInDim S1 ![] bcast_S_S1 : (⟨S_, .i32⟩ : BufTy).Contents (Elt F) → (⟨S1, .i32⟩ : BufTy).Contents (Elt F)),
    binary main_v72 main_v73 main_v74 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v71 main_v74 main_v49 main_v75 ((fun x i u => Host.scatter scatter_S3x3_S2_S__n_01_01_0 (fun _ b => b) x i u) : (⟨S3x3, .f32⟩ : BufTy).Contents (Elt F) → (⟨S2, .i32⟩ : BufTy).Contents (Elt F) → (⟨S_, .f32⟩ : BufTy).Contents (Elt F) → (⟨S3x3, .f32⟩ : BufTy).Contents (Elt F)),
    nullary main_c_19 (constantI S_ 32 0#32),
    unary main_c_19 main_v76 (broadcastInDim S1 ![] bcast_S_S1 : (⟨S_, .i32⟩ : BufTy).Contents (Elt F) → (⟨S1, .i32⟩ : BufTy).Contents (Elt F)),
    nullary main_c_20 (constantI S_ 32 2#32),
    unary main_c_20 main_v77 (broadcastInDim S1 ![] bcast_S_S1 : (⟨S_, .i32⟩ : BufTy).Contents (Elt F) → (⟨S1, .i32⟩ : BufTy).Contents (Elt F)),
    binary main_v76 main_v77 main_v78 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v75 main_v78 main_v58 main_v79 ((fun x i u => Host.scatter scatter_S3x3_S2_S__n_01_01_0 (fun _ b => b) x i u) : (⟨S3x3, .f32⟩ : BufTy).Contents (Elt F) → (⟨S2, .i32⟩ : BufTy).Contents (Elt F) → (⟨S_, .f32⟩ : BufTy).Contents (Elt F) → (⟨S3x3, .f32⟩ : BufTy).Contents (Elt F)),
    nullary main_c_21 (constantI S_ 32 2#32),
    unary main_c_21 main_v80 (broadcastInDim S1 ![] bcast_S_S1 : (⟨S_, .i32⟩ : BufTy).Contents (Elt F) → (⟨S1, .i32⟩ : BufTy).Contents (Elt F)),
    nullary main_c_22 (constantI S_ 32 0#32),
    unary main_c_22 main_v81 (broadcastInDim S1 ![] bcast_S_S1 : (⟨S_, .i32⟩ : BufTy).Contents (Elt F) → (⟨S1, .i32⟩ : BufTy).Contents (Elt F)),
    binary main_v80 main_v81 main_v82 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v79 main_v82 main_v58 main_v83 ((fun x i u => Host.scatter scatter_S3x3_S2_S__n_01_01_0 (fun _ b => b) x i u) : (⟨S3x3, .f32⟩ : BufTy).Contents (Elt F) → (⟨S2, .i32⟩ : BufTy).Contents (Elt F) → (⟨S_, .f32⟩ : BufTy).Contents (Elt F) → (⟨S3x3, .f32⟩ : BufTy).Contents (Elt F)),
    nullary main_c_23 (constantI S_ 32 1#32),
    unary main_c_23 main_v84 (broadcastInDim S1 ![] bcast_S_S1 : (⟨S_, .i32⟩ : BufTy).Contents (Elt F) → (⟨S1, .i32⟩ : BufTy).Contents (Elt F)),
    nullary main_c_24 (constantI S_ 32 2#32),
    unary main_c_24 main_v85 (broadcastInDim S1 ![] bcast_S_S1 : (⟨S_, .i32⟩ : BufTy).Contents (Elt F) → (⟨S1, .i32⟩ : BufTy).Contents (Elt F)),
    binary main_v84 main_v85 main_v86 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v83 main_v86 main_v67 main_v87 ((fun x i u => Host.scatter scatter_S3x3_S2_S__n_01_01_0 (fun _ b => b) x i u) : (⟨S3x3, .f32⟩ : BufTy).Contents (Elt F) → (⟨S2, .i32⟩ : BufTy).Contents (Elt F) → (⟨S_, .f32⟩ : BufTy).Contents (Elt F) → (⟨S3x3, .f32⟩ : BufTy).Contents (Elt F)),
    nullary main_c_25 (constantI S_ 32 2#32),
    unary main_c_25 main_v88 (broadcastInDim S1 ![] bcast_S_S1 : (⟨S_, .i32⟩ : BufTy).Contents (Elt F) → (⟨S1, .i32⟩ : BufTy).Contents (Elt F)),
    nullary main_c_26 (constantI S_ 32 1#32),
    unary main_c_26 main_v89 (broadcastInDim S1 ![] bcast_S_S1 : (⟨S_, .i32⟩ : BufTy).Contents (Elt F) → (⟨S1, .i32⟩ : BufTy).Contents (Elt F)),
    binary main_v88 main_v89 main_v90 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v87 main_v90 main_v67 main_v91 ((fun x i u => Host.scatter scatter_S3x3_S2_S__n_01_01_0 (fun _ b => b) x i u) : (⟨S3x3, .f32⟩ : BufTy).Contents (Elt F) → (⟨S2, .i32⟩ : BufTy).Contents (Elt F) → (⟨S_, .f32⟩ : BufTy).Contents (Elt F) → (⟨S3x3, .f32⟩ : BufTy).Contents (Elt F)),
    nullary main_c_27 (constantI S_ 32 0#32),
    unary main_c_27 main_v92 (broadcastInDim S3x3 ![] bcast_S_S3x3 : (⟨S_, .i32⟩ : BufTy).Contents (Elt F) → (⟨S3x3, .i32⟩ : BufTy).Contents (Elt F)),
    binary main_arg1 main_v92 main_v93 (cmpi .sgt : (⟨S3x3, .i32⟩ : BufTy).Contents (Elt F) → (⟨S3x3, .i32⟩ : BufTy).Contents (Elt F) → (⟨S3x3, .i1⟩ : BufTy).Contents (Elt F)),
    nullary main_cst_28 (constant S_ .f32 0xD9FFCB9E#32) ]

/-- The masked matrix, its softmax over axis 0, the product with rows 1..3 and the concatenation under row 0. -/
def opsC : List (HloOp τ sig (Elt F)) :=
  [ TRef.unary (TRef.of (T := ⟨S_, .f32⟩) main_cst_28) (TRef.of (T := ⟨S_, .f32⟩) main_call6_v0) id,
    TRef.unary (TRef.of (T := ⟨S_, .f32⟩) main_call6_v0) (TRef.of (T := ⟨S3x3, .f32⟩) main_call6_v1) (broadcastInDim S3x3 ![] bcast_S_S3x3),
    TRef.ternary (TRef.of (T := ⟨S3x3, .i1⟩) main_v93) (TRef.of (T := ⟨S3x3, .f32⟩) main_v91) (TRef.of (T := ⟨S3x3, .f32⟩) main_call6_v1) (TRef.of (T := ⟨S3x3, .f32⟩) main_v94) select,
    nullary main_cst_29 (constant S_ .f32 0xFF800000#32),
    binary main_v94 main_cst_29 main_v95 ((fun x v => Host.reduce FloatOps.maximumf x v reducesTo_S3x3_S3_d0 h_S_) : (⟨S3x3, .f32⟩ : BufTy).Contents (Elt F) → (⟨S_, .f32⟩ : BufTy).Contents (Elt F) → (⟨S3, .f32⟩ : BufTy).Contents (Elt F)),
    nullary main_cst_30 (constant S_ .f32 0xFF800000#32),
    unary main_cst_30 main_v96 (broadcastInDim S3 ![] bcast_S_S3 : (⟨S_, .f32⟩ : BufTy).Contents (Elt F) → (⟨S3, .f32⟩ : BufTy).Contents (Elt F)),
    binary main_v96 main_v95 main_v97 (maximumf : (⟨S3, .f32⟩ : BufTy).Contents (Elt F) → (⟨S3, .f32⟩ : BufTy).Contents (Elt F) → (⟨S3, .f32⟩ : BufTy).Contents (Elt F)),
    unary main_v97 main_v98 (broadcastInDim S1x3 ![1] bcast_S3_S1x3_1 : (⟨S3, .f32⟩ : BufTy).Contents (Elt F) → (⟨S1x3, .f32⟩ : BufTy).Contents (Elt F)),
    unary main_v98 main_v99 (broadcastInDim S3x3 ![0, 1] bcast_S1x3_S3x3_0_1 : (⟨S1x3, .f32⟩ : BufTy).Contents (Elt F) → (⟨S3x3, .f32⟩ : BufTy).Contents (Elt F)),
    binary main_v94 main_v99 main_v100 (subf : (⟨S3x3, .f32⟩ : BufTy).Contents (Elt F) → (⟨S3x3, .f32⟩ : BufTy).Contents (Elt F) → (⟨S3x3, .f32⟩ : BufTy).Contents (Elt F)),
    unary main_v100 main_v101 (Host.exp : (⟨S3x3, .f32⟩ : BufTy).Contents (Elt F) → (⟨S3x3, .f32⟩ : BufTy).Contents (Elt F)),
    nullary main_cst_31 (constant S_ .f32 0x00000000#32),
    binary main_v101 main_cst_31 main_v102 ((fun x v => Host.reduceAdd x v reducesTo_S3x3_S3_d0 h_S_) : (⟨S3x3, .f32⟩ : BufTy).Contents (Elt F) → (⟨S_, .f32⟩ : BufTy).Contents (Elt F) → (⟨S3, .f32⟩ : BufTy).Contents (Elt F)),
    unary main_v102 main_v103 (broadcastInDim S1x3 ![1] bcast_S3_S1x3_1 : (⟨S3, .f32⟩ : BufTy).Contents (Elt F) → (⟨S1x3, .f32⟩ : BufTy).Contents (Elt F)),
    unary main_v103 main_v104 (broadcastInDim S3x3 ![0, 1] bcast_S1x3_S3x3_0_1 : (⟨S1x3, .f32⟩ : BufTy).Contents (Elt F) → (⟨S3x3, .f32⟩ : BufTy).Contents (Elt F)),
    binary main_v101 main_v104 main_v105 (Host.divf : (⟨S3x3, .f32⟩ : BufTy).Contents (Elt F) → (⟨S3x3, .f32⟩ : BufTy).Contents (Elt F) → (⟨S3x3, .f32⟩ : BufTy).Contents (Elt F)),
    unary main_v0 main_v106 ((extractStridedSlice S3x8192 ![1, 0] · slices_S4x8192_S3x8192_1_0) : (⟨S4x8192, .f32⟩ : BufTy).Contents (Elt F) → (⟨S3x8192, .f32⟩ : BufTy).Contents (Elt F)),
    binary main_v105 main_v106 main_v107 ((fun l r => Host.dotGeneral dot_S3x3_S3x8192_S3x8192_1_0_0_1_n_n none l r) : (⟨S3x3, .f32⟩ : BufTy).Contents (Elt F) → (⟨S3x8192, .f32⟩ : BufTy).Contents (Elt F) → (⟨S3x8192, .f32⟩ : BufTy).Contents (Elt F)),
    unary main_v0 main_v108 ((extractStridedSlice S1x8192 ![0, 0] · slices_S4x8192_S1x8192_0_0) : (⟨S4x8192, .f32⟩ : BufTy).Contents (Elt F) → (⟨S1x8192, .f32⟩ : BufTy).Contents (Elt F)),
    binary main_v108 main_v107 main_v109 ((fun a b => concatenate S4x8192 0 [⟨S1x8192, a⟩, ⟨S3x8192, b⟩] concatenates_S1x8192_S3x8192_S4x8192_d0) : (⟨S1x8192, .f32⟩ : BufTy).Contents (Elt F) → (⟨S3x8192, .f32⟩ : BufTy).Contents (Elt F) → (⟨S4x8192, .f32⟩ : BufTy).Contents (Elt F)) ]

end Cert.ReferenceIdeal.RefRun

end
-- ==== Proof.Tail.RefMain.lean ====
/-
  The reference program's run over its four operation lists: @main is the lists run in order, every operation
  touches TensorCore references only and allocates nothing, and so every weakly fair execution terminates with
  each buffer at the fold of the four lists, one after the other, over the contents the launch dealt.
-/
import proofs.«113935_j84310208020843_1_alg».proof.Proof.Tail.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program is the four lists run in order -/

set_option maxRecDepth 8192 in
set_option maxHeartbeats 4000000 in
theorem main_eq (c : Dev nD) : main (F := F) c = seq (op0 ++ (opsA ++ (opsB ++ opsC))) := rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-! ## Every operation touches TensorCore references only, list by list -/

theorem op0_sub : (op0 : List (HloOp τ sig (Elt F))).Forall fun op => op.bufs ⊆ tcRefs τ sig := by
  unfold op0; exact binary_bufs_sub ..
theorem opsA_sub : (opsA : List (HloOp τ sig (Elt F))).Forall fun op => op.bufs ⊆ tcRefs τ sig := by
  unfold opsA; exact ⟨unary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., unary_bufs_sub .., unary_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
theorem opsB_sub : (opsB : List (HloOp τ sig (Elt F))).Forall fun op => op.bufs ⊆ tcRefs τ sig := by
  unfold opsB; exact ⟨unary_bufs_sub .., reshape_bufs_sub .., unary_bufs_sub .., reshape_bufs_sub .., unary_bufs_sub .., reshape_bufs_sub .., binary_bufs_sub .., nullary_bufs_sub .., binary_bufs_sub .., binary_bufs_sub .., unary_bufs_sub .., reshape_bufs_sub .., unary_bufs_sub .., reshape_bufs_sub .., unary_bufs_sub .., reshape_bufs_sub .., binary_bufs_sub .., nullary_bufs_sub .., binary_bufs_sub .., binary_bufs_sub .., unary_bufs_sub .., reshape_bufs_sub .., unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., nullary_bufs_sub .., unary_bufs_sub .., binary_bufs_sub .., nullary_bufs_sub ..⟩
theorem opsC_sub : (opsC : List (HloOp τ sig (Elt F))).Forall fun op => op.bufs ⊆ tcRefs τ sig := by
  unfold opsC; exact ⟨unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub ..⟩

theorem ops_sub : (op0 ++ (opsA ++ (opsB ++ opsC)) : List (HloOp τ sig (Elt F))).Forall fun op => op.bufs ⊆ tcRefs τ sig :=
  List.forall_append.2 ⟨op0_sub, List.forall_append.2 ⟨opsA_sub, List.forall_append.2 ⟨opsB_sub, opsC_sub⟩⟩⟩

/-! ## Every operation determines its results (none allocates), list by list -/

theorem op0_fresh : (op0 : List (HloOp τ sig (Elt F))).Forall fun op => op.fresh = ∅ := by
  unfold op0; exact rfl
theorem opsA_fresh : (opsA : List (HloOp τ sig (Elt F))).Forall fun op => op.fresh = ∅ := by
  unfold opsA; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsB_fresh : (opsB : List (HloOp τ sig (Elt F))).Forall fun op => op.fresh = ∅ := by
  unfold opsB; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsC_fresh : (opsC : List (HloOp τ sig (Elt F))).Forall fun op => op.fresh = ∅ := by
  unfold opsC; exact ⟨rfl, rfl, rfl, rfl, rfl, rfl, rfl, rfl, rfl, rfl, rfl, rfl, rfl, rfl, rfl, rfl, rfl, rfl, rfl, rfl, rfl⟩

theorem ops_fresh : ∀ op ∈ (op0 ++ (opsA ++ (opsB ++ opsC)) : List (HloOp τ sig (Elt F))), op.fresh = ∅ :=
  List.forall_iff_forall_mem.1
    (List.forall_append.2 ⟨op0_fresh, List.forall_append.2 ⟨opsA_fresh, List.forall_append.2 ⟨opsB_fresh, opsC_fresh⟩⟩⟩)

/-! ## The run, with each buffer at the fold of the four lists over the launch contents -/

/-- The fold over two lists in a row is the fold over the second after the fold over the first. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- Every weakly fair execution of @main terminates, each TensorCore buffer at the operations' fold, taken list
    by list, over what the launch dealt it. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsC (after opsB (after opsA (after op0 (launchContents m c)))) (Proc.devRef .tc b) :=
  (θ_run defs _ _).mono (fun _ h c b => by
      rw [h c b, after_append', after_append', after_append'])
    (run_seq scopedRefs_eq scopedSems_eq defs main (fun _ => op0 ++ (opsA ++ (opsB ++ opsC))) main_eq (fun _ => ops_sub) m ρ
      (fun _ => ops_fresh))

end Cert.ReferenceIdeal.RefRun

end
-- ==== Proof.Tail.RefRun.lean ====
/-
  The reference program's four results as staged pure functions. Over an arbitrary valuation of the buffers,
  each of the four operation lists leaves at its result buffers a stage function of the few values it reads
  (the product; the two leaky-rectified distance matrices; the scalars, the scattered 3x3 matrix, the mask and
  the fill constant) and leaves the buffers later lists read untouched. Composed along the run, the results of
  @main are the staged compositions of the product `h @ W` and of adj.
-/
import proofs.«113935_j84310208020843_1_alg».proof.Proof.Tail.RefMain
import proofs.«113935_j84310208020843_1_alg».proof.Proof.Tail.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The first list: the matrix product -/

theorem op0_v0 (V : Valuation τ sig (Elt F)) : after op0 V (Proc.devRef .tc main_v0)
    = Host.dotGeneral dot_S4x8192_S8192x8192_S4x8192_1_0_0_1_n_n none (V (Proc.devRef .tc main_arg0)) (V (Proc.devRef .tc main_arg2)) := by
  unfold op0; after_results_simp
theorem op0_keeps_arg0 (V : Valuation τ sig (Elt F)) : after op0 V (Proc.devRef .tc main_arg0) = V (Proc.devRef .tc main_arg0) := by
  unfold op0; after_results_simp
theorem op0_keeps_arg1 (V : Valuation τ sig (Elt F)) : after op0 V (Proc.devRef .tc main_arg1) = V (Proc.devRef .tc main_arg1) := by
  unfold op0; after_results_simp
theorem op0_keeps_arg2 (V : Valuation τ sig (Elt F)) : after op0 V (Proc.devRef .tc main_arg2) = V (Proc.devRef .tc main_arg2) := by
  unfold op0; after_results_simp

/-! ## The second list: the two leaky-rectified distance matrices, functions of the product alone -/

set_option maxRecDepth 8192 in
theorem opsA_v35 (V : Valuation τ sig (Elt F)) : after opsA V (Proc.devRef .tc main_v35) = Cert.Tail.lrelu4 (V (Proc.devRef .tc main_v0)) := by
  unfold opsA; after_results_simp <;> rfl
set_option maxRecDepth 8192 in
theorem opsA_v40 (V : Valuation τ sig (Elt F)) : after opsA V (Proc.devRef .tc main_v40) = Cert.Tail.lrelu3 (V (Proc.devRef .tc main_v0)) := by
  unfold opsA; after_results_simp <;> rfl
theorem opsA_keeps_v0 (V : Valuation τ sig (Elt F)) : after opsA V (Proc.devRef .tc main_v0) = V (Proc.devRef .tc main_v0) := by
  unfold opsA; after_results_simp
theorem opsA_keeps_arg0 (V : Valuation τ sig (Elt F)) : after opsA V (Proc.devRef .tc main_arg0) = V (Proc.devRef .tc main_arg0) := by
  unfold opsA; after_results_simp
theorem opsA_keeps_arg1 (V : Valuation τ sig (Elt F)) : after opsA V (Proc.devRef .tc main_arg1) = V (Proc.devRef .tc main_arg1) := by
  unfold opsA; after_results_simp
theorem opsA_keeps_arg2 (V : Valuation τ sig (Elt F)) : after opsA V (Proc.devRef .tc main_arg2) = V (Proc.devRef .tc main_arg2) := by
  unfold opsA; after_results_simp

/-! ## The third list: the three scalars, the six writes and the mask, functions of the two matrices and of adj -/

theorem opsB_v49 (V : Valuation τ sig (Elt F)) : after opsB V (Proc.devRef .tc main_v49) = Cert.Tail.sc49 (V (Proc.devRef .tc main_v35)) := by
  unfold opsB; after_results_simp <;> rfl
theorem opsB_v58 (V : Valuation τ sig (Elt F)) : after opsB V (Proc.devRef .tc main_v58) = Cert.Tail.sc58 (V (Proc.devRef .tc main_v35)) := by
  unfold opsB; after_results_simp <;> rfl
theorem opsB_v67 (V : Valuation τ sig (Elt F)) : after opsB V (Proc.devRef .tc main_v67) = Cert.Tail.sc67 (V (Proc.devRef .tc main_v35)) := by
  unfold opsB; after_results_simp <;> rfl
set_option maxRecDepth 8192 in
theorem opsB_v91 (V : Valuation τ sig (Elt F)) : after opsB V (Proc.devRef .tc main_v91)
    = Cert.Tail.scattered (V (Proc.devRef .tc main_v35)) (V (Proc.devRef .tc main_v40)) := by
  unfold opsB; after_results_simp <;> rfl
theorem opsB_v93 (V : Valuation τ sig (Elt F)) : after opsB V (Proc.devRef .tc main_v93) = Cert.Tail.adjMask (V (Proc.devRef .tc main_arg1)) := by
  unfold opsB; after_results_simp <;> rfl
theorem opsB_cst_28 (V : Valuation τ sig (Elt F)) : after opsB V (Proc.devRef .tc main_cst_28) = Cert.Tail.negBig (F := F) := by
  unfold opsB; after_results_simp <;> rfl
theorem opsB_keeps_v0 (V : Valuation τ sig (Elt F)) : after opsB V (Proc.devRef .tc main_v0) = V (Proc.devRef .tc main_v0) := by
  unfold opsB; after_results_simp
theorem opsB_keeps_arg0 (V : Valuation τ sig (Elt F)) : after opsB V (Proc.devRef .tc main_arg0) = V (Proc.devRef .tc main_arg0) := by
  unfold opsB; after_results_simp
theorem opsB_keeps_arg1 (V : Valuation τ sig (Elt F)) : after opsB V (Proc.devRef .tc main_arg1) = V (Proc.devRef .tc main_arg1) := by
  unfold opsB; after_results_simp
theorem opsB_keeps_arg2 (V : Valuation τ sig (Elt F)) : after opsB V (Proc.devRef .tc main_arg2) = V (Proc.devRef .tc main_arg2) := by
  unfold opsB; after_results_simp

/-! ## The fourth list: the masked softmax, the product and the concatenation -/

set_option maxRecDepth 8192 in
theorem opsC_v109 (V : Valuation τ sig (Elt F)) : after opsC V (Proc.devRef .tc main_v109)
    = Cert.Tail.attend (V (Proc.devRef .tc main_v93)) (V (Proc.devRef .tc main_v91)) (V (Proc.devRef .tc main_cst_28)) (V (Proc.devRef .tc main_v0)) := by
  unfold opsC; after_results_simp <;> rfl
theorem opsC_keeps_v49 (V : Valuation τ sig (Elt F)) : after opsC V (Proc.devRef .tc main_v49) = V (Proc.devRef .tc main_v49) := by
  unfold opsC; after_results_simp
theorem opsC_keeps_v58 (V : Valuation τ sig (Elt F)) : after opsC V (Proc.devRef .tc main_v58) = V (Proc.devRef .tc main_v58) := by
  unfold opsC; after_results_simp
theorem opsC_keeps_v67 (V : Valuation τ sig (Elt F)) : after opsC V (Proc.devRef .tc main_v67) = V (Proc.devRef .tc main_v67) := by
  unfold opsC; after_results_simp
theorem opsC_keeps_arg0 (V : Valuation τ sig (Elt F)) : after opsC V (Proc.devRef .tc main_arg0) = V (Proc.devRef .tc main_arg0) := by
  unfold opsC; after_results_simp
theorem opsC_keeps_arg1 (V : Valuation τ sig (Elt F)) : after opsC V (Proc.devRef .tc main_arg1) = V (Proc.devRef .tc main_arg1) := by
  unfold opsC; after_results_simp
theorem opsC_keeps_arg2 (V : Valuation τ sig (Elt F)) : after opsC V (Proc.devRef .tc main_arg2) = V (Proc.devRef .tc main_arg2) := by
  unfold opsC; after_results_simp

/-! ## The run: the four results as the staged functions of the product and of adj, the arguments unchanged -/

/-- On every device, for any float values, from any memory with zero counters: every weakly fair execution of
    @main terminates with each result at its staged function of the product `h @ W` (and of adj), and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109) = Cert.Tail.out109 (Host.dotGeneral dot_S4x8192_S8192x8192_S4x8192_1_0_0_1_n_n none (m ((c.tc : Thread nD τ).loc main_arg0)) (m ((c.tc : Thread nD τ).loc main_arg2))) (m ((c.tc : Thread nD τ).loc main_arg1))
      ∧ r.2.mem ((c.tc : Thread nD τ).loc main_v49) = Cert.Tail.out49 (Host.dotGeneral dot_S4x8192_S8192x8192_S4x8192_1_0_0_1_n_n none (m ((c.tc : Thread nD τ).loc main_arg0)) (m ((c.tc : Thread nD τ).loc main_arg2)))
      ∧ r.2.mem ((c.tc : Thread nD τ).loc main_v58) = Cert.Tail.out58 (Host.dotGeneral dot_S4x8192_S8192x8192_S4x8192_1_0_0_1_n_n none (m ((c.tc : Thread nD τ).loc main_arg0)) (m ((c.tc : Thread nD τ).loc main_arg2)))
      ∧ r.2.mem ((c.tc : Thread nD τ).loc main_v67) = Cert.Tail.out67 (Host.dotGeneral dot_S4x8192_S8192x8192_S4x8192_1_0_0_1_n_n none (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨by rw [h c main_v109, opsC_v109, opsB_v93, opsB_v91, opsB_cst_28, opsB_keeps_v0, opsA_v35, opsA_v40, opsA_keeps_v0,
          opsA_keeps_arg1, op0_v0, op0_keeps_arg1]; rfl,
     by rw [h c main_v49, opsC_keeps_v49, opsB_v49, opsA_v35, op0_v0]; rfl,
     by rw [h c main_v58, opsC_keeps_v58, opsB_v58, opsA_v35, op0_v0]; rfl,
     by rw [h c main_v67, opsC_keeps_v67, opsB_v67, opsA_v35, op0_v0]; rfl,
     by rw [h c main_arg0, opsC_keeps_arg0, opsB_keeps_arg0, opsA_keeps_arg0, op0_keeps_arg0],
     by rw [h c main_arg1, opsC_keeps_arg1, opsB_keeps_arg1, opsA_keeps_arg1, op0_keeps_arg1],
     by rw [h c main_arg2, opsC_keeps_arg2, opsB_keeps_arg2, opsA_keeps_arg2, op0_keeps_arg2]⟩)
    (run_raw m ρ)

end Cert.ReferenceIdeal.RefRun

end
-- ==== Proof.lean ====
/- The certificate of a K-blocked matmul kernel against jnp.matmul, each followed by the same 153 host
   operations (pairwise distances of the product's rows, a leaky relu, three scalars scattered into a 3 × 3
   matrix, a masked softmax, a small matmul and a concatenate).

   The kernel computes h @ W on a 4 × 8 grid: for each of 4 column blocks it zeroes an accumulator at k = 0,
   adds the product of a [4, 1024] block of h and a [1024, 2048] block of W at each of 8 steps (the operands
   rounded to bf16 first: no change over the extended reals), and stores the accumulator into the output block
   at k = 7.  Over the extended reals that is the sum over all 8192 products regrouped in 8 blocks, which is
   the reference's dot_general; no law used needs the inputs finite.  Both programs then apply the same
   operations to that product and to the adjacency input, so their results are the same functions
   (`Cert.Tail.out…`) of equal arguments.

   frame (word-level and idealized kernel): Proof/BitsFrame, Proof/IdealFrame — the accumulator carried
     between grid points as the region's invariant, the body's three control cases, the launch of a region
     followed by host operations; the three inputs are only read.
   frame (reference) and its results: Proof/Tail/RefRun.
   the kernel's results: Proof/IdealValue (the accumulated blocks are h @ W), Proof/Tail/KernelTail.
   preserves: the idealization rewrote nothing. -/
import proofs.«113935_j84310208020843_1_alg».proof.Defs
import proofs.«113935_j84310208020843_1_alg».proof.Proof.Gen.Kernel
import proofs.«113935_j84310208020843_1_alg».proof.Proof.Gen.KernelIdeal
import proofs.«113935_j84310208020843_1_alg».proof.Proof.Gen.ReferenceIdeal
import proofs.«113935_j84310208020843_1_alg».proof.Proof.Gen.Pre_finite_inputs
import proofs.«113935_j84310208020843_1_alg».proof.Proof.BitsFrame.Frame
import proofs.«113935_j84310208020843_1_alg».proof.Proof.IdealValue.Results
import proofs.«113935_j84310208020843_1_alg».proof.Proof.Tail.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Region.frame (F := Bits) m ρ

theorem frame_ki : Cert.frame_KernelIdeal := fun m ρ _ => Cert.KernelIdeal.Region.frame (F := Ideal) m ρ

/-- The reference's run with its results dropped. -/
theorem frame_ri : Cert.frame_ReferenceIdeal := fun m ρ _ =>
  (θ_run Cert.ReferenceIdeal.defs _ _).mono (fun _ h c => ⟨(h c).2.2.2.2.1, (h c).2.2.2.2.2.1, (h c).2.2.2.2.2.2⟩)
    (Cert.ReferenceIdeal.RefRun.run (F := Ideal) m ρ)

/-- Both runs end with the four results at the same functions of h @ W and the adjacency input. -/
theorem algebraic : Cert.algebraic_KernelIdeal_ReferenceIdeal := by
  intro m ρ m' ρ' _ hagree
  refine ⟨_, _, _, _, Cert.KernelIdeal.Results.run m ρ, ?_⟩
  refine (θ_run Cert.ReferenceIdeal.defs _ _).mono (fun _ h c => ?_) (Cert.ReferenceIdeal.RefRun.run (F := Ideal) m' ρ')
  obtain ⟨h109, h49, h58, h67, ha0, ha1, ha2⟩ := h c
  obtain ⟨e0, e1, e2⟩ := hagree c
  refine ⟨h109.trans ?_, h49.trans ?_, h58.trans ?_, h67.trans ?_, ha0, ha1, ha2⟩
  · rw [e0, e1, e2]
  · rw [e0, e2]
  · rw [e0, e2]
  · rw [e0, e2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
